-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2 : Shape := ⟨2, ![2048, 2]⟩
abbrev S96000x1024 : Shape := ⟨2, ![96000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩

class Facts : Prop where
  bcast_S_S96000x1024 : S_.BroadcastsInDim S96000x1024 (![] : Fin 0 → Fin S96000x1024.rank)
  reducesTo_S96000x1024_S_d0_1 : S96000x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_arg0 : IVec S2048x2 32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_c_6 : IVec S_ 32 := constantI S_ 32 0#32
  let main_v19 : IVec S2048x2 32 := broadcastInDim S2048x2 ![] bcast_S_S2048x2 main_c_6
  let main_v20 : IVec S2048x2 1 := cmpi .sge main_arg0 main_v19
  let main_c_7 : IVec S_ 32 := constantI S_ 32 32000#32
  let main_v21 : IVec S2048x2 32 := broadcastInDim S2048x2 ![] bcast_S_S2048x2 main_c_7
  let main_v22 : IVec S2048x2 1 := cmpi .slt main_arg0 main_v21
  let main_v23 : IVec S2048x2 1 := andi main_v20 main_v22
  let main_c_8 : IVec S_ 1 := constantI S_ 1 1#1
  let main_v24 : IVec S_ 1 := (fun x v => Host.reduce IntOp.andi x v reducesTo_S2048x2_S_d0_1 h_S_) main_v23 main_c_8
  let main_v25 : IVec S_ 1 := andi main_v18 main_v24
  main_v25

def fn {F : FTy → Type} [FloatOps F] (main_arg0 : IVec S2048x2 32) (main_arg1 : FVec F S96000x1024 .f32) (main_arg2 : FVec F S1024 .f32) (main_arg3 : FVec F S1024x32000 .f32) (main_arg4 : FVec F S32000 .f32) : IVec S_ 1 :=
  let main_v0 : FVec F S96000x1024 .f32 := Host.absf main_arg1
  let main_cst : FVec F S_ .f32 := constant S_ .f32 0x7F800000#32
  let main_v1 : FVec F S96000x1024 .f32 := broadcastInDim S96000x1024 ![] bcast_S_S96000x1024 main_cst
  let main_v2 : IVec S96000x1024 1 := cmpf .olt main_v0 main_v1
  let main_c : IVec S_ 1 := constantI S_ 1 1#1
  let main_v3 : IVec S_ 1 := (fun x v => Host.reduce IntOp.andi x v reducesTo_S96000x1024_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x32000 .f32 := Host.absf main_arg3
  let main_cst_2 : FVec F S_ .f32 := constant S_ .f32 0x7F800000#32
  let main_v10 : FVec F S1024x32000 .f32 := broadcastInDim S1024x32000 ![] bcast_S_S1024x32000 main_cst_2
  let main_v11 : IVec S1024x32000 1 := cmpf .olt main_v9 main_v10
  let main_c_3 : IVec S_ 1 := constantI S_ 1 1#1
  let main_v12 : IVec S_ 1 := (fun x v => Host.reduce IntOp.andi x v reducesTo_S1024x32000_S_d0_1 h_S_) main_v11 main_c_3
  let main_v13 : IVec S_ 1 := andi main_v8 main_v12
  let main_v14 : FVec F S32000 .f32 := Host.absf main_arg4
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg0 main_v13 main_v16
-- ==== Kernel.lean ====
abbrev S2048x2 : Shape := ⟨2, ![2048, 2]⟩
abbrev S96000x1024 : Shape := ⟨2, ![96000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S2x2 : Shape := ⟨2, ![2, 2]⟩
abbrev S2050x2 : Shape := ⟨2, ![2050, 2]⟩
abbrev S2048x2x1 : Shape := ⟨3, ![2048, 2, 1]⟩
abbrev S2048x2x3 : Shape := ⟨3, ![2048, 2, 3]⟩
abbrev S4096x3 : Shape := ⟨2, ![4096, 3]⟩
abbrev S4096x1 : Shape := ⟨2, ![4096, 1]⟩
abbrev S32000x1024 : Shape := ⟨2, ![32000, 1024]⟩
abbrev S1x1024 : Shape := ⟨2, ![1, 1024]⟩
abbrev S4096x1024 : Shape := ⟨2, ![4096, 1024]⟩
abbrev S1024x1 : Shape := ⟨2, ![1024, 1]⟩
abbrev S640x1024 : Shape := ⟨2, ![640, 1024]⟩
abbrev S1024x1024 : Shape := ⟨2, ![1024, 1024]⟩
abbrev S1024x640 : Shape := ⟨2, ![1024, 640]⟩
abbrev S1x32000 : Shape := ⟨2, ![1, 32000]⟩
abbrev S4096x32000 : Shape := ⟨2, ![4096, 32000]⟩
abbrev S1024x1280 : Shape := ⟨2, ![1024, 1280]⟩
abbrev S1x1280 : Shape := ⟨2, ![1, 1280]⟩
abbrev S2048x2x32000 : Shape := ⟨3, ![2048, 2, 32000]⟩

abbrev nBuf : Space → Nat
  | .hbm => 31
  | .vmem => 24
  | .smem => 0
  | _ => 0

abbrev bufTy : (tb : Table) → Fin (tcTables nBuf tb) → BufTy
  | .hbm, ⟨0, _⟩ => ⟨S2048x2, .i32⟩
  | .hbm, ⟨1, _⟩ => ⟨S96000x1024, .f32⟩
  | .hbm, ⟨2, _⟩ => ⟨S1024, .f32⟩
  | .hbm, ⟨3, _⟩ => ⟨S1024x32000, .f32⟩
  | .hbm, ⟨4, _⟩ => ⟨S32000, .f32⟩
  | .hbm, ⟨5, _⟩ => ⟨S_, .i32⟩
  | .hbm, ⟨6, _⟩ => ⟨S2x2, .i32⟩
  | .hbm, ⟨7, _⟩ => ⟨S2050x2, .i32⟩
  | .hbm, ⟨8, _⟩ => ⟨S2048x2, .i32⟩
  | .hbm, ⟨9, _⟩ => ⟨S2048x2, .i32⟩
  | .hbm, ⟨10, _⟩ => ⟨S2048x2, .i32⟩
  | .hbm, ⟨11, _⟩ => ⟨S2048x2x1, .i32⟩
  | .hbm, ⟨12, _⟩ => ⟨S2048x2x1, .i32⟩
  | .hbm, ⟨13, _⟩ => ⟨S2048x2x1, .i32⟩
  | .hbm, ⟨14, _⟩ => ⟨S2048x2x3, .i32⟩
  | .hbm, ⟨15, _⟩ => ⟨S4096x3, .i32⟩
  | .hbm, ⟨16, _⟩ => ⟨S4096x1, .i32⟩
  | .hbm, ⟨17, _⟩ => ⟨S4096x1, .i32⟩
  | .hbm, ⟨18, _⟩ => ⟨S4096x1, .i32⟩
  | .hbm, ⟨19, _⟩ => ⟨S32000x1024, .f32⟩
  | .hbm, ⟨20, _⟩ => ⟨S32000x1024, .bf16⟩
  | .hbm, ⟨21, _⟩ => ⟨S32000x1024, .f32⟩
  | .hbm, ⟨22, _⟩ => ⟨S32000x1024, .bf16⟩
  | .hbm, ⟨23, _⟩ => ⟨S32000x1024, .f32⟩
  | .hbm, ⟨24, _⟩ => ⟨S32000x1024, .bf16⟩
  | .hbm, ⟨25, _⟩ => ⟨S1x1024, .f32⟩
  | .hbm, ⟨26, _⟩ => ⟨S4096x1024, .f32⟩
  | .hbm, ⟨27, _⟩ => ⟨S1024x32000, .bf16⟩
  | .hbm, ⟨28, _⟩ => ⟨S1x32000, .f32⟩
  | .hbm, ⟨29, _⟩ => ⟨S4096x32000, .f32⟩
  | .hbm, ⟨30, _⟩ => ⟨S2048x2x32000, .f32⟩
  | .local _ .vmem, ⟨0, _⟩ => ⟨S1024x1, .i32⟩
  | .local _ .vmem, ⟨1, _⟩ => ⟨S1024x1, .i32⟩
  | .local _ .vmem, ⟨2, _⟩ => ⟨S1024x1, .i32⟩
  | .local _ .vmem, ⟨3, _⟩ => ⟨S1024x1, .i32⟩
  | .local _ .vmem, ⟨4, _⟩ => ⟨S1024x1, .i32⟩
  | .local _ .vmem, ⟨5, _⟩ => ⟨S1024x1, .i32⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S640x1024, .bf16⟩
  | .local _ .vmem, ⟨11, _⟩ => ⟨S640x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1280, .bf16⟩
  | .local _ .vmem, ⟨19, _⟩ => ⟨S1024x1280, .bf16⟩
  | .local _ .vmem, ⟨20, _⟩ => ⟨S1x1280, .f32⟩
  | .local _ .vmem, ⟨21, _⟩ => ⟨S1x1280, .f32⟩
  | .local _ .vmem, ⟨22, _⟩ => ⟨S1024x1280, .f32⟩
  | .local _ .vmem, ⟨23, _⟩ => ⟨S1024x1280, .f32⟩
  | _, _ => ⟨S2048x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![4, 50], ![false, false]⟩

def k0_cond2 (i : grid0.Coords) : BitVec 1 :=
  let arg1 : BitVec 32 := BitVec.ofNat 32 (i 1).val
  let c49_i32 : BitVec 32 := 49#32
  let v52 : BitVec 1 := Scalar.cmpi .eq arg1 c49_i32
  let v53 : BitVec 32 := Scalar.extui v52
  let c0_i32_26 : BitVec 32 := 0#32
  let v54 : BitVec 1 := Scalar.cmpi .ne v53 c0_i32_26
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1280 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2x2 : S_.BroadcastsInDim S2x2 (![] : Fin 0 → Fin S2x2.rank)
  concatenates_S2x2_S2048x2_S2050x2_d0 : Shape.Concatenates [S2x2, S2048x2] S2050x2 0
  slices_S2050x2_S2048x2_0_0 : S2050x2.Slices ![0, 0] S2048x2
  slices_S2050x2_S2048x2_1_0 : S2050x2.Slices ![1, 0] S2048x2
  slices_S2050x2_S2048x2_2_0 : S2050x2.Slices ![2, 0] S2048x2
  bcast_S2048x2_S2048x2x1_0_1 : S2048x2.BroadcastsInDim S2048x2x1 (![0, 1] : Fin 2 → Fin S2048x2x1.rank)
  concatenates_S2048x2x1_S2048x2x1_S2048x2x1_S2048x2x3_d2 : Shape.Concatenates [S2048x2x1, S2048x2x1, S2048x2x1] S2048x2x3 2
  shapeCasts_S2048x2x3_S4096x3 : S2048x2x3.ShapeCasts S4096x3
  slices_S4096x3_S4096x1_0_0 : S4096x3.Slices ![0, 0] S4096x1
  slices_S4096x3_S4096x1_0_1 : S4096x3.Slices ![0, 1] S4096x1
  slices_S4096x3_S4096x1_0_2 : S4096x3.Slices ![0, 2] S4096x1
  slices_S96000x1024_S32000x1024_0_0 : S96000x1024.Slices ![0, 0] S32000x1024
  bitsLt_bf16_f32 : FTy.bits .bf16 < FTy.bits .f32
  slices_S96000x1024_S32000x1024_32000_0 : S96000x1024.Slices ![32000, 0] S32000x1024
  slices_S96000x1024_S32000x1024_64000_0 : S96000x1024.Slices ![64000, 0] S32000x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x640_d1_w32 : S1024x640.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x640 : S1024x1.Broadcasts S1024x640
  natLt_1_32 : 1 < 32
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32000_S1x32000 : S32000.ShapeCasts S1x32000
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1024x1280 : S1x1280.Broadcasts S1024x1280
  shapeCasts_S4096x32000_S2048x2x32000 : S4096x32000.ShapeCasts S2048x2x32000
  dot_S1024x640_S640x1024_S1024x1024_1_0_0_1_n_n_wf : DotDims.WF S1024x640 S640x1024 S1024x1024 [1] [0] [0] [1] [] []
  dot_S1024x1024_S1024x1280_S1024x1280_1_0_0_1_n_n_wf : DotDims.WF S1024x1024 S1024x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .i32 = 32 ∨ (Rect.block (s := S4096x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .i32 = 32 ∨ (Rect.block (s := S4096x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x1024.size a ≤ S32000x1024.size a
  hwx0_3 : ∀ i : grid0.Coords, EltTy.bits .bf16 = 32 ∨ (Rect.block (s := S32000x1024) S640x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S640x1024.size a ≤ S32000x1024.size a
  hwx0_4 : ∀ i : grid0.Coords, EltTy.bits .bf16 = 32 ∨ (Rect.block (s := S32000x1024) S640x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S640x1024.size a ≤ S32000x1024.size a
  hwx0_5 : ∀ i : grid0.Coords, EltTy.bits .bf16 = 32 ∨ (Rect.block (s := S32000x1024) S640x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S4096x1024.size a
  hwx0_7 : ∀ i : grid0.Coords, EltTy.bits .f32 = 32 ∨ (Rect.block (s := S4096x1024) S1024x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1280.size a ≤ S1024x32000.size a
  hwx1_1 : ∀ i : grid1.Coords, EltTy.bits .bf16 = 32 ∨ (Rect.block (s := S1024x32000) S1024x1280.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S4096x32000.size a
  hwx1_3 : ∀ i : grid1.Coords, EltTy.bits .f32 = 32 ∨ (Rect.block (s := S4096x32000) S1024x1280.size (cc1_transform_3 i) (hinb1_3 i)).WholeWords (EltTy.packing .f32)

variable [Facts₀]

def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf
def dot_S1024x1024_S1024x1280_S1024x1280_1_0_0_1_n_n : DotDims S1024x1024 S1024x1280 S1024x1280 where
  lhsContracting := [1]
  rhsContracting := [0]
  lhsNonContracting := [0]
  rhsNonContracting := [1]
  lhsBatch := []
  rhsBatch := []
  wf := dot_S1024x1024_S1024x1280_S1024x1280_1_0_0_1_n_n_wf

abbrev win0_0 : Pipeline.Window sig grid0 :=
  Pipeline.Window.ofSpec (Memref.whole main_v10) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S640x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S640x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S640x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v20) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1024x1280.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x2 : Shape := ⟨2, ![2048, 2]⟩
abbrev S96000x1024 : Shape := ⟨2, ![96000, 1024]⟩
abbrev S1024 : Shape := ⟨1, ![1024]⟩
abbrev S1024x32000 : Shape := ⟨2, ![1024, 32000]⟩
abbrev S32000 : Shape := ⟨1, ![32000]⟩
abbrev S_ : Shape := ⟨0, ![]⟩
abbrev S2x2 : Shape := ⟨2, ![2, 2]⟩
abbrev S2050x2 : Shape := ⟨2, ![2050, 2]⟩
abbrev S2048x2x1 : Shape := ⟨3, ![2048, 2, 1]⟩
abbrev S2048x2x3 : Shape := ⟨3, ![2048, 2, 3]⟩
abbrev S3 : Shape := ⟨1, ![3]⟩
abbrev S1x1x3 : Shape := ⟨3, ![1, 1, 3]⟩
abbrev S2048x2x3x1 : Shape := ⟨4, ![2048, 2, 3, 1]⟩
abbrev S2048x2x3x1024 : Shape := ⟨4, ![2048, 2, 3, 1024]⟩
abbrev S2048x2x1024 : Shape := ⟨3, ![2048, 2, 1024]⟩
abbrev S1x1x1024 : Shape := ⟨3, ![1, 1, 1024]⟩
abbrev S2048x2x32000 : Shape := ⟨3, ![2048, 2, 32000]⟩
abbrev S1x1x32000 : Shape := ⟨3, ![1, 1, 32000]⟩

abbrev nBuf : Space → Nat
  | .hbm => 49
  | .vmem => 0
  | .smem => 0
  | _ => 0

abbrev bufTy : (tb : Table) → Fin (tcTables nBuf tb) → BufTy
  | .hbm, ⟨0, _⟩ => ⟨S2048x2, .i32⟩
  | .hbm, ⟨1, _⟩ => ⟨S96000x1024, .f32⟩
  | .hbm, ⟨2, _⟩ => ⟨S1024, .f32⟩
  | .hbm, ⟨3, _⟩ => ⟨S1024x32000, .f32⟩
  | .hbm, ⟨4, _⟩ => ⟨S32000, .f32⟩
  | .hbm, ⟨5, _⟩ => ⟨S_, .i32⟩
  | .hbm, ⟨6, _⟩ => ⟨S2x2, .i32⟩
  | .hbm, ⟨7, _⟩ => ⟨S2050x2, .i32⟩
  | .hbm, ⟨8, _⟩ => ⟨S2048x2, .i32⟩
  | .hbm, ⟨9, _⟩ => ⟨S2048x2, .i32⟩
  | .hbm, ⟨10, _⟩ => ⟨S2048x2, .i32⟩
  | .hbm, ⟨11, _⟩ => ⟨S2048x2x1, .i32⟩
  | .hbm, ⟨12, _⟩ => ⟨S2048x2x1, .i32⟩
  | .hbm, ⟨13, _⟩ => ⟨S2048x2x1, .i32⟩
  | .hbm, ⟨14, _⟩ => ⟨S2048x2x3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S3, .i32⟩
  | .hbm, ⟨19, _⟩ => ⟨S1x1x3, .i32⟩
  | .hbm, ⟨20, _⟩ => ⟨S2048x2x3, .i32⟩
  | .hbm, ⟨21, _⟩ => ⟨S2048x2x3, .i32⟩
  | .hbm, ⟨22, _⟩ => ⟨S_, .i32⟩
  | .hbm, ⟨23, _⟩ => ⟨S2048x2x3, .i32⟩
  | .hbm, ⟨24, _⟩ => ⟨S2048x2x3, .i1⟩
  | .hbm, ⟨25, _⟩ => ⟨S_, .i32⟩
  | .hbm, ⟨26, _⟩ => ⟨S2048x2x3, .i32⟩
  | .hbm, ⟨27, _⟩ => ⟨S2048x2x3, .i32⟩
  | .hbm, ⟨28, _⟩ => ⟨S2048x2x3, .i32⟩
  | .hbm, ⟨29, _⟩ => ⟨S2048x2x3x1, .i32⟩
  | .hbm, ⟨30, _⟩ => ⟨S2048x2x3x1024, .f32⟩
  | .hbm, ⟨31, _⟩ => ⟨S_, .f32⟩
  | .hbm, ⟨32, _⟩ => ⟨S2048x2x1024, .f32⟩
  | .hbm, ⟨33, _⟩ => ⟨S1x1x1024, .f32⟩
  | .hbm, ⟨34, _⟩ => ⟨S2048x2x1024, .f32⟩
  | .hbm, ⟨35, _⟩ => ⟨S2048x2x1024, .f32⟩
  | .hbm, ⟨36, _⟩ => ⟨S2048x2x1024, .f32⟩
  | .hbm, ⟨37, _⟩ => ⟨S2048x2x1024, .f32⟩
  | .hbm, ⟨38, _⟩ => ⟨S_, .f32⟩
  | .hbm, ⟨39, _⟩ => ⟨S2048x2x1024, .f32⟩
  | .hbm, ⟨40, _⟩ => ⟨S2048x2x1024, .f32⟩
  | .hbm, ⟨41, _⟩ => ⟨S_, .f32⟩
  | .hbm, ⟨42, _⟩ => ⟨S2048x2x1024, .f32⟩
  | .hbm, ⟨43, _⟩ => ⟨S2048x2x1024, .f32⟩
  | .hbm, ⟨44, _⟩ => ⟨S2048x2x1024, .f32⟩
  | .hbm, ⟨45, _⟩ => ⟨S2048x2x32000, .f32⟩
  | .hbm, ⟨46, _⟩ => ⟨S1x1x32000, .f32⟩
  | .hbm, ⟨47, _⟩ => ⟨S2048x2x32000, .f32⟩
  | .hbm, ⟨48, _⟩ => ⟨S2048x2x32000, .f32⟩
  | _, _ => ⟨S2048x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S_S2x2 : S_.BroadcastsInDim S2x2 (![] : Fin 0 → Fin S2x2.rank)
  concatenates_S2x2_S2048x2_S2050x2_d0 : Shape.Concatenates [S2x2, S2048x2] S2050x2 0
  slices_S2050x2_S2048x2_0_0 : S2050x2.Slices ![0, 0] S2048x2
  slices_S2050x2_S2048x2_1_0 : S2050x2.Slices ![1, 0] S2048x2
  slices_S2050x2_S2048x2_2_0 : S2050x2.Slices ![2, 0] S2048x2
  bcast_S2048x2_S2048x2x1_0_1 : S2048x2.BroadcastsInDim S2048x2x1 (![0, 1] : Fin 2 → Fin S2048x2x1.rank)
  concatenates_S2048x2x1_S2048x2x1_S2048x2x1_S2048x2x3_d2 : Shape.Concatenates [S2048x2x1, S2048x2x1, S2048x2x1] S2048x2x3 2
  bcast_S_S3 : S_.BroadcastsInDim S3 (![] : Fin 0 → Fin S3.rank)
  bcast_S3_S1x1x3_2 : S3.BroadcastsInDim S1x1x3 (![2] : Fin 1 → Fin S1x1x3.rank)
  bcast_S1x1x3_S2048x2x3_0_1_2 : S1x1x3.BroadcastsInDim S2048x2x3 (![0, 1, 2] : Fin 3 → Fin S2048x2x3.rank)
  bcast_S_S2048x2x3 : S_.BroadcastsInDim S2048x2x3 (![] : Fin 0 → Fin S2048x2x3.rank)
  bcast_S2048x2x3_S2048x2x3x1_0_1_2 : S2048x2x3.BroadcastsInDim S2048x2x3x1 (![0, 1, 2] : Fin 3 → Fin S2048x2x3x1.rank)
  reducesTo_S2048x2x3x1024_S2048x2x1024_d2 : S2048x2x3x1024.ReducesTo [2] S2048x2x1024
  h_S_ : 0 < S_.numel
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  bcast_S_S2048x2x1024 : S_.BroadcastsInDim S2048x2x1024 (![] : Fin 0 → Fin S2048x2x1024.rank)
  bcast_S32000_S1x1x32000_2 : S32000.BroadcastsInDim S1x1x32000 (![2] : Fin 1 → Fin S1x1x32000.rank)
  bcast_S1x1x32000_S2048x2x32000_0_1_2 : S1x1x32000.BroadcastsInDim S2048x2x32000 (![0, 1, 2] : Fin 3 → Fin S2048x2x32000.rank)
  gather_S96000x1024_S2048x2x3x1_S2048x2x3x1024_3_0_n_n_0_3_11024_wf : GatherDims.WF S96000x1024 S2048x2x3x1 S2048x2x3x1024 [3] [0] [] [0] [] 3 ![1, 1024]
  dot_S2048x2x1024_S1024x32000_S2048x2x32000_2_0_01_1_n_n_wf : DotDims.WF S2048x2x1024 S1024x32000 S2048x2x32000 [2] [0] [0, 1] [1] [] []

variable [Facts₀]

def gather_S96000x1024_S2048x2x3x1_S2048x2x3x1024_3_0_n_n_0_3_11024 : GatherDims S96000x1024 S2048x2x3x1 S2048x2x3x1024 where
  offsetDims := [3]
  collapsedSliceDims := [0]
  operandBatchingDims := []
  startIndicesBatchingDims := []
  startIndexMap := [0]
  indexVectorDim := 3
  sliceSizes := ![1, 1024]
  wf := gather_S96000x1024_S2048x2x3x1_S2048x2x3x1024_3_0_n_n_0_3_11024_wf
def dot_S2048x2x1024_S1024x32000_S2048x2x32000_2_0_01_1_n_n : DotDims S2048x2x1024 S1024x32000 S2048x2x32000 where
  lhsContracting := [2]
  rhsContracting := [0]
  lhsNonContracting := [0, 1]
  rhsNonContracting := [1]
  lhsBatch := []
  rhsBatch := []
  wf := dot_S2048x2x1024_S1024x32000_S2048x2x32000_2_0_01_1_n_n_wf

class Facts : Prop extends Facts₀ where

variable [Facts]
-- ==== Proof.EmbedBody.lean ====
/-
  The embedding kernel's body at one grid point (i, v), v the vocabulary tile. Every store of the body writes a whole
  buffer, so one run of the body is a pure step on the accumulator: with the three token columns t0 t1 t2 of the row
  block, the three weight tiles w0 w1 w2 of vocabulary tile v and the accumulator s as the point finds it,
  the accumulator ends at  ((s + onehot_v(t0)·w0) + onehot_v(t1)·w1) + onehot_v(t2)·w2  (`accStep`), where on the first
  tile s is the zero fill, and on the last tile the output block is  silu(acc + b1)  of the accumulator just left.
  The three theorems are the body's triples in its three control cases (first tile, a middle tile, last tile).
-/
import proofs.«422180_j71305047048767_1_alg».proof.Proof.Gen.KernelIdeal.Launch
import proofs.«422180_j71305047048767_1_alg».proof.Proof.Gen.KernelIdeal.Skeleton
import proofs.«422180_j71305047048767_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first conditional (reset of the accumulator) is taken exactly when the vocabulary tile is tile 0. -/
abbrev isFirst (i : grid0.Coords) : Prop :=
  (Scalar.cmpi .ne (Scalar.extui (Scalar.cmpi .eq (BitVec.ofNat 32 (i 1).val) 0#32)) 0#32) = 1#1

/-- The body's last conditional (bias, SiLU and the store of the output block) is taken exactly on the last tile. -/
abbrev isLast (i : grid0.Coords) : Prop := k0_cond2 i = 1#1

/-- One run of the body on the accumulator `s`: the three one-hot products of vocabulary tile `i 1` added in turn. -/
def accStep (i : grid0.Coords) (t0 t1 t2 : Vec F S1024x1 .i32) (w0 w1 w2 : Vec F S640x1024 .bf16) (s : Vec F S1024x1024 .f32) : Vec F S1024x1024 .f32 :=
  k0_pay2 (k0_pay5 i) t2 (k0_pay1 (k0_pay7 i t1 (k0_pay6 i t0 s w0) w1)) w2

/-- What the last tile stores as the output block: bias added, then x · logistic x. -/
def outStep (s : Vec F S1024x1024 .f32) (b : Vec F S1x1024 .f32) : Vec F S1024x1024 .f32 := k0_pay3 s b

/-! ## A whole-buffer access reads back what the last whole-buffer store left -/

section Whole

variable {Val : EltTy → Type} [∀ e, Nonempty (Val e)] {sg : RefSig} {κ : Kind} {sp : Space} {S : Shape} {e : EltTy}

/-- After a list of stores whose LAST one covers the whole buffer, the buffer reads as that store's payload. -/
theorem read_writes_cons_whole (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A whole-buffer load after such a list of stores reads that payload too. -/
theorem readCov_cons_whole (v : View sg κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A whole-buffer load of a whole memref held at contents `X` reads `X`. -/
theorem readAt_unread_whole {m : Memref sg κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h inb]

/-- The zero offsets of a rank-two access, as the function the lemmas above ask for. -/
theorem zeros2 : (![0, 0] : Fin 2 → ℕ) = fun _ => 0 := by funext a; fin_cases a <;> rfl

end Whole

set_option maxHeartbeats 1000000 in
/-- FIRST TILE (reset taken, final store not): the accumulator, at anything, ends at one step from the zero fill. -/
theorem embed_first (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : isFirst i) (hl : ¬ isLast i) (t0 t1 t2 : Vec F S1024x1 .i32) (w0 w1 w2 : Vec F S640x1024 .bf16) (b : Vec F S1x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ (∃ d, owns (c : Thread nD τ) arg10 fullShare d)
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare (accStep i t0 t1 t2 w0 w1 w2 (k0_pay4 (F := F)))) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- As on a middle tile, after the zero fill: the accumulator's prior contents are overwritten whole, so every
  -- later load of it reads a payload and the last store's payload is `accStep` from the zero fill.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

set_option maxHeartbeats 1000000 in
/-- A MIDDLE TILE (neither conditional taken): the accumulator at `s` ends at one step from `s`. -/
theorem embed_mid (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : ¬ isFirst i) (hl : ¬ isLast i) (t0 t1 t2 : Vec F S1024x1 .i32) (w0 w1 w2 : Vec F S640x1024 .bf16) (b : Vec F S1x1024 .f32) (s : Vec F S1024x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare s
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare (accStep i t0 t1 t2 w0 w1 w2 s)) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- The body is run on the raw contents; the accumulator is left at three whole-buffer stores over `s`, each
  -- load of it in between reading the store before. The last store's payload, its loads read back, is `accStep`.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

set_option maxHeartbeats 1000000 in
/-- THE LAST TILE (reset not taken, final store taken): the accumulator at `s` ends at one step from `s`, and the
    output's staging buffer, at anything, ends at `outStep` of that accumulator and the bias row. -/
theorem embed_last (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : ¬ isFirst i) (hl : isLast i) (t0 t1 t2 : Vec F S1024x1 .i32) (w0 w1 w2 : Vec F S640x1024 .bf16) (b : Vec F S1x1024 .f32) (s : Vec F S1024x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ (∃ d, owns (c : Thread nD τ) arg9 fullShare d) ∗ owns (c : Thread nD τ) arg10 fullShare s
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg9 fullShare (outStep (accStep i t0 t1 t2 w0 w1 w2 s) b)
            ∗ owns (c : Thread nD τ) arg10 fullShare (accStep i t0 t1 t2 w0 w1 w2 s)) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- As on a middle tile for the accumulator; the output's staging buffer, at anything, is overwritten whole by
  -- `outStep` of the accumulator just left (read back through the three stores) and the bias row.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    simp only [readAt_unread_whole (S := S1024x1) _ zeros2, readAt_unread_whole (S := S1024x1024) _ zeros2, readAt_unread_whole (S := S640x1024) _ zeros2,
      readAt_unread_whole (S := S1x1024) _ zeros2, readCov_cons_whole (S := S1024x1024) _ zeros2, read_writes_cons_whole (S := S1024x1024) _ _ zeros2]
    rfl
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

end Cert.KernelIdeal.Hand

end
-- ==== Proof.EmbedDat.lean ====
/-
  The embedding kernel as a pipeline region (grid 4 row blocks by 50 vocabulary tiles, the tile axis fastest), at a
  PARAMETER `V`: the TensorCore's buffer contents when the region is entered. The kernel keeps an accumulator in a
  scratch buffer from one grid point to the next: it is reset on every tile 0, every point adds its tile's three
  one-hot products (`accStep`), and on tile 49 the output block is computed from it. So what the scratch holds after
  point n is a recursion on n (`scrAt0`), and the region invariant between points says exactly that (`PhiS0`).
-/
import proofs.«422180_j71305047048767_1_alg».proof.Proof.EmbedBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One run of the body at point `t` on the accumulator `s`: `accStep` at the point's token columns and weight tiles. -/
def stepAt0 (c : Dev nD) (t : Fin cfg0.N) (s : Vec F S1024x1024 .f32) : Vec F S1024x1024 .f32 :=
  accStep (grid0.coords t) (iblk0 V c 0 t) (iblk0 V c 1 t) (iblk0 V c 2 t) (iblk0 V c 3 t) (iblk0 V c 4 t) (iblk0 V c 5 t) s

/-- THE ACCUMULATION. What the scratch holds after the body at position `n`: one step from the zero fill on a tile 0
    (the positions ≡ 0 mod 50), one step from what position `n - 1` left otherwise. -/
def scrAt0 (c : Dev nD) : (n : ℕ) → n < cfg0.N → Vec F S1024x1024 .f32
  | 0, hn => stepAt0 V c ⟨0, hn⟩ (k0_pay4 (F := F))
  | n + 1, hn => stepAt0 V c ⟨n + 1, hn⟩ (if (n + 1) % 50 = 0 then (k0_pay4 (F := F)) else scrAt0 c n (Nat.lt_of_succ_lt hn))

/-- What the body leaves in the output's staging buffer at point `t` when it stores there (tile 49): bias and SiLU of
    the accumulator the point has just left. (At the other points the window is idle and this value is not consulted.) -/
def outAt0 (c : Dev nD) (t : Fin cfg0.N) : Vec F S1024x1024 .f32 :=
  outStep (scrAt0 V c t.val t.isLt) (iblk0 V c 6 t)

/-- The accumulator scratch, a whole scoped buffer of the kernel's own. -/
abbrev scM0 : Memref sig .tc .vmem S1024x1024 .f32 := Memref.whole cc0_scratch0

/-- The core's other scoped buffers that are no staging buffer of this pipeline (the second kernel's staging buffers),
    each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the frame kit with the scratch as a memref owned at some contents. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

/-- The region invariant before position `n`: before the first point the class's; afterwards the scratch at what the
    point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ otherScoped0 (F := F) c) ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = outAt0 V c t := by dsimp only [dat0]

/-! ## The body's two conditions in closed form, and where the output window is idle -/

/-- The reset is taken exactly at the positions ≡ 0 (mod 50): decided over the grid. -/
theorem hFirst0 : ∀ t : Fin cfg0.N, isFirst (grid0.coords t) ↔ t.val % 50 = 0 :=
  (by decide +kernel : ∀ t : Fin grid0.N, isFirst (grid0.coords t) ↔ t.val % 50 = 0)

/-- The final store is taken exactly at the positions ≡ 49 (mod 50): decided over the grid. -/
theorem hLast0 : ∀ t : Fin cfg0.N, isLast (grid0.coords t) ↔ t.val % 50 = 49 :=
  (by decide +kernel : ∀ t : Fin grid0.N, isLast (grid0.coords t) ↔ t.val % 50 = 49)

/-- Off the last tile the output window is idle: the body stores nothing into it. -/
theorem idleAt0_7 : ∀ t : Fin cfg0.N, ¬ isLast (grid0.coords t) → cfg0.idle 7 (grid0.coords t) = true :=
  (by decide +kernel : ∀ t : Fin grid0.N, ¬ isLast (grid0.coords t) → cfg0.idle 7 (grid0.coords t) = true)

/-- Off the last tile the output's block is not written back. -/
theorem noFlush0_7 : ∀ t : Fin cfg0.N, ¬ isLast (grid0.coords t) → (cfg0.win 7).flush t = false :=
  (by decide +kernel : ∀ t : Fin grid0.N, ¬ isLast (grid0.coords t) → win0_7.flush t = false)

/-- On the last tile the output window is live: the body stores its block. -/
theorem liveAt0_7 : ∀ t : Fin cfg0.N, isLast (grid0.coords t) → cfg0.idle 7 (grid0.coords t) = false :=
  (by decide +kernel : ∀ t : Fin grid0.N, isLast (grid0.coords t) → cfg0.idle 7 (grid0.coords t) = false)

/-! ## The accumulation and the invariant, one step at a time -/

/-- On a tile 0 the scratch ends one step from the zero fill. -/
theorem scrAt0_first (c : Dev nD) (t : Fin cfg0.N) (h0 : t.val % 50 = 0) :
    scrAt0 V c t.val t.isLt = stepAt0 V c t (k0_pay4 (F := F)) := by
  obtain ⟨n, hn⟩ := t
  cases n with
  | zero => rfl
  | succ n =>
    show stepAt0 V c ⟨n + 1, hn⟩ (if (n + 1) % 50 = 0 then (k0_pay4 (F := F)) else scrAt0 V c n (Nat.lt_of_succ_lt hn)) = _
    rw [if_pos h0]

/-- Off tile 0 the scratch ends one step from what the position before left. -/
theorem scrAt0_next (c : Dev nD) (t : Fin cfg0.N) (h0 : ¬ t.val % 50 = 0) :
    scrAt0 V c t.val t.isLt = stepAt0 V c t (scrAt0 V c (t.val - 1) (Nat.lt_of_le_of_lt (Nat.sub_le _ _) t.isLt)) := by
  obtain ⟨n, hn⟩ := t
  cases n with
  | zero => exact absurd (Nat.zero_mod _) h0
  | succ n =>
    show stepAt0 V c ⟨n + 1, hn⟩ (if (n + 1) % 50 = 0 then (k0_pay4 (F := F)) else scrAt0 V c n (Nat.lt_of_succ_lt hn)) = _
    rw [if_neg h0]; rfl

theorem PhiS0_zero (c : Dev nD) (n : ℕ) (h : n ≤ cfg0.N) (hz : n = 0) : PhiS0 V c n h = Pipeline.ΦA spec0 c := by
  subst hz; rfl

/-- After position `n`: the scratch at that position's contents. -/
theorem PhiS0_succ (c : Dev nD) (n : ℕ) (hn : n < cfg0.N) :
    PhiS0 V c (n + 1) hn = iprop(iprop(owns (c : Thread nD τ) scM0 fullShare (scrAt0 V c n hn) ∗ otherScoped0 (F := F) c) ∗ (∃ r, prngReg c r)) := rfl

/-- Before a position that is not the first: the scratch at what the position before left. -/
theorem PhiS0_pos (c : Dev nD) (n : ℕ) (h : n ≤ cfg0.N) (hz : n ≠ 0) :
    PhiS0 V c n h = iprop(iprop(owns (c : Thread nD τ) scM0 fullShare (scrAt0 V c (n - 1) (by omega)) ∗ otherScoped0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the inputs' buffers hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

/-- An input's current staging buffer holds its block at every point, fetched there or not: unfetched, the block
    index has not moved since the last fetch and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation, at a generic point -/

/-- The inputs are never idle. -/
theorem liveAt0_in (t : Fin cfg0.N) (w : Fin cfg0.W) (hw : w.val < 7) : cfg0.idle w (grid0.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The seven inputs' buffers hold their blocks. By the position's residue mod 50 the point is a
    first tile, a last tile or a middle one, and the body's triple for that case applies: the invariant hands it the
    accumulator (at anything on a first tile, else at what the position before left) and takes it back one step on;
    the output's buffer is stored on the last tile and handed back untouched elsewhere; the other scoped buffers,
    the generator register and what the core owes ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (win0_0.stage (cfg0.slots t 0)) fullShare ((dat0 V c).after 0 t) from by
    unfold Dat.leavesExact; rw [liveAt0_in t 0 (by decide)], after0_0]
  rw [show (dat0 V c).leavesExact 1 t = owns (c : Thread nD τ) (win0_1.stage (cfg0.slots t 1)) fullShare ((dat0 V c).after 1 t) from by
    unfold Dat.leavesExact; rw [liveAt0_in t 1 (by decide)], after0_1]
  rw [show (dat0 V c).leavesExact 2 t = owns (c : Thread nD τ) (win0_2.stage (cfg0.slots t 2)) fullShare ((dat0 V c).after 2 t) from by
    unfold Dat.leavesExact; rw [liveAt0_in t 2 (by decide)], after0_2]
  rw [show (dat0 V c).leavesExact 3 t = owns (c : Thread nD τ) (win0_3.stage (cfg0.slots t 3)) fullShare ((dat0 V c).after 3 t) from by
    unfold Dat.leavesExact; rw [liveAt0_in t 3 (by decide)], after0_3]
  rw [show (dat0 V c).leavesExact 4 t = owns (c : Thread nD τ) (win0_4.stage (cfg0.slots t 4)) fullShare ((dat0 V c).after 4 t) from by
    unfold Dat.leavesExact; rw [liveAt0_in t 4 (by decide)], after0_4]
  rw [show (dat0 V c).leavesExact 5 t = owns (c : Thread nD τ) (win0_5.stage (cfg0.slots t 5)) fullShare ((dat0 V c).after 5 t) from by
    unfold Dat.leavesExact; rw [liveAt0_in t 5 (by decide)], after0_5]
  rw [show (dat0 V c).leavesExact 6 t = owns (c : Thread nD τ) (win0_6.stage (cfg0.slots t 6)) fullShare ((dat0 V c).after 6 t) from by
    unfold Dat.leavesExact; rw [liveAt0_in t 6 (by decide)], after0_6]
  have hN : t.val < 200 := lt_of_lt_of_eq t.isLt (show cfg0.N = 200 from N_0)
  by_cases h0 : t.val % 50 = 0
  · have hl : ¬ t.val % 50 = 49 := by omega
    rw [Dat.leavesExact_idle (dat0 V c) 7 t (idleAt0_7 t (fun h => hl ((hLast0 t).mp h))) (noFlush0_7 t (fun h => hl ((hLast0 t).mp h)))]
    rw [scrAt0_first V c t h0]; unfold stepAt0
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_first c Set.univ (grid0.coords t) _ _ _ _ _ _ _ _ _ _ _ _ _ _ _ _ _ _ ((hFirst0 t).mpr h0) (fun h => hl ((hLast0 t).mp h)) (iblk0 V c 0 t) (iblk0 V c 1 t) (iblk0 V c 2 t) (iblk0 V c 3 t) (iblk0 V c 4 t) (iblk0 V c 5 t) (iblk0 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_first c Set.univ (grid0.coords t) _ _ _ _ _ _ _ _ _ _ _ _ _ _ _ _ _ _ ((hFirst0 t).mpr h0) (fun h => hl ((hLast0 t).mp h)) (iblk0 V c 0 t) (iblk0 V c 1 t) (iblk0 V c 2 t) (iblk0 V c 3 t) (iblk0 V c 4 t) (iblk0 V c 5 t) (iblk0 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases hl : t.val % 50 = 49
    · rw [show (dat0 V c).leavesExact 7 t = owns (c : Thread nD τ) (win0_7.stage (cfg0.slots t 7)) fullShare ((dat0 V c).after 7 t) from by
        unfold Dat.leavesExact; rw [liveAt0_7 t ((hLast0 t).mpr hl)], after0_7]
      unfold outAt0
      rw [scrAt0_next V c t h0]; unfold stepAt0
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_last c Set.univ (grid0.coords t) _ _ _ _ _ _ _ _ _ _ _ _ _ _ _ _ _ _ (fun h => h0 ((hFirst0 t).mp h)) ((hLast0 t).mpr hl) (iblk0 V c 0 t) (iblk0 V c 1 t) (iblk0 V c 2 t) (iblk0 V c 3 t) (iblk0 V c 4 t) (iblk0 V c 5 t) (iblk0 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 V c) 7 t (idleAt0_7 t (fun h => hl ((hLast0 t).mp h))) (noFlush0_7 t (fun h => hl ((hLast0 t).mp h)))]
      rw [scrAt0_next V c t h0]; unfold stepAt0
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_mid c Set.univ (grid0.coords t) _ _ _ _ _ _ _ _ _ _ _ _ _ _ _ _ _ _ (fun h => h0 ((hFirst0 t).mp h)) (fun h => hl ((hLast0 t).mp h)) (iblk0 V c 0 t) (iblk0 V c 1 t) (iblk0 V c 2 t) (iblk0 V c 3 t) (iblk0 V c 4 t) (iblk0 V c 5 t) (iblk0 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any position but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- After the last point the invariant gives the class's back: the scratch's named contents are forgotten. -/
theorem hout0 (c : Dev nD) : (dat0 V c).Φ (Fin.last cfg0.N) ⊢ Pipeline.ΦA spec0 c :=
  Phi_out0 V c _ (by rw [Fin.val_last]; have : cfg0.N = 200 := N_0; omega)

end Cert.KernelIdeal.Hand

end
-- ==== Proof.MmRegion.lean ====
/-
  The second kernel (h·W2 + b2, one block of 1024 rows by 1280 columns per grid point) as a pipeline region, at a
  PARAMETER `V`: the TensorCore's buffer contents when the region is entered. One control case; the body loads the
  three input blocks whole and stores the whole output block, so after the body the output's staging buffer holds the
  body's payload of the three input blocks of the point.
-/
import proofs.«422180_j71305047048767_1_alg».proof.Proof.Gen.KernelIdeal.Launch
import proofs.«422180_j71305047048767_1_alg».proof.Proof.Gen.KernelIdeal.Skeleton
import proofs.«422180_j71305047048767_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero offsets of a rank-2 rectangle, as the constant function. -/
private theorem zeros2 : (![0, 0] : Fin 2 → Nat) = fun _ => 0 := funext fun a => by fin_cases a <;> rfl

/-- A load through the whole-shape rectangle at zero offsets reads the view's contents. -/
private theorem readAt_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store through the whole-shape rectangle at zero offsets, over any prior contents, reads back as its payload:
    the rectangle holds every index, so the store covers the shape and nothing of the prior contents is left. -/
private theorem read_store_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- The body on whole staging memrefs: the inputs' at `x0 x1 x2`, the output's at anything, runs to the continuation
    holding the inputs' as they were and the output's at the payload of the three. -/
theorem mm_body (c : Dev nD) (E : Set ℕ) (i : grid1.Coords)
    (arg2 : Memref sig .tc .vmem S1024x1024 .f32) (harg2 : arg2.IsWhole) (arg3 : Memref sig .tc .vmem S1024x1280 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x1024 .f32) (x1 : Vec F S1024x1280 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- each load is through the whole-buffer rectangle of its input, so it reads that input's contents; the one store
  -- is through the whole-buffer rectangle of the output, so what is read back is its payload
  rw [readAt_whole_zero arg2.view f0 zeros2 inb_S1024x1024_S1024x1024_0_0,
    readAt_whole_zero arg3.view f1 zeros2 inb_S1024x1280_S1024x1280_0_0,
    readAt_whole_zero arg4.view f2 zeros2 inb_S1x1280_S1x1280_0_0]
  exact read_store_whole_zero arg5.view f3 zeros2 inb_S1024x1280_S1024x1280_0_0 _

/-- The proof data of pipeline 1 on core `c`: the arrays as the region finds them; after the body at point `t` each
    input's buffer at its block and the output's at the payload of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_0`, `before1_1`, `before1_2`), the
    output's holds anything, so `mm_body` applies at the blocks; the invariant and the debt do not depend on the point
    and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (mm_body c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program as a run: 21 host operations, the embedding region, 2 host operations, the matmul region, the
  final reshape. Between two items a core holds every unscoped buffer at a known valuation: the launch memory, then
  each host stretch applied, then after a region its output array at what the pipeline's write-backs leave
  (`Dat.arrAt … N`) and every other buffer as the region found it. The two regions are entered through the library's
  segment records; the launch theorem for a list of segments then gives: every weakly fair execution terminates, and
  the final memory holds the result buffer at the last valuation and every argument as launched.
-/
import proofs.«422180_j71305047048767_1_alg».proof.Proof.EmbedDat
import proofs.«422180_j71305047048767_1_alg».proof.Proof.MmRegion
import proofs.«422180_j71305047048767_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the embedding region is entered: the launch memory after the first host stretch. -/
abbrev VE0 (c : Dev nD) (b : Ref sig .tc) : Buf (Elt F) ((c : Thread nD τ).loc b) := Gen.V1 m c b

/-- What the embedding region leaves in its output array (the activations `h`, 4096 x 1024). -/
def o2 (c : Dev nD) : Buf (Elt F) ((c : Thread nD τ).loc main_v20) := (dat0 (VE0 m) c).arrAt 7 cfg0.N

/-- The regions' outputs with only the first region's known (what the second region's entry contents are read through). -/
def outsA : Gen.Outs (F := F) := fun _ r c =>
  if h : r = main_v20 then h ▸ o2 m c else m ((c : Thread nD τ).loc r)

/-- The TensorCore's buffers when the matmul region is entered. -/
abbrev VE1 (c : Dev nD) (b : Ref sig .tc) : Buf (Elt F) ((c : Thread nD τ).loc b) := Gen.V3 m (outsA m) c b

/-- What the matmul region leaves in its output array (the logits, 4096 x 32000). -/
def o4 (c : Dev nD) : Buf (Elt F) ((c : Thread nD τ).loc main_v23) := (dat1 (VE1 m) c).arrAt 3 cfg1.N

/-- What the two regions leave in the buffers they may change. -/
def outs : Gen.Outs (F := F) := fun _ r c =>
  if h : r = main_v20 then h ▸ o2 m c else if h' : r = main_v23 then h' ▸ o4 m c else m ((c : Thread nD τ).loc r)

theorem outs_v20 (c : Dev nD) : outs m 2 main_v20 c = o2 m c := by
  unfold outs; rw [dif_pos rfl]
theorem outs_v23 (c : Dev nD) : outs m 4 main_v23 c = o4 m c := by
  unfold outs; rw [dif_neg (by decide), dif_pos rfl]
/-- The same reading of the first region's output through the partial table. -/
theorem outsA_v20 (c : Dev nD) : outsA m 2 main_v20 c = o2 m c := by
  unfold outsA; rw [dif_pos rfl]
/-- The second region's entry contents do not depend on what it leaves itself. -/
theorem V3_outs (c : Dev nD) : Gen.V3 m (outs m) c = Gen.V3 m (outsA m) c := by
  show StableHlo.after hostOps1 (Function.update (Gen.V1 m c) _ (outs m 2 main_v20 c)) = StableHlo.after hostOps1 (Function.update (Gen.V1 m c) _ (outsA m 2 main_v20 c))
  rw [outs_v20, outsA_v20]

/-! ## What each region leaves: its arrays at the pipeline's final contents, every other buffer as entered -/

/-- At the embedding region's exit each of its arrays holds what the pipeline leaves: an input array is never written
    (it holds its entry contents, which the region's exit valuation keeps), the output array is the exit valuation's
    one changed buffer. -/
theorem hF0 (c : Dev nD) : ∀ w : Fin cfg0.W, (dat0 (VE0 m) c).arrAt w cfg0.N = Gen.V2 m (outs m) c (Pipeline.arrRef spec0 w)
  | ⟨0, _⟩ => ((dat0 (VE0 m) c).arrAt_in 0 rfl _).trans ((A_eq0 (VE0 m) c 0).trans (Gen.V2_of m (outs m) c main_v10 (by decide)).symm)
  | ⟨1, _⟩ => ((dat0 (VE0 m) c).arrAt_in 1 rfl _).trans ((A_eq0 (VE0 m) c 1).trans (Gen.V2_of m (outs m) c main_v11 (by decide)).symm)
  | ⟨2, _⟩ => ((dat0 (VE0 m) c).arrAt_in 2 rfl _).trans ((A_eq0 (VE0 m) c 2).trans (Gen.V2_of m (outs m) c main_v12 (by decide)).symm)
  | ⟨3, _⟩ => ((dat0 (VE0 m) c).arrAt_in 3 rfl _).trans ((A_eq0 (VE0 m) c 3).trans (Gen.V2_of m (outs m) c main_v14 (by decide)).symm)
  | ⟨4, _⟩ => ((dat0 (VE0 m) c).arrAt_in 4 rfl _).trans ((A_eq0 (VE0 m) c 4).trans (Gen.V2_of m (outs m) c main_v16 (by decide)).symm)
  | ⟨5, _⟩ => ((dat0 (VE0 m) c).arrAt_in 5 rfl _).trans ((A_eq0 (VE0 m) c 5).trans (Gen.V2_of m (outs m) c main_v18 (by decide)).symm)
  | ⟨6, _⟩ => ((dat0 (VE0 m) c).arrAt_in 6 rfl _).trans ((A_eq0 (VE0 m) c 6).trans (Gen.V2_of m (outs m) c main_v19 (by decide)).symm)
  | ⟨7, _⟩ => by
    show o2 m c = Function.update (Gen.V1 m c) (Proc.devRef .tc main_v20) (outs m 2 main_v20 c) (Proc.devRef .tc main_v20)
    rw [Function.update_self, outs_v20]

/-- Every buffer that is none of the embedding region's arrays is at its exit as at its entry. -/
theorem hrest0 (c : Dev nD) (b : Ref sig .tc) (hb : b ∉ Finset.univ.image (Pipeline.arrRef spec0)) :
    Gen.V2 m (outs m) c b = VE0 m c b :=
  Gen.V2_of m (outs m) c b (fun h => hb (by
    rw [List.mem_singleton.mp h]; exact Finset.mem_image.mpr ⟨7, Finset.mem_univ _, rfl⟩))

/-- At the matmul region's exit each of its arrays holds what the pipeline leaves. -/
theorem hF1 (c : Dev nD) : ∀ w : Fin cfg1.W, (dat1 (VE1 m) c).arrAt w cfg1.N = Gen.V4 m (outs m) c (Pipeline.arrRef spec1 w)
  | ⟨0, _⟩ => ((dat1 (VE1 m) c).arrAt_in 0 rfl _).trans ((A_eq1 (VE1 m) c 0).trans (((Gen.V4_of m (outs m) c main_v20 (by decide)).trans (congrFun (V3_outs m c) _)).symm))
  | ⟨1, _⟩ => ((dat1 (VE1 m) c).arrAt_in 1 rfl _).trans ((A_eq1 (VE1 m) c 1).trans (((Gen.V4_of m (outs m) c main_v21 (by decide)).trans (congrFun (V3_outs m c) _)).symm))
  | ⟨2, _⟩ => ((dat1 (VE1 m) c).arrAt_in 2 rfl _).trans ((A_eq1 (VE1 m) c 2).trans (((Gen.V4_of m (outs m) c main_v22 (by decide)).trans (congrFun (V3_outs m c) _)).symm))
  | ⟨3, _⟩ => by
    show o4 m c = Function.update (Gen.V3 m (outs m) c) (Proc.devRef .tc main_v23) (outs m 4 main_v23 c) (Proc.devRef .tc main_v23)
    rw [Function.update_self, outs_v23]

/-- Every buffer that is none of the matmul region's arrays is at its exit as at its entry. -/
theorem hrest1 (c : Dev nD) (b : Ref sig .tc) (hb : b ∉ Finset.univ.image (Pipeline.arrRef spec1)) :
    Gen.V4 m (outs m) c b = VE1 m c b :=
  (Gen.V4_of m (outs m) c b (fun h => hb (by
    rw [List.mem_singleton.mp h]; exact Finset.mem_image.mpr ⟨3, Finset.mem_univ _, rfl⟩))).trans (congrFun (V3_outs m c) _)

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c

/-- No core owes another anything: no level is assigned. -/
abbrev Lz : GSem nD τ sig → Finset Unit := fun _ => ∅
abbrev lvz : GSem nD τ sig → Unit → ℕ := fun _ _ => 0
/-- What rides beside the buffers through every item: the core's generator register at some state and the core
    owing nothing. -/
abbrev Rz (c : Dev nD) : sProp 𝕄 := iprop((∃ r, prngReg c r) ∗ ∃ W, owes (c : Thread nD τ) (0 : CellTallies nD τ sig Unit) W)

/-! ## The regions as segments -/

set_option backward.isDefEq.respectTransparency.types false in
/-- THE EMBEDDING REGION over the thread state: entered with every unscoped buffer at the first host stretch's
    valuation, left with the output array at what the pipeline wrote back and every other buffer as entered. Its
    arrays are split out of the unscoped buffers at entry and put back at exit; the generator register goes into the
    region invariant and comes back; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lz lvz 0 fun _ _ => rfl
  pre c := iprop(StableHlo.held (c : Thread nD τ) (Pipeline.ucRefs τ sig) (Gen.V1 m c) ∗ Rz c)
  post c := iprop(StableHlo.held (c : Thread nD τ) (Pipeline.ucRefs τ sig) (Gen.V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun w => A_eq0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MATMUL REGION over the thread state: entered with every unscoped buffer at the second host stretch's
    valuation (which reads the first region's output only), left with the logits' array at what the pipeline wrote
    back and every other buffer as entered. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ Rz c)
  post c := iprop(StableHlo.held (c : Thread nD τ) (Pipeline.ucRefs τ sig) (Gen.V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (VE1 m c) fun w => A_eq1 (VE1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last host stretch the generator register is let go: what remains of the rest is the core owing nothing. -/
theorem Rz_owes (c : Dev nD) : (Rz (F := F) c) ⊢ (iprop(∃ W, owes (c : Thread nD τ) (0 : CellTallies nD τ sig Unit) W) : sProp 𝕄) := by
  iintro ⟨-, HO⟩; iexact HO

set_option backward.isDefEq.respectTransparency.types false in
/-- THE RUN: every weakly fair execution of the program from memory `m` with zero counters terminates, nothing
    faulting, with the result buffer at the last valuation and every argument as launched. -/
theorem run_value : θ_run (defs (F := F)) (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ Variants.none Lz lvz m ρ main
    (Gen.segs m (outs m) Variants.none Lz lvz (fun _ c => Rz c) () (pdats m) (reg0 m) (reg1 m))
    (fun c Q => by
      rewrite [main_chain c, Pipeline.Seg.run_eq_chain,
        show (Gen.segs m (outs m) Variants.none Lz lvz (fun _ c => Rz c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V5 m (outs m) c))
    (hch := fun c => ⟨.rfl, .rfl, .rfl, .rfl, .rfl, sep_mono .rfl (Rz_owes c)⟩)
    (hinit := ?hinit)
    (QY := fun c s => s.mem ((c.tc : Thread nD τ).loc main_v24) = Gen.V5 m (outs m) c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?hfin) (hQ := fun _ h => h)
  case hu =>
    -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    -- the launch: each core holds its unscoped buffers at the launch memory, its generator register, and owes nothing
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    -- the end: the result buffer and each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c)⟩
    · iexact HSI

/-- THE FRAME: the program runs and its arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun _ h c => (h c).2) (run_value m ρ)

end Cert.KernelIdeal.Hand

end
-- ==== Proof.Bits.EmbedBody.lean ====
/-
  The embedding kernel's body at one grid point (i, v), v the vocabulary tile. Every store of the body writes a whole
  buffer, so one run of the body is a pure step on the accumulator: with the three token columns t0 t1 t2 of the row
  block, the three weight tiles w0 w1 w2 of vocabulary tile v and the accumulator s as the point finds it,
  the accumulator ends at  ((s + onehot_v(t0)·w0) + onehot_v(t1)·w1) + onehot_v(t2)·w2  (`accStep`), where on the first
  tile s is the zero fill, and on the last tile the output block is  silu(acc + b1)  of the accumulator just left.
  The three theorems are the body's triples in its three control cases (first tile, a middle tile, last tile).
-/
import proofs.«422180_j71305047048767_1_alg».proof.Proof.Gen.Kernel.Launch
import proofs.«422180_j71305047048767_1_alg».proof.Proof.Gen.Kernel.Skeleton
import proofs.«422180_j71305047048767_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first conditional (reset of the accumulator) is taken exactly when the vocabulary tile is tile 0. -/
abbrev isFirst (i : grid0.Coords) : Prop :=
  (Scalar.cmpi .ne (Scalar.extui (Scalar.cmpi .eq (BitVec.ofNat 32 (i 1).val) 0#32)) 0#32) = 1#1

/-- The body's last conditional (bias, SiLU and the store of the output block) is taken exactly on the last tile. -/
abbrev isLast (i : grid0.Coords) : Prop := k0_cond2 i = 1#1

/-- One run of the body on the accumulator `s`: the three one-hot products of vocabulary tile `i 1` added in turn. -/
def accStep (i : grid0.Coords) (t0 t1 t2 : Vec F S1024x1 .i32) (w0 w1 w2 : Vec F S640x1024 .bf16) (s : Vec F S1024x1024 .f32) : Vec F S1024x1024 .f32 :=
  k0_pay2 (k0_pay5 i) t2 (k0_pay1 (k0_pay7 i t1 (k0_pay6 i t0 s w0) w1)) w2

/-- What the last tile stores as the output block: bias added, then x · logistic x. -/
def outStep (s : Vec F S1024x1024 .f32) (b : Vec F S1x1024 .f32) : Vec F S1024x1024 .f32 := k0_pay3 s b

/-! ## A whole-buffer access reads back what the last whole-buffer store left -/

section Whole

variable {Val : EltTy → Type} [∀ e, Nonempty (Val e)] {sg : RefSig} {κ : Kind} {sp : Space} {S : Shape} {e : EltTy}

/-- After a list of stores whose LAST one covers the whole buffer, the buffer reads as that store's payload. -/
theorem read_writes_cons_whole (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A whole-buffer load after such a list of stores reads that payload too. -/
theorem readCov_cons_whole (v : View sg κ sp S e) {off : Fin S.rank → Nat}
    (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A whole-buffer load of a whole memref held at contents `X` reads `X`. -/
theorem readAt_unread_whole {m : Memref sg κ sp S e} (hm : m.IsWhole) {off : Fin S.rank → Nat}
    (h : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero h inb]

/-- The zero offsets of a rank-two access, as the function the lemmas above ask for. -/
theorem zeros2 : (![0, 0] : Fin 2 → ℕ) = fun _ => 0 := by funext a; fin_cases a <;> rfl

end Whole

set_option maxHeartbeats 1000000 in
/-- FIRST TILE (reset taken, final store not): the accumulator, at anything, ends at one step from the zero fill. -/
theorem embed_first (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : isFirst i) (hl : ¬ isLast i) (t0 t1 t2 : Vec F S1024x1 .i32) (w0 w1 w2 : Vec F S640x1024 .bf16) (b : Vec F S1x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ (∃ d, owns (c : Thread nD τ) arg10 fullShare d)
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare (accStep i t0 t1 t2 w0 w1 w2 (k0_pay4 (F := F)))) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- As on a middle tile, after the zero fill: the accumulator's prior contents are overwritten whole, so every
  -- later load of it reads a payload and the last store's payload is `accStep` from the zero fill.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

set_option maxHeartbeats 1000000 in
/-- A MIDDLE TILE (neither conditional taken): the accumulator at `s` ends at one step from `s`. -/
theorem embed_mid (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : ¬ isFirst i) (hl : ¬ isLast i) (t0 t1 t2 : Vec F S1024x1 .i32) (w0 w1 w2 : Vec F S640x1024 .bf16) (b : Vec F S1x1024 .f32) (s : Vec F S1024x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare s
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg10 fullShare (accStep i t0 t1 t2 w0 w1 w2 s)) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- The body is run on the raw contents; the accumulator is left at three whole-buffer stores over `s`, each
  -- load of it in between reading the store before. The last store's payload, its loads read back, is `accStep`.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

set_option maxHeartbeats 1000000 in
/-- THE LAST TILE (reset not taken, final store taken): the accumulator at `s` ends at one step from `s`, and the
    output's staging buffer, at anything, ends at `outStep` of that accumulator and the bias row. -/
theorem embed_last (c : Dev nD) (E : Set ℕ) (i : grid0.Coords) (arg2 : Memref sig .tc .vmem S1024x1 .i32) (harg2 : arg2.IsWhole) (arg3 : Memref sig .tc .vmem S1024x1 .i32) (harg3 : arg3.IsWhole) (arg4 : Memref sig .tc .vmem S1024x1 .i32) (harg4 : arg4.IsWhole) (arg5 : Memref sig .tc .vmem S640x1024 .bf16) (harg5 : arg5.IsWhole) (arg6 : Memref sig .tc .vmem S640x1024 .bf16) (harg6 : arg6.IsWhole) (arg7 : Memref sig .tc .vmem S640x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole)
    (hf : ¬ isFirst i) (hl : isLast i) (t0 t1 t2 : Vec F S1024x1 .i32) (w0 w1 w2 : Vec F S640x1024 .bf16) (b : Vec F S1x1024 .f32) (s : Vec F S1024x1024 .f32) (K : PUnit → sProp 𝕄) :
    iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ (∃ d, owns (c : Thread nD τ) arg9 fullShare d) ∗ owns (c : Thread nD τ) arg10 fullShare s
        ∗ (iprop(owns (c : Thread nD τ) arg2 fullShare t0 ∗ owns (c : Thread nD τ) arg3 fullShare t1 ∗ owns (c : Thread nD τ) arg4 fullShare t2
        ∗ owns (c : Thread nD τ) arg5 fullShare w0 ∗ owns (c : Thread nD τ) arg6 fullShare w1 ∗ owns (c : Thread nD τ) arg7 fullShare w2
        ∗ owns (c : Thread nD τ) arg8 fullShare b ∗ owns (c : Thread nD τ) arg9 fullShare (outStep (accStep i t0 t1 t2 w0 w1 w2 s) b)
            ∗ owns (c : Thread nD τ) arg10 fullShare (accStep i t0 t1 t2 w0 w1 w2 s)) -∗ K ⟨⟩))
      ⊢ wp frame (wpE (defs₀ (F := F)) Variants.none c none) E (cc0__embed_kernel i arg2 harg2 arg3 harg3 arg4 harg4 arg5 harg5 arg6 harg6 arg7 harg7 arg8 harg8 arg9 harg9 arg10 harg10) K := by
  -- As on a middle tile for the accumulator; the output's staging buffer, at anything, is overwritten whole by
  -- `outStep` of the accumulator just left (read back through the three stores) and the bias row.
  simp only [cc0__embed_kernel_eq_skeleton]; unfold cc0__embed_kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hf10
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    simp only [readAt_unread_whole (S := S1024x1) _ zeros2, readAt_unread_whole (S := S1024x1024) _ zeros2, readAt_unread_whole (S := S640x1024) _ zeros2,
      readAt_unread_whole (S := S1x1024) _ zeros2, readCov_cons_whole (S := S1024x1024) _ zeros2, read_writes_cons_whole (S := S1024x1024) _ _ zeros2]
    rfl
  iexists _; isplitr
  swap; · iexact H10
  ipureintro
  sl_unfold_run_names
  simp only [readAt_unread_whole (S := S1024x1) _ zeros2, readAt_unread_whole (S := S1024x1024) _ zeros2, readAt_unread_whole (S := S640x1024) _ zeros2,
    readAt_unread_whole (S := S1x1024) _ zeros2, readCov_cons_whole (S := S1024x1024) _ zeros2, read_writes_cons_whole (S := S1024x1024) _ _ zeros2]
  rfl

end Cert.Kernel.Hand

end
-- ==== Proof.Bits.EmbedDat.lean ====
/-
  The embedding kernel as a pipeline region (grid 4 row blocks by 50 vocabulary tiles, the tile axis fastest), at a
  PARAMETER `V`: the TensorCore's buffer contents when the region is entered. The kernel keeps an accumulator in a
  scratch buffer from one grid point to the next: it is reset on every tile 0, every point adds its tile's three
  one-hot products (`accStep`), and on tile 49 the output block is computed from it. So what the scratch holds after
  point n is a recursion on n (`scrAt0`), and the region invariant between points says exactly that (`PhiS0`).
-/
import proofs.«422180_j71305047048767_1_alg».proof.Proof.Bits.EmbedBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One run of the body at point `t` on the accumulator `s`: `accStep` at the point's token columns and weight tiles. -/
def stepAt0 (c : Dev nD) (t : Fin cfg0.N) (s : Vec F S1024x1024 .f32) : Vec F S1024x1024 .f32 :=
  accStep (grid0.coords t) (iblk0 V c 0 t) (iblk0 V c 1 t) (iblk0 V c 2 t) (iblk0 V c 3 t) (iblk0 V c 4 t) (iblk0 V c 5 t) s

/-- THE ACCUMULATION. What the scratch holds after the body at position `n`: one step from the zero fill on a tile 0
    (the positions ≡ 0 mod 50), one step from what position `n - 1` left otherwise. -/
def scrAt0 (c : Dev nD) : (n : ℕ) → n < cfg0.N → Vec F S1024x1024 .f32
  | 0, hn => stepAt0 V c ⟨0, hn⟩ (k0_pay4 (F := F))
  | n + 1, hn => stepAt0 V c ⟨n + 1, hn⟩ (if (n + 1) % 50 = 0 then (k0_pay4 (F := F)) else scrAt0 c n (Nat.lt_of_succ_lt hn))

/-- What the body leaves in the output's staging buffer at point `t` when it stores there (tile 49): bias and SiLU of
    the accumulator the point has just left. (At the other points the window is idle and this value is not consulted.) -/
def outAt0 (c : Dev nD) (t : Fin cfg0.N) : Vec F S1024x1024 .f32 :=
  outStep (scrAt0 V c t.val t.isLt) (iblk0 V c 6 t)

/-- The accumulator scratch, a whole scoped buffer of the kernel's own. -/
abbrev scM0 : Memref sig .tc .vmem S1024x1024 .f32 := Memref.whole cc0_scratch0

/-- The core's other scoped buffers that are no staging buffer of this pipeline (the second kernel's staging buffers),
    each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant of the frame kit with the scratch as a memref owned at some contents. -/
theorem PhiA0_eq (c : Dev nD) :
    (Pipeline.ΦA spec0 c : sProp 𝕄)
      = iprop(iprop((∃ d, owns (c : Thread nD τ) scM0 fullShare d) ∗ otherScoped0 (F := F) c) ∗ (∃ r, prngReg c r)) := by
  unfold Pipeline.ΦA otherScoped0; rw [scopedRest0_eq]; simp only [scM0, owns_whole]; try rfl

/-- The region invariant before position `n`: before the first point the class's; afterwards the scratch at what the
    point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ otherScoped0 (F := F) c) ∗ (∃ r, prngReg c r))

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_7 (c : Dev nD) (t : Fin cfg0.N) : (dat0 V c).after 7 t = outAt0 V c t := by dsimp only [dat0]

/-! ## The body's two conditions in closed form, and where the output window is idle -/

/-- The reset is taken exactly at the positions ≡ 0 (mod 50): decided over the grid. -/
theorem hFirst0 : ∀ t : Fin cfg0.N, isFirst (grid0.coords t) ↔ t.val % 50 = 0 :=
  (by decide +kernel : ∀ t : Fin grid0.N, isFirst (grid0.coords t) ↔ t.val % 50 = 0)

/-- The final store is taken exactly at the positions ≡ 49 (mod 50): decided over the grid. -/
theorem hLast0 : ∀ t : Fin cfg0.N, isLast (grid0.coords t) ↔ t.val % 50 = 49 :=
  (by decide +kernel : ∀ t : Fin grid0.N, isLast (grid0.coords t) ↔ t.val % 50 = 49)

/-- Off the last tile the output window is idle: the body stores nothing into it. -/
theorem idleAt0_7 : ∀ t : Fin cfg0.N, ¬ isLast (grid0.coords t) → cfg0.idle 7 (grid0.coords t) = true :=
  (by decide +kernel : ∀ t : Fin grid0.N, ¬ isLast (grid0.coords t) → cfg0.idle 7 (grid0.coords t) = true)

/-- Off the last tile the output's block is not written back. -/
theorem noFlush0_7 : ∀ t : Fin cfg0.N, ¬ isLast (grid0.coords t) → (cfg0.win 7).flush t = false :=
  (by decide +kernel : ∀ t : Fin grid0.N, ¬ isLast (grid0.coords t) → win0_7.flush t = false)

/-- On the last tile the output window is live: the body stores its block. -/
theorem liveAt0_7 : ∀ t : Fin cfg0.N, isLast (grid0.coords t) → cfg0.idle 7 (grid0.coords t) = false :=
  (by decide +kernel : ∀ t : Fin grid0.N, isLast (grid0.coords t) → cfg0.idle 7 (grid0.coords t) = false)

/-! ## The accumulation and the invariant, one step at a time -/

/-- On a tile 0 the scratch ends one step from the zero fill. -/
theorem scrAt0_first (c : Dev nD) (t : Fin cfg0.N) (h0 : t.val % 50 = 0) :
    scrAt0 V c t.val t.isLt = stepAt0 V c t (k0_pay4 (F := F)) := by
  obtain ⟨n, hn⟩ := t
  cases n with
  | zero => rfl
  | succ n =>
    show stepAt0 V c ⟨n + 1, hn⟩ (if (n + 1) % 50 = 0 then (k0_pay4 (F := F)) else scrAt0 V c n (Nat.lt_of_succ_lt hn)) = _
    rw [if_pos h0]

/-- Off tile 0 the scratch ends one step from what the position before left. -/
theorem scrAt0_next (c : Dev nD) (t : Fin cfg0.N) (h0 : ¬ t.val % 50 = 0) :
    scrAt0 V c t.val t.isLt = stepAt0 V c t (scrAt0 V c (t.val - 1) (Nat.lt_of_le_of_lt (Nat.sub_le _ _) t.isLt)) := by
  obtain ⟨n, hn⟩ := t
  cases n with
  | zero => exact absurd (Nat.zero_mod _) h0
  | succ n =>
    show stepAt0 V c ⟨n + 1, hn⟩ (if (n + 1) % 50 = 0 then (k0_pay4 (F := F)) else scrAt0 V c n (Nat.lt_of_succ_lt hn)) = _
    rw [if_neg h0]; rfl

theorem PhiS0_zero (c : Dev nD) (n : ℕ) (h : n ≤ cfg0.N) (hz : n = 0) : PhiS0 V c n h = Pipeline.ΦA spec0 c := by
  subst hz; rfl

/-- After position `n`: the scratch at that position's contents. -/
theorem PhiS0_succ (c : Dev nD) (n : ℕ) (hn : n < cfg0.N) :
    PhiS0 V c (n + 1) hn = iprop(iprop(owns (c : Thread nD τ) scM0 fullShare (scrAt0 V c n hn) ∗ otherScoped0 (F := F) c) ∗ (∃ r, prngReg c r)) := rfl

/-- Before a position that is not the first: the scratch at what the position before left. -/
theorem PhiS0_pos (c : Dev nD) (n : ℕ) (h : n ≤ cfg0.N) (hz : n ≠ 0) :
    PhiS0 V c n h = iprop(iprop(owns (c : Thread nD τ) scM0 fullShare (scrAt0 V c (n - 1) (by omega)) ∗ otherScoped0 (F := F) c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## What the inputs' buffers hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]

/-- An input's current staging buffer holds its block at every point, fetched there or not: unfetched, the block
    index has not moved since the last fetch and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)

/-! ## The body obligation, at a generic point -/

/-- The inputs are never idle. -/
theorem liveAt0_in (t : Fin cfg0.N) (w : Fin cfg0.W) (hw : w.val < 7) : cfg0.idle w (grid0.coords t) = false := by
  match w, hw with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, _ => rfl

/-- What the body is called with at point `t`: the invariant, what the core owes, and each window's current buffer, -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point. The seven inputs' buffers hold their blocks. By the position's residue mod 50 the point is a
    first tile, a last tile or a middle one, and the body's triple for that case applies: the invariant hands it the
    accumulator (at anything on a first tile, else at what the position before left) and takes it back one step on;
    the output's buffer is stored on the last tile and handed back untouched elsewhere; the other scoped buffers,
    the generator register and what the core owes ride along. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (win0_0.stage (cfg0.slots t 0)) fullShare ((dat0 V c).after 0 t) from by
    unfold Dat.leavesExact; rw [liveAt0_in t 0 (by decide)], after0_0]
  rw [show (dat0 V c).leavesExact 1 t = owns (c : Thread nD τ) (win0_1.stage (cfg0.slots t 1)) fullShare ((dat0 V c).after 1 t) from by
    unfold Dat.leavesExact; rw [liveAt0_in t 1 (by decide)], after0_1]
  rw [show (dat0 V c).leavesExact 2 t = owns (c : Thread nD τ) (win0_2.stage (cfg0.slots t 2)) fullShare ((dat0 V c).after 2 t) from by
    unfold Dat.leavesExact; rw [liveAt0_in t 2 (by decide)], after0_2]
  rw [show (dat0 V c).leavesExact 3 t = owns (c : Thread nD τ) (win0_3.stage (cfg0.slots t 3)) fullShare ((dat0 V c).after 3 t) from by
    unfold Dat.leavesExact; rw [liveAt0_in t 3 (by decide)], after0_3]
  rw [show (dat0 V c).leavesExact 4 t = owns (c : Thread nD τ) (win0_4.stage (cfg0.slots t 4)) fullShare ((dat0 V c).after 4 t) from by
    unfold Dat.leavesExact; rw [liveAt0_in t 4 (by decide)], after0_4]
  rw [show (dat0 V c).leavesExact 5 t = owns (c : Thread nD τ) (win0_5.stage (cfg0.slots t 5)) fullShare ((dat0 V c).after 5 t) from by
    unfold Dat.leavesExact; rw [liveAt0_in t 5 (by decide)], after0_5]
  rw [show (dat0 V c).leavesExact 6 t = owns (c : Thread nD τ) (win0_6.stage (cfg0.slots t 6)) fullShare ((dat0 V c).after 6 t) from by
    unfold Dat.leavesExact; rw [liveAt0_in t 6 (by decide)], after0_6]
  have hN : t.val < 200 := lt_of_lt_of_eq t.isLt (show cfg0.N = 200 from N_0)
  by_cases h0 : t.val % 50 = 0
  · have hl : ¬ t.val % 50 = 49 := by omega
    rw [Dat.leavesExact_idle (dat0 V c) 7 t (idleAt0_7 t (fun h => hl ((hLast0 t).mp h))) (noFlush0_7 t (fun h => hl ((hLast0 t).mp h)))]
    rw [scrAt0_first V c t h0]; unfold stepAt0
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_first c Set.univ (grid0.coords t) _ _ _ _ _ _ _ _ _ _ _ _ _ _ _ _ _ _ ((hFirst0 t).mpr h0) (fun h => hl ((hLast0 t).mp h)) (iblk0 V c 0 t) (iblk0 V c 1 t) (iblk0 V c 2 t) (iblk0 V c 3 t) (iblk0 V c 4 t) (iblk0 V c 5 t) (iblk0 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_first c Set.univ (grid0.coords t) _ _ _ _ _ _ _ _ _ _ _ _ _ _ _ _ _ _ ((hFirst0 t).mpr h0) (fun h => hl ((hLast0 t).mp h)) (iblk0 V c 0 t) (iblk0 V c 1 t) (iblk0 V c 2 t) (iblk0 V c 3 t) (iblk0 V c 4 t) (iblk0 V c 5 t) (iblk0 V c 6 t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    by_cases hl : t.val % 50 = 49
    · rw [show (dat0 V c).leavesExact 7 t = owns (c : Thread nD τ) (win0_7.stage (cfg0.slots t 7)) fullShare ((dat0 V c).after 7 t) from by
        unfold Dat.leavesExact; rw [liveAt0_7 t ((hLast0 t).mpr hl)], after0_7]
      unfold outAt0
      rw [scrAt0_next V c t h0]; unfold stepAt0
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_last c Set.univ (grid0.coords t) _ _ _ _ _ _ _ _ _ _ _ _ _ _ _ _ _ _ (fun h => h0 ((hFirst0 t).mp h)) ((hLast0 t).mpr hl) (iblk0 V c 0 t) (iblk0 V c 1 t) (iblk0 V c 2 t) (iblk0 V c 3 t) (iblk0 V c 4 t) (iblk0 V c 5 t) (iblk0 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat0 V c) 7 t (idleAt0_7 t (fun h => hl ((hLast0 t).mp h))) (noFlush0_7 t (fun h => hl ((hLast0 t).mp h)))]
      rw [scrAt0_next V c t h0]; unfold stepAt0
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (embed_mid c Set.univ (grid0.coords t) _ _ _ _ _ _ _ _ _ _ _ _ _ _ _ _ _ _ (fun h => h0 ((hFirst0 t).mp h)) (fun h => hl ((hLast0 t).mp h)) (iblk0 V c 0 t) (iblk0 V c 1 t) (iblk0 V c 2 t) (iblk0 V c 3 t) (iblk0 V c 4 t) (iblk0 V c 5 t) (iblk0 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation for pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any position but the first the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hoth⟩, Hg⟩
  isplitl [HS Hoth]
  · isplitl [HS]
    · iexists _; iexact HS
    iexact Hoth
  iexact Hg

/-- After the last point the invariant gives the class's back: the scratch's named contents are forgotten. -/
theorem hout0 (c : Dev nD) : (dat0 V c).Φ (Fin.last cfg0.N) ⊢ Pipeline.ΦA spec0 c :=
  Phi_out0 V c _ (by rw [Fin.val_last]; have : cfg0.N = 200 := N_0; omega)

end Cert.Kernel.Hand

end
-- ==== Proof.Bits.MmRegion.lean ====
/-
  The second kernel (h·W2 + b2, one block of 1024 rows by 1280 columns per grid point) as a pipeline region, at a
  PARAMETER `V`: the TensorCore's buffer contents when the region is entered. One control case; the body loads the
  three input blocks whole and stores the whole output block, so after the body the output's staging buffer holds the
  body's payload of the three input blocks of the point.
-/
import proofs.«422180_j71305047048767_1_alg».proof.Proof.Gen.Kernel.Launch
import proofs.«422180_j71305047048767_1_alg».proof.Proof.Gen.Kernel.Skeleton
import proofs.«422180_j71305047048767_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero offsets of a rank-2 rectangle, as the constant function. -/
private theorem zeros2 : (![0, 0] : Fin 2 → Nat) = fun _ => 0 := funext fun a => by fin_cases a <;> rfl

/-- A load through the whole-shape rectangle at zero offsets reads the view's contents. -/
private theorem readAt_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f (Rect.unit off S.size inb)).trans (View.ld_unit_zero h inb _)

/-- One store through the whole-shape rectangle at zero offsets, over any prior contents, reads back as its payload:
    the rectangle holds every index, so the store covers the shape and nothing of the prior contents is left. -/
private theorem read_store_whole_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

/-- The body on whole staging memrefs: the inputs' at `x0 x1 x2`, the output's at anything, runs to the continuation
    holding the inputs' as they were and the output's at the payload of the three. -/
theorem mm_body (c : Dev nD) (E : Set ℕ) (i : grid1.Coords)
    (arg2 : Memref sig .tc .vmem S1024x1024 .f32) (harg2 : arg2.IsWhole) (arg3 : Memref sig .tc .vmem S1024x1280 .bf16) (harg3 : arg3.IsWhole)
    (arg4 : Memref sig .tc .vmem S1x1280 .f32) (harg4 : arg4.IsWhole) (arg5 : Memref sig .tc .vmem S1024x1280 .f32) (harg5 : arg5.IsWhole)
    (x0 : Vec F S1024x1024 .f32) (x1 : Vec F S1024x1280 .bf16) (x2 : Vec F S1x1280 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay1 x0 x1 x2)) -∗ K ⟨⟩))
      ⊢ wp frame (wpE (defs₀ (F := F)) Variants.none c none) E (cc1__mm_kernel i arg2 harg2 arg3 harg3 arg4 harg4 arg5 harg5) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- each load is through the whole-buffer rectangle of its input, so it reads that input's contents; the one store
  -- is through the whole-buffer rectangle of the output, so what is read back is its payload
  rw [readAt_whole_zero arg2.view f0 zeros2 inb_S1024x1024_S1024x1024_0_0,
    readAt_whole_zero arg3.view f1 zeros2 inb_S1024x1280_S1024x1280_0_0,
    readAt_whole_zero arg4.view f2 zeros2 inb_S1x1280_S1x1280_0_0]
  exact read_store_whole_zero arg5.view f3 zeros2 inb_S1024x1280_S1024x1280_0_0 _

/-- The proof data of pipeline 1 on core `c`: the arrays as the region finds them; after the body at point `t` each
    input's buffer at its block and the output's at the payload of the input blocks; the scoped rest and the generator
    register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the same invariant and debt, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks (`before1_0`, `before1_1`, `before1_2`), the
    output's holds anything, so `mm_body` applies at the blocks; the invariant and the debt do not depend on the point
    and pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (mm_body c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole program as a run: 21 host operations, the embedding region, 2 host operations, the matmul region, the
  final reshape. Between two items a core holds every unscoped buffer at a known valuation: the launch memory, then
  each host stretch applied, then after a region its output array at what the pipeline's write-backs leave
  (`Dat.arrAt … N`) and every other buffer as the region found it. The two regions are entered through the library's
  segment records; the launch theorem for a list of segments then gives: every weakly fair execution terminates, and
  the final memory holds the result buffer at the last valuation and every argument as launched.
-/
import proofs.«422180_j71305047048767_1_alg».proof.Proof.Bits.EmbedDat
import proofs.«422180_j71305047048767_1_alg».proof.Proof.Bits.MmRegion
import proofs.«422180_j71305047048767_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore's buffers when the embedding region is entered: the launch memory after the first host stretch. -/
abbrev VE0 (c : Dev nD) (b : Ref sig .tc) : Buf (Elt F) ((c : Thread nD τ).loc b) := Gen.V1 m c b

/-- What the embedding region leaves in its output array (the activations `h`, 4096 x 1024). -/
def o2 (c : Dev nD) : Buf (Elt F) ((c : Thread nD τ).loc main_v20) := (dat0 (VE0 m) c).arrAt 7 cfg0.N

/-- The regions' outputs with only the first region's known (what the second region's entry contents are read through). -/
def outsA : Gen.Outs (F := F) := fun _ r c =>
  if h : r = main_v20 then h ▸ o2 m c else m ((c : Thread nD τ).loc r)

/-- The TensorCore's buffers when the matmul region is entered. -/
abbrev VE1 (c : Dev nD) (b : Ref sig .tc) : Buf (Elt F) ((c : Thread nD τ).loc b) := Gen.V3 m (outsA m) c b

/-- What the matmul region leaves in its output array (the logits, 4096 x 32000). -/
def o4 (c : Dev nD) : Buf (Elt F) ((c : Thread nD τ).loc main_v23) := (dat1 (VE1 m) c).arrAt 3 cfg1.N

/-- What the two regions leave in the buffers they may change. -/
def outs : Gen.Outs (F := F) := fun _ r c =>
  if h : r = main_v20 then h ▸ o2 m c else if h' : r = main_v23 then h' ▸ o4 m c else m ((c : Thread nD τ).loc r)

theorem outs_v20 (c : Dev nD) : outs m 2 main_v20 c = o2 m c := by
  unfold outs; rw [dif_pos rfl]
theorem outs_v23 (c : Dev nD) : outs m 4 main_v23 c = o4 m c := by
  unfold outs; rw [dif_neg (by decide), dif_pos rfl]
/-- The same reading of the first region's output through the partial table. -/
theorem outsA_v20 (c : Dev nD) : outsA m 2 main_v20 c = o2 m c := by
  unfold outsA; rw [dif_pos rfl]
/-- The second region's entry contents do not depend on what it leaves itself. -/
theorem V3_outs (c : Dev nD) : Gen.V3 m (outs m) c = Gen.V3 m (outsA m) c := by
  show StableHlo.after hostOps1 (Function.update (Gen.V1 m c) _ (outs m 2 main_v20 c)) = StableHlo.after hostOps1 (Function.update (Gen.V1 m c) _ (outsA m 2 main_v20 c))
  rw [outs_v20, outsA_v20]

/-! ## What each region leaves: its arrays at the pipeline's final contents, every other buffer as entered -/

/-- At the embedding region's exit each of its arrays holds what the pipeline leaves: an input array is never written
    (it holds its entry contents, which the region's exit valuation keeps), the output array is the exit valuation's
    one changed buffer. -/
theorem hF0 (c : Dev nD) : ∀ w : Fin cfg0.W, (dat0 (VE0 m) c).arrAt w cfg0.N = Gen.V2 m (outs m) c (Pipeline.arrRef spec0 w)
  | ⟨0, _⟩ => ((dat0 (VE0 m) c).arrAt_in 0 rfl _).trans ((A_eq0 (VE0 m) c 0).trans (Gen.V2_of m (outs m) c main_v10 (by decide)).symm)
  | ⟨1, _⟩ => ((dat0 (VE0 m) c).arrAt_in 1 rfl _).trans ((A_eq0 (VE0 m) c 1).trans (Gen.V2_of m (outs m) c main_v11 (by decide)).symm)
  | ⟨2, _⟩ => ((dat0 (VE0 m) c).arrAt_in 2 rfl _).trans ((A_eq0 (VE0 m) c 2).trans (Gen.V2_of m (outs m) c main_v12 (by decide)).symm)
  | ⟨3, _⟩ => ((dat0 (VE0 m) c).arrAt_in 3 rfl _).trans ((A_eq0 (VE0 m) c 3).trans (Gen.V2_of m (outs m) c main_v14 (by decide)).symm)
  | ⟨4, _⟩ => ((dat0 (VE0 m) c).arrAt_in 4 rfl _).trans ((A_eq0 (VE0 m) c 4).trans (Gen.V2_of m (outs m) c main_v16 (by decide)).symm)
  | ⟨5, _⟩ => ((dat0 (VE0 m) c).arrAt_in 5 rfl _).trans ((A_eq0 (VE0 m) c 5).trans (Gen.V2_of m (outs m) c main_v18 (by decide)).symm)
  | ⟨6, _⟩ => ((dat0 (VE0 m) c).arrAt_in 6 rfl _).trans ((A_eq0 (VE0 m) c 6).trans (Gen.V2_of m (outs m) c main_v19 (by decide)).symm)
  | ⟨7, _⟩ => by
    show o2 m c = Function.update (Gen.V1 m c) (Proc.devRef .tc main_v20) (outs m 2 main_v20 c) (Proc.devRef .tc main_v20)
    rw [Function.update_self, outs_v20]

/-- Every buffer that is none of the embedding region's arrays is at its exit as at its entry. -/
theorem hrest0 (c : Dev nD) (b : Ref sig .tc) (hb : b ∉ Finset.univ.image (Pipeline.arrRef spec0)) :
    Gen.V2 m (outs m) c b = VE0 m c b :=
  Gen.V2_of m (outs m) c b (fun h => hb (by
    rw [List.mem_singleton.mp h]; exact Finset.mem_image.mpr ⟨7, Finset.mem_univ _, rfl⟩))

/-- At the matmul region's exit each of its arrays holds what the pipeline leaves. -/
theorem hF1 (c : Dev nD) : ∀ w : Fin cfg1.W, (dat1 (VE1 m) c).arrAt w cfg1.N = Gen.V4 m (outs m) c (Pipeline.arrRef spec1 w)
  | ⟨0, _⟩ => ((dat1 (VE1 m) c).arrAt_in 0 rfl _).trans ((A_eq1 (VE1 m) c 0).trans (((Gen.V4_of m (outs m) c main_v20 (by decide)).trans (congrFun (V3_outs m c) _)).symm))
  | ⟨1, _⟩ => ((dat1 (VE1 m) c).arrAt_in 1 rfl _).trans ((A_eq1 (VE1 m) c 1).trans (((Gen.V4_of m (outs m) c main_v21 (by decide)).trans (congrFun (V3_outs m c) _)).symm))
  | ⟨2, _⟩ => ((dat1 (VE1 m) c).arrAt_in 2 rfl _).trans ((A_eq1 (VE1 m) c 2).trans (((Gen.V4_of m (outs m) c main_v22 (by decide)).trans (congrFun (V3_outs m c) _)).symm))
  | ⟨3, _⟩ => by
    show o4 m c = Function.update (Gen.V3 m (outs m) c) (Proc.devRef .tc main_v23) (outs m 4 main_v23 c) (Proc.devRef .tc main_v23)
    rw [Function.update_self, outs_v23]

/-- Every buffer that is none of the matmul region's arrays is at its exit as at its entry. -/
theorem hrest1 (c : Dev nD) (b : Ref sig .tc) (hb : b ∉ Finset.univ.image (Pipeline.arrRef spec1)) :
    Gen.V4 m (outs m) c b = VE1 m c b :=
  (Gen.V4_of m (outs m) c b (fun h => hb (by
    rw [List.mem_singleton.mp h]; exact Finset.mem_image.mpr ⟨3, Finset.mem_univ _, rfl⟩))).trans (congrFun (V3_outs m c) _)

/-! ## The proof data family and what rides beside the buffers -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (VE0 m) c
  | ⟨1, _⟩ => fun c => dat1 (VE1 m) c

/-- No core owes another anything: no level is assigned. -/
abbrev Lz : GSem nD τ sig → Finset Unit := fun _ => ∅
abbrev lvz : GSem nD τ sig → Unit → ℕ := fun _ _ => 0
/-- What rides beside the buffers through every item: the core's generator register at some state and the core
    owing nothing. -/
abbrev Rz (c : Dev nD) : sProp 𝕄 := iprop((∃ r, prngReg c r) ∗ ∃ W, owes (c : Thread nD τ) (0 : CellTallies nD τ sig Unit) W)

/-! ## The regions as segments -/

set_option backward.isDefEq.respectTransparency.types false in
/-- THE EMBEDDING REGION over the thread state: entered with every unscoped buffer at the first host stretch's
    valuation, left with the output array at what the pipeline wrote back and every other buffer as entered. Its
    arrays are split out of the unscoped buffers at entry and put back at exit; the generator register goes into the
    region invariant and comes back; nothing is owed; the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ Lz lvz 0 fun _ _ => rfl
  pre c := iprop(StableHlo.held (c : Thread nD τ) (Pipeline.ucRefs τ sig) (Gen.V1 m c) ∗ Rz c)
  post c := iprop(StableHlo.held (c : Thread nD τ) (Pipeline.ucRefs τ sig) (Gen.V2 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VE0 m c) fun w => A_eq0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VE0 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE MATMUL REGION over the thread state: entered with every unscoped buffer at the second host stretch's
    valuation (which reads the first region's output only), left with the logits' array at what the pipeline wrote
    back and every other buffer as entered. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ Lz lvz 1 fun _ _ => rfl
  pre c := iprop(StableHlo.held (c : Thread nD τ) (Pipeline.ucRefs τ sig) (Gen.V3 m (outs m) c) ∗ Rz c)
  post c := iprop(StableHlo.held (c : Thread nD τ) (Pipeline.ucRefs τ sig) (Gen.V4 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none, V3_outs]
    have hsplit := Pipeline.arrays_of_unscopedBufs (p := 1) (pcfgs (F := F)) Gen.adm (pdats m) launch1.win launch1.arr_whole c
      ((pdats m 1 c).share_full fun _ => rfl) (VE1 m c) fun w => A_eq1 (VE1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VE1 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last host stretch the generator register is let go: what remains of the rest is the core owing nothing. -/
theorem Rz_owes (c : Dev nD) : (Rz (F := F) c) ⊢ (iprop(∃ W, owes (c : Thread nD τ) (0 : CellTallies nD τ sig Unit) W) : sProp 𝕄) := by
  iintro ⟨-, HO⟩; iexact HO

set_option backward.isDefEq.respectTransparency.types false in
/-- THE RUN: every weakly fair execution of the program from memory `m` with zero counters terminates, nothing
    faulting, with the result buffer at the last valuation and every argument as launched. -/
theorem run_value : θ_run (defs (F := F)) (onTc (τ := τ) (main (F := F))) ⟨m, fun _ => 0, ρ⟩ (fun r => ∀ c : Dev nD,
      r.2.mem ((c.tc : Thread nD τ).loc main_v24) = Gen.V5 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) Gen.adm (pdats m) () cellOf_inj emb₁ defs₀ Variants.none Lz lvz m ρ main
    (Gen.segs m (outs m) Variants.none Lz lvz (fun _ c => Rz c) () (pdats m) (reg0 m) (reg1 m))
    (fun c Q => by
      rewrite [main_chain c, Pipeline.Seg.run_eq_chain,
        show (Gen.segs m (outs m) Variants.none Lz lvz (fun _ c => Rz c) () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ Rz c))
    (Tₙ := fun c => StableHlo.held (c : Thread nD τ) (Pipeline.ucRefs τ sig) (Gen.V5 m (outs m) c))
    (hch := fun c => ⟨.rfl, .rfl, .rfl, .rfl, .rfl, sep_mono .rfl (Rz_owes c)⟩)
    (hinit := ?hinit)
    (QY := fun c s => s.mem ((c.tc : Thread nD τ).loc main_v24) = Gen.V5 m (outs m) c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?hfin) (hQ := fun _ h => h)
  case hu =>
    -- the launch element is the pipelines' own; no ghost resource beside it
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hinit =>
    -- the launch: each core holds its unscoped buffers at the launch memory, its generator register, and owes nothing
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    -- the end: the result buffer and each argument's buffer read off the last valuation
    unfold StableHlo.held
    iintro ⟨Hh, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c),
        (h (Proc.devRef .tc main_arg4) (Finset.mem_filter.mpr ⟨StableHlo.devRef_mem_tcRefs main_arg4, by decide⟩)).trans (Gen.V5_main_arg4 m (outs m) c)⟩
    · iexact HSI

/-- THE FRAME: the program runs and its arguments end as launched. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := F)) _ _).mono (fun _ h c => (h c).2) (run_value m ρ)

end Cert.Kernel.Hand

end
-- ==== Proof.Spec.lean ====
/-
  The specification both programs are proved against, index by index, on the extended reals.
  A position `s` of the sequence (2048 positions, 2 batch entries) sees the three tokens ending at it, the sequence
  padded on the left with two zeros: slot `j` of its window is the token at position `s + j - 2`, or 0 before the
  start. Slot `j` selects row `j * 32000 + token` of the weight table (96000 rows: one slab of 32000 rows per slot);
  the embedding is the sum of the three selected rows plus the bias; the activation is x * logistic x of it; the
  logits are the activations times the second weight matrix plus its bias.
-/
import Idealize.ShloMosaic.PureOps.Ideal
import Idealize.ShloMosaic.Lib.ValueIdx

noncomputable section

namespace Cert.Spec

open Idealize.ShloMosaic Idealize.ShloMosaic.ValueIdx

abbrev S2048x2 : Shape := ⟨2, ![2048, 2]⟩
abbrev S96000x1024 : Shape := ⟨2, ![96000, 1024]⟩
abbrev S1024 : Shape := ⟨1, ![1024]⟩
abbrev S1024x32000 : Shape := ⟨2, ![1024, 32000]⟩
abbrev S32000 : Shape := ⟨1, ![32000]⟩

/-- The token in slot `j` of the window of position `s`, batch entry `b`: zero in the left padding. -/
def tokWin (tok : S2048x2.Idx → BitVec 32) (s : Fin 2048) (b : Fin 2) (j : Fin 3) : BitVec 32 :=
  if h : s.val + j.val < 2 then 0#32 else tok (ix2 (⟨s.val + j.val - 2, by omega⟩ : Fin 2048) b)

/-- The row of the weight table slot `j` selects (total: a token word is read modulo the slab's 32000 rows, which
    changes nothing for a token below 32000). -/
def row (tok : S2048x2.Idx → BitVec 32) (s : Fin 2048) (b : Fin 2) (j : Fin 3) : Fin 96000 :=
  ⟨j.val * 32000 + (tokWin tok s b j).toNat % 32000, by have := Nat.mod_lt (tokWin tok s b j).toNat (show 0 < 32000 by norm_num); omega⟩

/-- The embedding: the three selected rows summed, plus the bias. -/
def emb (tok : S2048x2.Idx → BitVec 32) (W1 : S96000x1024.Idx → EReal) (b1 : S1024.Idx → EReal)
    (s : Fin 2048) (b : Fin 2) (e : Fin 1024) : EReal :=
  (W1 (ix2 (row tok s b 0) e) + W1 (ix2 (row tok s b 1) e) + W1 (ix2 (row tok s b 2) e)) + b1 (ix1 e)

/-- The activation: x * logistic x. -/
def act (tok : S2048x2.Idx → BitVec 32) (W1 : S96000x1024.Idx → EReal) (b1 : S1024.Idx → EReal)
    (s : Fin 2048) (b : Fin 2) (e : Fin 1024) : EReal :=
  emb tok W1 b1 s b e * Ideal.logistic (emb tok W1 b1 s b e)

/-- The logits. -/
def logits (tok : S2048x2.Idx → BitVec 32) (W1 : S96000x1024.Idx → EReal) (b1 : S1024.Idx → EReal)
    (W2 : S1024x32000.Idx → EReal) (b2 : S32000.Idx → EReal) (s : Fin 2048) (b : Fin 2) (n : Fin 32000) : EReal :=
  (∑ e : Fin 1024, act tok W1 b1 s b e * W2 (ix2 e n)) + b2 (ix1 n)

end Cert.Spec

end
-- ==== Proof.HostValue.lean ====
/-
  The kernel program's host operations read at an index, on the extended reals: what the two regions find in their
  arrays, in terms of the program's arguments, and the program's result in terms of what the matmul region leaves.
  Before the embedding region: the tokens are padded on the left with two zero rows, the three windows' slots are
  the padded array shifted by 0, 1, 2 rows, stacked on a new last axis and flattened to 4096 rows (row 2 s + b for
  position s, batch entry b), and column j of that is slot j's token column; the weight table is cut into its three
  slabs of 32000 rows (the change of float format is the identity here); the bias becomes a row. Between the regions
  the second weight matrix changes format (identity) and its bias becomes a row; no host operation touches the
  activations the first region left. After the matmul region its 4096 x 32000 output is read as 2048 x 2 x 32000.
-/
import proofs.«422180_j71305047048767_1_alg».proof.Proof.Run
import proofs.«422180_j71305047048767_1_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The flattened row of position `s`, batch entry `b`. -/
def flatRow (s : Fin 2048) (b : Fin 2) : Fin 4096 := ⟨2 * s.val + b.val, by omega⟩

section Reads
variable {α : Type}

/-- Two pieces joined along the rows, read in the first piece: a row below the first piece's two rows. -/
private theorem hv_pad_left (z : S2x2.Idx → α) (T : S2048x2.Idx → α) (h : Shape.Concatenates [S2x2, S2048x2] S2050x2 0)
    (r : Fin 2050) (b : Fin 2) (hr : r.val < 2) :
    concatenate S2050x2 0 [⟨S2x2, z⟩, ⟨S2048x2, T⟩] h (ix2 r b) = z (ix2 ⟨r.val, hr⟩ b) :=
  concatenate_pair_apply_left 0 z T h (ix2 r b) rfl (ix2 ⟨r.val, hr⟩ b)
    (fun a => match a with | ⟨0, _⟩ => rfl | ⟨1, _⟩ => rfl)

/-- Read in the second piece: row r of the joined array is row r - 2 of the second piece. -/
private theorem hv_pad_right (z : S2x2.Idx → α) (T : S2048x2.Idx → α) (h : Shape.Concatenates [S2x2, S2048x2] S2050x2 0)
    (r : Fin 2050) (b : Fin 2) (q : Fin 2048) (hq : q.val + 2 = r.val) :
    concatenate S2050x2 0 [⟨S2x2, z⟩, ⟨S2048x2, T⟩] h (ix2 r b) = T (ix2 q b) :=
  concatenate_pair_apply_right 0 z T h (ix2 r b) rfl rfl (ix2 q b)
    (fun a hne => match a, hne with | ⟨0, _⟩, hne => absurd rfl hne | ⟨1, _⟩, _ => rfl)
    (by show q.val + 2 = r.val; exact hq)

/-- An array of 2050 rows shifted down by k rows, with a unit axis added, at (s, b, 0): row k + s. -/
private theorem hv_shift_apply (P : S2050x2.Idx → α) (k : Nat) (hk : k ≤ 2) (sl : S2050x2.Slices ![k, 0] S2048x2)
    (bc : S2048x2.BroadcastsInDim S2048x2x1 (![0, 1] : Fin 2 → Fin S2048x2x1.rank)) (s : Fin 2048) (b : Fin 2) :
    broadcastInDim S2048x2x1 ![0, 1] bc (extractStridedSlice S2048x2 ![k, 0] P sl) (ix3 s b (0 : Fin 1))
      = P (ix2 ⟨k + s.val, by omega⟩ b) := by
  refine (broadcastInDim_apply _ bc _ (ix3 s b (0 : Fin 1)) (ix2 s b) (fun a => match a with
    | ⟨0, _⟩ => by show s.val = if (2048 : Nat) = 1 then 0 else s.val; rw [if_neg (by decide)]
    | ⟨1, _⟩ => by show b.val = if (2 : Nat) = 1 then 0 else b.val; rw [if_neg (by decide)])).trans ?_
  exact slice2_axis0_apply k P sl s b ⟨k + s.val, by omega⟩ rfl

/-- The reshape [2048, 2, 3] → [4096, 3] at the flattened row 2 s + b: the same row-major position as (s, b, j). -/
private theorem hv_flat_apply (X : S2048x2x3.Idx → α) (sc : S2048x2x3.ShapeCasts S4096x3) (s : Fin 2048) (b : Fin 2) (j : Fin 3) :
    shapeCast S4096x3 X sc (ix2 (flatRow s b) j) = X (ix3 s b j) := by
  refine shapeCast_apply X sc _ _ ?_
  rw [Shape.rowMajor_val_two, Shape.rowMajor_val_three]
  show (s.val * 2 + b.val) * 3 + j.val = (2 * s.val + b.val) * 3 + j.val
  omega

/-- Three unit pieces stacked on the last axis: at (s, b, j) the stack reads piece j at (s, b, 0). -/
private theorem hv_cat_apply (A B C : S2048x2x1.Idx → α) (h : Shape.Concatenates [S2048x2x1, S2048x2x1, S2048x2x1] S2048x2x3 2)
    (s : Fin 2048) (b : Fin 2) :
    concatenate S2048x2x3 2 [⟨S2048x2x1, A⟩, ⟨S2048x2x1, B⟩, ⟨S2048x2x1, C⟩] h (ix3 s b (0 : Fin 3)) = A (ix3 s b (0 : Fin 1))
    ∧ concatenate S2048x2x3 2 [⟨S2048x2x1, A⟩, ⟨S2048x2x1, B⟩, ⟨S2048x2x1, C⟩] h (ix3 s b (1 : Fin 3)) = B (ix3 s b (0 : Fin 1))
    ∧ concatenate S2048x2x3 2 [⟨S2048x2x1, A⟩, ⟨S2048x2x1, B⟩, ⟨S2048x2x1, C⟩] h (ix3 s b (2 : Fin 3)) = C (ix3 s b (0 : Fin 1)) := by
  have hi : ∀ (j : Fin 3) (a : Fin S2048x2x1.rank), a.cast (rfl : S2048x2x1.rank = S2048x2x3.rank) ≠ (2 : Fin S2048x2x3.rank) →
      ((ix3 s b (0 : Fin 1) : S2048x2x1.Idx) a).val = ((ix3 s b j : S2048x2x3.Idx) (a.cast rfl)).val := fun j a hne =>
    match a, hne with
    | ⟨0, _⟩, _ => rfl
    | ⟨1, _⟩, _ => rfl
    | ⟨2, _⟩, hne => absurd rfl hne
  refine ⟨?_, ?_, ?_⟩
  · exact concatenate_apply_piece 2 ([⟨S2048x2x1, A⟩, ⟨S2048x2x1, B⟩, ⟨S2048x2x1, C⟩] : List ((s : Shape) × (s.Idx → α))) h (ix3 s b 0) 0 (by show (0 : Nat) < 3; omega) S2048x2x1 A rfl rfl 0 rfl (ix3 s b 0) (hi 0) rfl
  · exact concatenate_apply_piece 2 ([⟨S2048x2x1, A⟩, ⟨S2048x2x1, B⟩, ⟨S2048x2x1, C⟩] : List ((s : Shape) × (s.Idx → α))) h (ix3 s b 1) 1 (by show (1 : Nat) < 3; omega) S2048x2x1 B rfl rfl 1 rfl (ix3 s b 0) (hi 1) rfl
  · exact concatenate_apply_piece 2 ([⟨S2048x2x1, A⟩, ⟨S2048x2x1, B⟩, ⟨S2048x2x1, C⟩] : List ((s : Shape) × (s.Idx → α))) h (ix3 s b 2) 2 (by show (2 : Nat) < 3; omega) S2048x2x1 C rfl rfl 2 rfl (ix3 s b 0) (hi 2) rfl

end Reads

/-- The tokens padded on the left with two zero rows, shifted by j rows, with a unit axis added, at (s, b, 0): the
    window's slot j. Row j + s of the padded array is a zero row when s + j < 2 and token row s + j - 2 otherwise. -/
private theorem hv_win (T : S2048x2.Idx → BitVec 32) (h0 : Shape.Concatenates [S2x2, S2048x2] S2050x2 0)
    (bz : S_.BroadcastsInDim S2x2 (![] : Fin 0 → Fin S2x2.rank)) (j : Fin 3) (sl : S2050x2.Slices ![j.val, 0] S2048x2)
    (bc : S2048x2.BroadcastsInDim S2048x2x1 (![0, 1] : Fin 2 → Fin S2048x2x1.rank)) (s : Fin 2048) (b : Fin 2) :
    broadcastInDim S2048x2x1 ![0, 1] bc (extractStridedSlice S2048x2 ![j.val, 0]
        (concatenate S2050x2 0 [⟨S2x2, broadcastInDim S2x2 ![] bz (constantI S_ 32 0#32)⟩, ⟨S2048x2, T⟩] h0) sl) (ix3 s b (0 : Fin 1))
      = Cert.Spec.tokWin T s b j := by
  refine (hv_shift_apply _ j.val (by omega) sl bc s b).trans ?_
  unfold Cert.Spec.tokWin
  split
  · next hlt =>
    exact (hv_pad_left _ T h0 ⟨j.val + s.val, by omega⟩ b (by show j.val + s.val < 2; omega)).trans rfl
  · next hge =>
    exact hv_pad_right _ T h0 ⟨j.val + s.val, by omega⟩ b ⟨s.val + j.val - 2, by omega⟩
      (by show s.val + j.val - 2 + 2 = j.val + s.val; omega)

/-- A three-operand operation's result, each operand's contents read at its own buffer. -/
private theorem hv_nary3_result {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- The contents of one buffer after a list of host operations, as the operations' composed term of the buffers
    before them: each operation's result at its own buffer is its function's value, at any other buffer what was there. -/
local macro "hv_after" : tactic =>
  `(tactic| (simp only [StableHlo.after_cons, StableHlo.after_nil]
             repeat (first
               | rw [hv_nary3_result] | rw [StableHlo.nullary_result] | rw [StableHlo.unary_result] | rw [StableHlo.binary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- Slot j's token column at the flattened row is the window's token. -/
theorem tok0_apply (c : Dev nD) (s : Fin 2048) (b : Fin 2) :
    ((VE0 m c main_v10 : Vec Ideal S4096x1 .i32) (ix2 (flatRow s b) (0 : Fin 1)) : BitVec 32) = Cert.Spec.tokWin (m ((c.tc : Thread nD τ).loc main_arg0)) s b 0 := by
  show (StableHlo.after hostOps0 (fun b => m (c, b)) (Proc.devRef .tc main_v10) : Vec Ideal S4096x1 .i32) (ix2 (flatRow s b) (0 : Fin 1)) = _
  hv_after
  -- column 0 of the flattened array, which is the stack at (s, b, 0), which is the padded array shifted by 0 rows
  refine (slice2_axis1_apply 0 _ slices_S4096x3_S4096x1_0_0 (flatRow s b) (0 : Fin 1) (0 : Fin 3) rfl).trans ?_
  refine (hv_flat_apply _ shapeCasts_S2048x2x3_S4096x3 s b 0).trans ?_
  refine (hv_cat_apply _ _ _ concatenates_S2048x2x1_S2048x2x1_S2048x2x1_S2048x2x3_d2 s b).1.trans ?_
  exact hv_win _ concatenates_S2x2_S2048x2_S2050x2_d0 bcast_S_S2x2 0 slices_S2050x2_S2048x2_0_0 bcast_S2048x2_S2048x2x1_0_1 s b
theorem tok1_apply (c : Dev nD) (s : Fin 2048) (b : Fin 2) :
    ((VE0 m c main_v11 : Vec Ideal S4096x1 .i32) (ix2 (flatRow s b) (0 : Fin 1)) : BitVec 32) = Cert.Spec.tokWin (m ((c.tc : Thread nD τ).loc main_arg0)) s b 1 := by
  show (StableHlo.after hostOps0 (fun b => m (c, b)) (Proc.devRef .tc main_v11) : Vec Ideal S4096x1 .i32) (ix2 (flatRow s b) (0 : Fin 1)) = _
  hv_after
  refine (slice2_axis1_apply 1 _ slices_S4096x3_S4096x1_0_1 (flatRow s b) (0 : Fin 1) (1 : Fin 3) rfl).trans ?_
  refine (hv_flat_apply _ shapeCasts_S2048x2x3_S4096x3 s b 1).trans ?_
  refine (hv_cat_apply _ _ _ concatenates_S2048x2x1_S2048x2x1_S2048x2x1_S2048x2x3_d2 s b).2.1.trans ?_
  exact hv_win _ concatenates_S2x2_S2048x2_S2050x2_d0 bcast_S_S2x2 1 slices_S2050x2_S2048x2_1_0 bcast_S2048x2_S2048x2x1_0_1 s b
theorem tok2_apply (c : Dev nD) (s : Fin 2048) (b : Fin 2) :
    ((VE0 m c main_v12 : Vec Ideal S4096x1 .i32) (ix2 (flatRow s b) (0 : Fin 1)) : BitVec 32) = Cert.Spec.tokWin (m ((c.tc : Thread nD τ).loc main_arg0)) s b 2 := by
  show (StableHlo.after hostOps0 (fun b => m (c, b)) (Proc.devRef .tc main_v12) : Vec Ideal S4096x1 .i32) (ix2 (flatRow s b) (0 : Fin 1)) = _
  hv_after
  refine (slice2_axis1_apply 2 _ slices_S4096x3_S4096x1_0_2 (flatRow s b) (0 : Fin 1) (2 : Fin 3) rfl).trans ?_
  refine (hv_flat_apply _ shapeCasts_S2048x2x3_S4096x3 s b 2).trans ?_
  refine (hv_cat_apply _ _ _ concatenates_S2048x2x1_S2048x2x1_S2048x2x1_S2048x2x3_d2 s b).2.2.trans ?_
  exact hv_win _ concatenates_S2x2_S2048x2_S2050x2_d0 bcast_S_S2x2 2 slices_S2050x2_S2048x2_2_0 bcast_S2048x2_S2048x2x1_0_1 s b

/-- Slab j is rows 32000 j … 32000 j + 31999 of the weight table. -/
theorem slab0_apply (c : Dev nD) (u : Fin 32000) (e : Fin 1024) :
    ((VE0 m c main_v14 : Vec Ideal S32000x1024 .bf16) (ix2 u e) : EReal) = ((m ((c.tc : Thread nD τ).loc main_arg1)) (ix2 (⟨u.val, by omega⟩ : Fin 96000) e) : EReal) := by
  show (StableHlo.after hostOps0 (fun b => m (c, b)) (Proc.devRef .tc main_v14) : Vec Ideal S32000x1024 .bf16) (ix2 u e) = _
  after_results
  -- the change of float format is the identity; the slice reads row 0 + u
  exact slice2_axis0_apply 0 _ slices_S96000x1024_S32000x1024_0_0 u e ⟨u.val, by omega⟩ (Nat.zero_add _).symm
theorem slab1_apply (c : Dev nD) (u : Fin 32000) (e : Fin 1024) :
    ((VE0 m c main_v16 : Vec Ideal S32000x1024 .bf16) (ix2 u e) : EReal) = ((m ((c.tc : Thread nD τ).loc main_arg1)) (ix2 (⟨32000 + u.val, by omega⟩ : Fin 96000) e) : EReal) := by
  show (StableHlo.after hostOps0 (fun b => m (c, b)) (Proc.devRef .tc main_v16) : Vec Ideal S32000x1024 .bf16) (ix2 u e) = _
  after_results
  exact slice2_axis0_apply 32000 _ slices_S96000x1024_S32000x1024_32000_0 u e ⟨32000 + u.val, by omega⟩ rfl
theorem slab2_apply (c : Dev nD) (u : Fin 32000) (e : Fin 1024) :
    ((VE0 m c main_v18 : Vec Ideal S32000x1024 .bf16) (ix2 u e) : EReal) = ((m ((c.tc : Thread nD τ).loc main_arg1)) (ix2 (⟨64000 + u.val, by omega⟩ : Fin 96000) e) : EReal) := by
  show (StableHlo.after hostOps0 (fun b => m (c, b)) (Proc.devRef .tc main_v18) : Vec Ideal S32000x1024 .bf16) (ix2 u e) = _
  after_results
  exact slice2_axis0_apply 64000 _ slices_S96000x1024_S32000x1024_64000_0 u e ⟨64000 + u.val, by omega⟩ rfl

/-- The first bias as a row. -/
theorem bias1_apply (c : Dev nD) (e : Fin 1024) :
    ((VE0 m c main_v19 : Vec Ideal S1x1024 .f32) (ix2 (0 : Fin 1) e) : EReal) = ((m ((c.tc : Thread nD τ).loc main_arg2)) (ix1 e) : EReal) := by
  show (StableHlo.after hostOps0 (fun b => m (c, b)) (Proc.devRef .tc main_v19) : Vec Ideal S1x1024 .f32) (ix2 (0 : Fin 1) e) = _
  after_results
  exact shapeCast_a_1a_apply (m (c, Proc.devRef .tc main_arg2)) shapeCasts_S1024_S1x1024 0 e

/-- The matmul region finds the activations as the embedding region left them. -/
theorem act_eq (c : Dev nD) : VE1 m c main_v20 = o2 m c := by
  show Gen.V3 m (outsA m) c main_v20 = o2 m c
  -- the second host stretch does not write the activations; the first region's output is what was put there
  rw [Gen.V3_of m (outsA m) c main_v20 (by decide)]
  show Function.update (Gen.V1 m c) (Proc.devRef .tc main_v20) (outsA m 2 main_v20 c) (Proc.devRef .tc main_v20) = _
  rw [Function.update_self]
  show (if h : main_v20 = main_v20 then h ▸ o2 m c else _) = _
  rw [dif_pos rfl]

/-- The second weight matrix and the second bias as a row, as the matmul region finds them. -/
theorem w2_apply (c : Dev nD) (e : Fin 1024) (n : Fin 32000) :
    ((VE1 m c main_v21 : Vec Ideal S1024x32000 .bf16) (ix2 e n) : EReal) = ((m ((c.tc : Thread nD τ).loc main_arg3)) (ix2 e n) : EReal) := by
  show (StableHlo.after hostOps1 (Gen.V2 m (outsA m) c) (Proc.devRef .tc main_v21) : Vec Ideal S1024x32000 .bf16) (ix2 e n) = _
  after_results
  -- neither the first region nor the first host stretch writes the argument
  have h3 : Gen.V2 m (outsA m) c main_arg3 = m ((c : Thread nD τ).loc main_arg3) :=
    (Gen.V2_of m (outsA m) c main_arg3 (by decide)).trans ((Gen.V1_of m c main_arg3 (by decide)).trans rfl)
  exact congrFun h3 (ix2 e n)
theorem bias2_apply (c : Dev nD) (n : Fin 32000) :
    ((VE1 m c main_v22 : Vec Ideal S1x32000 .f32) (ix2 (0 : Fin 1) n) : EReal) = ((m ((c.tc : Thread nD τ).loc main_arg4)) (ix1 n) : EReal) := by
  show (StableHlo.after hostOps1 (Gen.V2 m (outsA m) c) (Proc.devRef .tc main_v22) : Vec Ideal S1x32000 .f32) (ix2 (0 : Fin 1) n) = _
  after_results
  have h4 : Gen.V2 m (outsA m) c main_arg4 = m ((c : Thread nD τ).loc main_arg4) :=
    (Gen.V2_of m (outsA m) c main_arg4 (by decide)).trans ((Gen.V1_of m c main_arg4 (by decide)).trans rfl)
  refine (shapeCast_a_1a_apply (Gen.V2 m (outsA m) c main_arg4) shapeCasts_S32000_S1x32000 0 n).trans ?_
  exact congrFun h4 (ix1 n)

/-- The program's result at (s, b, n) is the matmul region's output at the flattened row. -/
theorem result_apply (c : Dev nD) (s : Fin 2048) (b : Fin 2) (n : Fin 32000) :
    ((Gen.V5 m (outs m) c main_v24 : Vec Ideal S2048x2x32000 .f32) (ix3 s b n) : EReal)
      = ((o4 m c : Vec Ideal S4096x32000 .f32) (ix2 (flatRow s b) n) : EReal) := by
  show (StableHlo.after hostOps2 (Gen.V4 m (outs m) c) (Proc.devRef .tc main_v24) : Vec Ideal S2048x2x32000 .f32) (ix3 s b n) = _
  after_results
  -- the matmul region's output is what was put in its array
  have h4 : Gen.V4 m (outs m) c main_v23 = o4 m c := by
    show Function.update (Gen.V3 m (outs m) c) (Proc.devRef .tc main_v23) (outs m 4 main_v23 c) (Proc.devRef .tc main_v23) = _
    rw [Function.update_self]; exact outs_v23 m c
  -- the reshape [4096, 32000] → [2048, 2, 32000]: (s, b, n) and (2 s + b, n) have the same row-major position
  refine (shapeCast_apply (Gen.V4 m (outs m) c main_v23) shapeCasts_S4096x32000_S2048x2x32000 (ix3 s b n) (ix2 (flatRow s b) n) ?_).trans (congrFun h4 _)
  show ((⟨2, ![4096, 32000]⟩ : Shape).rowMajor (ix2 (flatRow s b) n)).val = ((⟨3, ![2048, 2, 32000]⟩ : Shape).rowMajor (ix3 s b n)).val
  rw [Shape.rowMajor_val_two, Shape.rowMajor_val_three]
  show (2 * s.val + b.val) * 32000 + n.val = (s.val * 2 + b.val) * 32000 + n.val
  omega

end Cert.KernelIdeal.Hand

end
-- ==== Proof.EmbedStep.lean ====
/-
  The embedding kernel's arithmetic read at an index, on the extended reals.
  At vocabulary tile v the body compares each row's token with the 640 vocabulary ids 640 v, …, 640 v + 639 of the
  tile and multiplies the resulting 0/1 matrix with the tile of the weight slab. A row of that 0/1 matrix has at most
  one entry 1, so the product at (r, e) is the weight tile's row (token - 640 v) at e when the token lies in the tile,
  and 0 otherwise (`pick`): 0 · x = 0 and 1 · x = x hold for every extended real x, so no finiteness is used.
-/
import proofs.«422180_j71305047048767_1_alg».proof.Proof.EmbedBody
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

/-- What one one-hot product contributes at row token `t`, column `e`, on vocabulary tile `v`: the weight tile's row
    `t - 640 v` when the token lies in the tile, else nothing. -/
def pick (v : ℕ) (t : BitVec 32) (w : Vec Ideal S640x1024 .bf16) (e : Fin 1024) : EReal :=
  if h : 640 * v ≤ t.toNat ∧ t.toNat < 640 * v + 640 then (w (ix2 (⟨t.toNat - 640 * v, by omega⟩ : Fin 640) e) : EReal) else 0

/-- The zero fill is zero. -/
theorem zeroFill_apply (j : S1024x1024.Idx) : (k0_pay4 (F := Ideal) j : EReal) = 0 := by
  unfold k0_pay4
  simp only [shapeCast_self]
  exact Ideal.ofBits_zero_f32

/-! ## A product into the zero accumulator is a sum over the contracted coordinate -/

theorem lhs_mmTile_0 (i : S1024x1024.Idx) (q : dot_S1024x640_S640x1024_S1024x1024_1_0_0_1_n_n.contr.Idx) :
    (dot_S1024x640_S640x1024_S1024x1024_1_0_0_1_n_n.lhsIdx i q 0).val = (i 0).val := by
  unfold DotDims.lhsIdx
  rw [dif_neg (show ¬(0 : Fin S1024x640.rank) ∈ dot_S1024x640_S640x1024_S1024x1024_1_0_0_1_n_n.lhsBatch by decide), dif_pos (show (0 : Fin S1024x640.rank) ∈ dot_S1024x640_S640x1024_S1024x1024_1_0_0_1_n_n.lhsNonContracting by decide)]
  rfl
theorem lhs_mmTile_1 (i : S1024x1024.Idx) (q : dot_S1024x640_S640x1024_S1024x1024_1_0_0_1_n_n.contr.Idx) :
    (dot_S1024x640_S640x1024_S1024x1024_1_0_0_1_n_n.lhsIdx i q 1).val = (q ⟨0, by decide⟩).val :=
  dot_S1024x640_S640x1024_S1024x1024_1_0_0_1_n_n.lhsIdx_val_of_single rfl i q
theorem rhs_mmTile_0 (i : S1024x1024.Idx) (q : dot_S1024x640_S640x1024_S1024x1024_1_0_0_1_n_n.contr.Idx) :
    (dot_S1024x640_S640x1024_S1024x1024_1_0_0_1_n_n.rhsIdx i q 0).val = (q ⟨0, by decide⟩).val :=
  dot_S1024x640_S640x1024_S1024x1024_1_0_0_1_n_n.rhsIdx_val_of_single rfl i q
theorem rhs_mmTile_1 (i : S1024x1024.Idx) (q : dot_S1024x640_S640x1024_S1024x1024_1_0_0_1_n_n.contr.Idx) :
    (dot_S1024x640_S640x1024_S1024x1024_1_0_0_1_n_n.rhsIdx i q 1).val = (i 1).val := by
  unfold DotDims.rhsIdx
  rw [dif_neg (show ¬(1 : Fin S640x1024.rank) ∈ dot_S1024x640_S640x1024_S1024x1024_1_0_0_1_n_n.rhsBatch by decide), dif_pos (show (1 : Fin S640x1024.rank) ∈ dot_S1024x640_S640x1024_S1024x1024_1_0_0_1_n_n.rhsNonContracting by decide)]
  rfl

/-- The product into the zero accumulator at (r, c): the sum over the contracted coordinate. -/
theorem mmTile_apply (a : FVec Ideal S1024x640 .bf16) (w : FVec Ideal S640x1024 .bf16) (i : S1024x1024.Idx) :
    matmul (F := Ideal) dot_S1024x640_S640x1024_S1024x1024_1_0_0_1_n_n none a w (constant (F := Ideal) S1024x1024 .f32 0x00000000#32) i
      = ∑ k : Fin 640, a (ix2 (i 0) k) * w (ix2 k (i 1)) := by
  simp only [matmul]
  rw [Ideal.matmul_constant_zero_apply, ← Equiv.sum_comp (ValueIdx.contrEquiv1 dot_S1024x640_S640x1024_S1024x1024_1_0_0_1_n_n 640 rfl rfl).symm]
  refine Finset.sum_congr rfl fun k _ => ?_
  have hk := ValueIdx.contrEquiv1_symm_val dot_S1024x640_S640x1024_S1024x1024_1_0_0_1_n_n 640 rfl rfl k
  have el : dot_S1024x640_S640x1024_S1024x1024_1_0_0_1_n_n.lhsIdx i ((ValueIdx.contrEquiv1 dot_S1024x640_S640x1024_S1024x1024_1_0_0_1_n_n 640 rfl rfl).symm k) = ix2 (i 0) k := funext fun x => Fin.ext (by
    match x with
    | ⟨0, _⟩ => exact lhs_mmTile_0 _ _
    | ⟨1, _⟩ => exact (lhs_mmTile_1 _ _).trans hk)
  have er : dot_S1024x640_S640x1024_S1024x1024_1_0_0_1_n_n.rhsIdx i ((ValueIdx.contrEquiv1 dot_S1024x640_S640x1024_S1024x1024_1_0_0_1_n_n 640 rfl rfl).symm k) = ix2 k (i 1) := funext fun x => Fin.ext (by
    match x with
    | ⟨0, _⟩ => exact (rhs_mmTile_0 _ _).trans hk
    | ⟨1, _⟩ => exact rhs_mmTile_1 _ _)
  rw [el, er]
  rfl

theorem lhs_mmOut_0 (i : S1024x1280.Idx) (q : dot_S1024x1024_S1024x1280_S1024x1280_1_0_0_1_n_n.contr.Idx) :
    (dot_S1024x1024_S1024x1280_S1024x1280_1_0_0_1_n_n.lhsIdx i q 0).val = (i 0).val := by
  unfold DotDims.lhsIdx
  rw [dif_neg (show ¬(0 : Fin S1024x1024.rank) ∈ dot_S1024x1024_S1024x1280_S1024x1280_1_0_0_1_n_n.lhsBatch by decide), dif_pos (show (0 : Fin S1024x1024.rank) ∈ dot_S1024x1024_S1024x1280_S1024x1280_1_0_0_1_n_n.lhsNonContracting by decide)]
  rfl
theorem lhs_mmOut_1 (i : S1024x1280.Idx) (q : dot_S1024x1024_S1024x1280_S1024x1280_1_0_0_1_n_n.contr.Idx) :
    (dot_S1024x1024_S1024x1280_S1024x1280_1_0_0_1_n_n.lhsIdx i q 1).val = (q ⟨0, by decide⟩).val :=
  dot_S1024x1024_S1024x1280_S1024x1280_1_0_0_1_n_n.lhsIdx_val_of_single rfl i q
theorem rhs_mmOut_0 (i : S1024x1280.Idx) (q : dot_S1024x1024_S1024x1280_S1024x1280_1_0_0_1_n_n.contr.Idx) :
    (dot_S1024x1024_S1024x1280_S1024x1280_1_0_0_1_n_n.rhsIdx i q 0).val = (q ⟨0, by decide⟩).val :=
  dot_S1024x1024_S1024x1280_S1024x1280_1_0_0_1_n_n.rhsIdx_val_of_single rfl i q
theorem rhs_mmOut_1 (i : S1024x1280.Idx) (q : dot_S1024x1024_S1024x1280_S1024x1280_1_0_0_1_n_n.contr.Idx) :
    (dot_S1024x1024_S1024x1280_S1024x1280_1_0_0_1_n_n.rhsIdx i q 1).val = (i 1).val := by
  unfold DotDims.rhsIdx
  rw [dif_neg (show ¬(1 : Fin S1024x1280.rank) ∈ dot_S1024x1024_S1024x1280_S1024x1280_1_0_0_1_n_n.rhsBatch by decide), dif_pos (show (1 : Fin S1024x1280.rank) ∈ dot_S1024x1024_S1024x1280_S1024x1280_1_0_0_1_n_n.rhsNonContracting by decide)]
  rfl

/-- The product into the zero accumulator at (r, c): the sum over the contracted coordinate. -/
theorem mmOut_apply (a : FVec Ideal S1024x1024 .bf16) (w : FVec Ideal S1024x1280 .bf16) (i : S1024x1280.Idx) :
    matmul (F := Ideal) dot_S1024x1024_S1024x1280_S1024x1280_1_0_0_1_n_n none a w (constant (F := Ideal) S1024x1280 .f32 0x00000000#32) i
      = ∑ k : Fin 1024, a (ix2 (i 0) k) * w (ix2 k (i 1)) := by
  simp only [matmul]
  rw [Ideal.matmul_constant_zero_apply, ← Equiv.sum_comp (ValueIdx.contrEquiv1 dot_S1024x1024_S1024x1280_S1024x1280_1_0_0_1_n_n 1024 rfl rfl).symm]
  refine Finset.sum_congr rfl fun k _ => ?_
  have hk := ValueIdx.contrEquiv1_symm_val dot_S1024x1024_S1024x1280_S1024x1280_1_0_0_1_n_n 1024 rfl rfl k
  have el : dot_S1024x1024_S1024x1280_S1024x1280_1_0_0_1_n_n.lhsIdx i ((ValueIdx.contrEquiv1 dot_S1024x1024_S1024x1280_S1024x1280_1_0_0_1_n_n 1024 rfl rfl).symm k) = ix2 (i 0) k := funext fun x => Fin.ext (by
    match x with
    | ⟨0, _⟩ => exact lhs_mmOut_0 _ _
    | ⟨1, _⟩ => exact (lhs_mmOut_1 _ _).trans hk)
  have er : dot_S1024x1024_S1024x1280_S1024x1280_1_0_0_1_n_n.rhsIdx i ((ValueIdx.contrEquiv1 dot_S1024x1024_S1024x1280_S1024x1280_1_0_0_1_n_n 1024 rfl rfl).symm k) = ix2 k (i 1) := funext fun x => Fin.ext (by
    match x with
    | ⟨0, _⟩ => exact (rhs_mmOut_0 _ _).trans hk
    | ⟨1, _⟩ => exact rhs_mmOut_1 _ _)
  rw [el, er]
  rfl

/-! ## The 0/1 matrix of a token column, and its product with a weight tile -/

/-- The word of a natural below 2^32 is that natural's only 32-bit word. -/
theorem eq_ofNat_iff (t : BitVec 32) (n : ℕ) (hn : n < 2 ^ 32) : t = BitVec.ofNat 32 n ↔ t.toNat = n := by
  constructor
  · intro h; rw [h, BitVec.toNat_ofNat, Nat.mod_eq_of_lt hn]
  · intro h; apply BitVec.eq_of_toNat_eq; rw [h, BitVec.toNat_ofNat, Nat.mod_eq_of_lt hn]

/-- The vocabulary ids of tile `i 1` as 32-bit words: entry (r, u) is the word of u + 640 (i 1). -/
theorem ids_apply (i : grid0.Coords) (r : Fin 1024) (u : Fin 640) :
    k0_pay5 i (ix2 r u) = BitVec.ofNat 32 (u.val + 640 * (i 1).val) := by
  unfold k0_pay5
  show IntOp.addi (iota .tc S1024x640 32 [1] Facts₀.iota_S1024x640_d1_w32 (ix2 r u)) (IntOp.muli (BitVec.ofNat 32 (i 1).val) 640#32) = _
  rw [iota_single_apply]
  show BitVec.ofNat 32 u.val + BitVec.ofNat 32 (i 1).val * BitVec.ofNat 32 640 = _
  rw [Nat.mul_comm 640, BitVec.ofNat_add, BitVec.ofNat_mul]

/-- An equality test widened to a word and read as a real is 1 on equal words and 0 otherwise. -/
theorem eqBit_val (x y : BitVec 32) :
    (((BitVec.setWidth 32 (IntOp.cmpi .eq x y)).toInt : ℝ) : EReal) = if x = y then 1 else 0 := by
  by_cases h : x = y
  · subst h
    have hc : IntOp.cmpi .eq x x = 1#1 := by
      show BitVec.ofBool (x == x) = 1#1
      rw [beq_self_eq_true]; rfl
    rw [if_pos rfl, hc]
    have : (BitVec.setWidth 32 1#1).toInt = 1 := by decide
    rw [this, Int.cast_one, EReal.coe_one]
  · have hc : IntOp.cmpi .eq x y = 0#1 := by
      show BitVec.ofBool (x == y) = 0#1
      rw [beq_eq_false_iff_ne.mpr h]; rfl
    rw [if_neg h, hc]
    have : (BitVec.setWidth 32 0#1).toInt = 0 := by decide
    rw [this, Int.cast_zero, EReal.coe_zero]

/-- A token column broadcast along the tile's ids reads the row's token. -/
theorem tokBroadcast_apply (t : IVec S1024x1 32) (r : Fin 1024) (u : Fin 640) :
    broadcastTo S1024x640 t Facts₀.broadcasts_S1024x1_S1024x640 (ix2 r u) = t (ix2 r (0 : Fin 1)) := by
  refine broadcastTo_apply t _ (ix2 r u) (ix2 r (0 : Fin 1)) fun ax => ?_
  match ax with
  | ⟨0, _⟩ =>
    show r.val = if (1024 : ℕ) = 1 then 0 else r.val
    rw [if_neg (by decide)]
  | ⟨1, _⟩ => rfl

/-- The 0/1 matrix of a token column against the ids of vocabulary tile `i 1`. -/
def onehot (i : grid0.Coords) (t : Vec Ideal S1024x1 .i32) : FVec Ideal S1024x640 .bf16 :=
  truncf (F := Ideal) .bf16 (sitofp (F := Ideal) .f32 (extui 32 (cmpi .eq (broadcastTo S1024x640 t Facts₀.broadcasts_S1024x1_S1024x640) (k0_pay5 i)) Facts₀.natLt_1_32)) Facts₀.bitsLt_bf16_f32

/-- Its entry (r, u) is 1 exactly when the row's token is the id 640 (i 1) + u. -/
theorem onehot_apply (i : grid0.Coords) (t : Vec Ideal S1024x1 .i32) (r : Fin 1024) (u : Fin 640) :
    (onehot i t (ix2 r u) : EReal) = if (t (ix2 r (0 : Fin 1))).toNat = u.val + 640 * (i 1).val then 1 else 0 := by
  have hv : (i 1).val < 50 := (i 1).isLt
  have hu := u.isLt
  show (((BitVec.setWidth 32 (IntOp.cmpi .eq (broadcastTo S1024x640 t Facts₀.broadcasts_S1024x1_S1024x640 (ix2 r u)) (k0_pay5 i (ix2 r u)))).toInt : ℝ) : EReal) = _
  rw [eqBit_val, tokBroadcast_apply, ids_apply]
  exact if_congr (eq_ofNat_iff _ _ (by omega)) rfl rfl

/-- ONE PRODUCT: a row of the 0/1 matrix has at most one entry 1, so its product with the weight tile at (r, e) is
    the tile's row `token - 640 (i 1)` at e when the token lies in the tile, and 0 otherwise. -/
theorem onehot_matmul_apply (i : grid0.Coords) (t : Vec Ideal S1024x1 .i32) (w : Vec Ideal S640x1024 .bf16) (r : Fin 1024) (e : Fin 1024) :
    matmul (F := Ideal) (φ₂ := .bf16) dot_S1024x640_S640x1024_S1024x1024_1_0_0_1_n_n none (onehot i t) w (constant (F := Ideal) S1024x1024 .f32 0x00000000#32) (ix2 r e)
      = pick (i 1).val (t (ix2 r (0 : Fin 1))) w e := by
  rw [mmTile_apply]
  show ∑ k : Fin 640, (onehot i t (ix2 r k) : EReal) * (w (ix2 k e) : EReal) = _
  simp only [onehot_apply]
  unfold pick
  split
  · rename_i h
    rw [Finset.sum_eq_single (⟨(t (ix2 r (0 : Fin 1))).toNat - 640 * (i 1).val, by omega⟩ : Fin 640)]
    · rw [if_pos (by show _ = (_ - _) + _; omega), one_mul]
    · intro b _ hb
      rw [if_neg, zero_mul]
      intro hc
      exact hb (Fin.ext (by show b.val = _ - _; omega))
    · intro hx; exact absurd (Finset.mem_univ _) hx
  · rename_i h
    refine Finset.sum_eq_zero fun k _ => ?_
    have hk := k.isLt
    rw [if_neg (by omega), zero_mul]

/-- One accumulation of the body at an index (first token column). -/
theorem pay6_apply (i : grid0.Coords) (t : Vec Ideal S1024x1 .i32) (s : Vec Ideal S1024x1024 .f32) (w : Vec Ideal S640x1024 .bf16)
    (r : Fin 1024) (e : Fin 1024) :
    (k0_pay6 (F := Ideal) i t s w (ix2 r e) : EReal) = (s (ix2 r e) : EReal) + pick (i 1).val (t (ix2 r (0 : Fin 1))) w e := by
  unfold k0_pay6
  simp only [shapeCast_self]
  show (s (ix2 r e) : EReal) + matmul (F := Ideal) (φ₂ := .bf16) dot_S1024x640_S640x1024_S1024x1024_1_0_0_1_n_n none (onehot i t) w
      (constant (F := Ideal) S1024x1024 .f32 0x00000000#32) (ix2 r e) = _
  rw [onehot_matmul_apply]

/-- The same for the second token column. -/
theorem pay7_apply (i : grid0.Coords) (t : Vec Ideal S1024x1 .i32) (s : Vec Ideal S1024x1024 .f32) (w : Vec Ideal S640x1024 .bf16)
    (r : Fin 1024) (e : Fin 1024) :
    (k0_pay7 (F := Ideal) i t s w (ix2 r e) : EReal) = (s (ix2 r e) : EReal) + pick (i 1).val (t (ix2 r (0 : Fin 1))) w e := by
  unfold k0_pay7
  simp only [shapeCast_self]
  show (s (ix2 r e) : EReal) + matmul (F := Ideal) (φ₂ := .bf16) dot_S1024x640_S640x1024_S1024x1024_1_0_0_1_n_n none (onehot i t) w
      (constant (F := Ideal) S1024x1024 .f32 0x00000000#32) (ix2 r e) = _
  rw [onehot_matmul_apply]

/-- The same for the third token column, the tile's ids passed in. -/
theorem pay2_apply (i : grid0.Coords) (t : Vec Ideal S1024x1 .i32) (s : Vec Ideal S1024x1024 .f32) (w : Vec Ideal S640x1024 .bf16)
    (r : Fin 1024) (e : Fin 1024) :
    (k0_pay2 (F := Ideal) (k0_pay5 i) t s w (ix2 r e) : EReal) = (s (ix2 r e) : EReal) + pick (i 1).val (t (ix2 r (0 : Fin 1))) w e := by
  unfold k0_pay2
  simp only [shapeCast_self]
  show (s (ix2 r e) : EReal) + matmul (F := Ideal) (φ₂ := .bf16) dot_S1024x640_S640x1024_S1024x1024_1_0_0_1_n_n none (onehot i t) w
      (constant (F := Ideal) S1024x1024 .f32 0x00000000#32) (ix2 r e) = _
  rw [onehot_matmul_apply]

/-- One run of the body at an index: the three contributions added to the accumulator in turn. -/
theorem accStep_apply (i : grid0.Coords) (t0 t1 t2 : Vec Ideal S1024x1 .i32) (w0 w1 w2 : Vec Ideal S640x1024 .bf16)
    (s : Vec Ideal S1024x1024 .f32) (r : Fin 1024) (e : Fin 1024) :
    (accStep (F := Ideal) i t0 t1 t2 w0 w1 w2 s (ix2 r e) : EReal)
      = (((s (ix2 r e) : EReal) + pick (i 1).val (t0 (ix2 r (0 : Fin 1))) w0 e) + pick (i 1).val (t1 (ix2 r (0 : Fin 1))) w1 e)
          + pick (i 1).val (t2 (ix2 r (0 : Fin 1))) w2 e := by
  unfold accStep
  rw [pay2_apply]
  unfold k0_pay1
  simp only [shapeCast_self]
  rw [pay7_apply, pay6_apply]

/-- The output block at an index: bias added, then x · logistic x. -/
theorem outStep_apply (s : Vec Ideal S1024x1024 .f32) (b : Vec Ideal S1x1024 .f32) (r : Fin 1024) (e : Fin 1024) :
    (outStep (F := Ideal) s b (ix2 r e) : EReal)
      = ((s (ix2 r e) : EReal) + (b (ix2 (0 : Fin 1) e) : EReal)) * Ideal.logistic ((s (ix2 r e) : EReal) + (b (ix2 (0 : Fin 1) e) : EReal)) := by
  unfold outStep k0_pay3
  simp only [shapeCast_self]
  have hb : broadcastTo S1024x1024 b Facts₀.broadcasts_S1x1024_S1024x1024 (ix2 r e) = b (ix2 (0 : Fin 1) e) :=
    broadcastTo_1b_ab_apply b _ r e
  show ((s (ix2 r e) : EReal) + broadcastTo S1024x1024 b Facts₀.broadcasts_S1x1024_S1024x1024 (ix2 r e))
      * Ideal.logistic ((s (ix2 r e) : EReal) + broadcastTo S1024x1024 b Facts₀.broadcasts_S1x1024_S1024x1024 (ix2 r e)) = _
  rw [hb]

/-- The second kernel's block at an index: the row of activations times the column of weights, plus the bias. -/
theorem mmPay_apply (x0 : Vec Ideal S1024x1024 .f32) (x1 : Vec Ideal S1024x1280 .bf16) (x2 : Vec Ideal S1x1280 .f32)
    (r : Fin 1024) (n : Fin 1280) :
    (k1_pay1 (F := Ideal) x0 x1 x2 (ix2 r n) : EReal)
      = (∑ e : Fin 1024, (x0 (ix2 r e) : EReal) * (x1 (ix2 e n) : EReal)) + (x2 (ix2 (0 : Fin 1) n) : EReal) := by
  unfold k1_pay1
  simp only [shapeCast_self]
  have hb : broadcastTo S1024x1280 x2 Facts₀.broadcasts_S1x1280_S1024x1280 (ix2 r n) = x2 (ix2 (0 : Fin 1) n) :=
    broadcastTo_1b_ab_apply x2 _ r n
  have hm := mmOut_apply (truncf (F := Ideal) .bf16 x0 Facts₀.bitsLt_bf16_f32) x1 (ix2 r n)
  show (matmul (F := Ideal) dot_S1024x1024_S1024x1280_S1024x1280_1_0_0_1_n_n none (truncf (F := Ideal) .bf16 x0 Facts₀.bitsLt_bf16_f32) x1
        (constant (F := Ideal) S1024x1280 .f32 0x00000000#32) (ix2 r n) : EReal)
      + broadcastTo S1024x1280 x2 Facts₀.broadcasts_S1x1280_S1024x1280 (ix2 r n) = _
  rw [hb, hm]
  rfl

end Cert.KernelIdeal.Hand

end
-- ==== Proof.EmbedValue.lean ====
/-
  What the embedding region leaves in its output array, on the extended reals, at a PARAMETER `V` (the buffer
  contents when the region is entered). Row block i of the output is written back once, after tile 49 of that block;
  by then the accumulator has gone through the 50 tiles of the vocabulary from the zero fill, and for a token below
  32000 exactly one tile holds it: the accumulated value at (r, e) is the sum over the three slots of the slab's row
  at the slot's token (an induction over the tiles: after tile v the accumulator holds, per slot, that row if the token
  is below 640 (v + 1) and nothing otherwise; sums of extended reals commute and associate). The output block is the
  bias added and x · logistic x applied; the blocks of the four row blocks cover the array.
-/
import proofs.«422180_j71305047048767_1_alg».proof.Proof.EmbedDat
import proofs.«422180_j71305047048767_1_alg».proof.Proof.EmbedStep
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's arrays as the region finds them, at their literal types: the three token columns (one per window
    slot), the three weight slabs, the bias row. -/
abbrev tokA0 (c : Dev nD) : Vec Ideal S4096x1 .i32 := V c main_v10
abbrev tokA1 (c : Dev nD) : Vec Ideal S4096x1 .i32 := V c main_v11
abbrev tokA2 (c : Dev nD) : Vec Ideal S4096x1 .i32 := V c main_v12
abbrev slabA0 (c : Dev nD) : Vec Ideal S32000x1024 .bf16 := V c main_v14
abbrev slabA1 (c : Dev nD) : Vec Ideal S32000x1024 .bf16 := V c main_v16
abbrev slabA2 (c : Dev nD) : Vec Ideal S32000x1024 .bf16 := V c main_v18
abbrev biasA (c : Dev nD) : Vec Ideal S1x1024 .f32 := V c main_v19
/-- What the region leaves in its output array. -/
abbrev actA (c : Dev nD) : Vec Ideal S4096x1024 .f32 := (dat0 V c).arrAt 7 cfg0.N

/-- The slab's row a token word selects (total: read modulo the slab's 32000 rows). -/
def slabRow (t : BitVec 32) : Fin 32000 := ⟨t.toNat % 32000, Nat.mod_lt _ (by norm_num)⟩

/-- The pre-activation at (r, e): the three selected slab rows summed, plus the bias. -/
def preAct (c : Dev nD) (r : Fin 4096) (e : Fin 1024) : EReal :=
  (((slabA0 V c (ix2 (slabRow (tokA0 V c (ix2 r (0 : Fin 1)))) e) : EReal) + (slabA1 V c (ix2 (slabRow (tokA1 V c (ix2 r (0 : Fin 1)))) e) : EReal))
      + (slabA2 V c (ix2 (slabRow (tokA2 V c (ix2 r (0 : Fin 1)))) e) : EReal)) + (biasA V c (ix2 (0 : Fin 1) e) : EReal)

/-! ## The blocks, read off the arrays -/

/-- The printed index maps over the grid, at position `t` = 50 · (row block) + (vocabulary tile): the token columns
    and the output move with the row block, the weight tiles with the vocabulary tile, the bias row stays. -/
private theorem idx_facts0 : ∀ t : Fin cfg0.N,
    ((grid0.coords t) 1).val = t.val % 50
    ∧ win0_0.index t (0 : Fin 2) = t.val / 50 ∧ win0_0.index t (1 : Fin 2) = 0
    ∧ win0_1.index t (0 : Fin 2) = t.val / 50 ∧ win0_1.index t (1 : Fin 2) = 0
    ∧ win0_2.index t (0 : Fin 2) = t.val / 50 ∧ win0_2.index t (1 : Fin 2) = 0
    ∧ win0_3.index t (0 : Fin 2) = t.val % 50 ∧ win0_3.index t (1 : Fin 2) = 0
    ∧ win0_4.index t (0 : Fin 2) = t.val % 50 ∧ win0_4.index t (1 : Fin 2) = 0
    ∧ win0_5.index t (0 : Fin 2) = t.val % 50 ∧ win0_5.index t (1 : Fin 2) = 0
    ∧ win0_6.index t (0 : Fin 2) = 0 ∧ win0_6.index t (1 : Fin 2) = 0
    ∧ win0_7.index t (0 : Fin 2) = t.val / 50 ∧ win0_7.index t (1 : Fin 2) = 0 :=
  (by decide +kernel : ∀ t : Fin grid0.N, _)

/-- Token column 0's block at position `t` is rows 1024 (t / 50), … of the column. -/
private theorem tok0_apply (c : Dev nD) (t : Fin cfg0.N) (p : Fin 1024) (k : Fin 4096) (hk : k.val = 1024 * (t.val / 50) + p.val) :
    (iblk0 V c 0 t : Vec Ideal S1024x1 .i32) (ix2 p (0 : Fin 1)) = tokA0 V c (ix2 k (0 : Fin 1)) := by
  obtain ⟨hc, h00, h01, h10, h11, h20, h21, h30, h31, h40, h41, h50, h51, h60, h61, h70, h71⟩ := idx_facts0 t
  unfold iblk0
  rw [View.read_apply]
  show V c main_v10 _ = V c main_v10 _
  congr 1
  funext a
  apply Fin.ext
  match a with
  | ⟨0, _⟩ => show win0_0.index t (0 : Fin 2) * 1024 + 1 * p.val = k.val; rw [h00, hk]; omega
  | ⟨1, _⟩ => show win0_0.index t (1 : Fin 2) * 1 + 1 * 0 = 0; rw [h01]

/-- Token column 1's block at position `t` is rows 1024 (t / 50), … of the column. -/
private theorem tok1_apply (c : Dev nD) (t : Fin cfg0.N) (p : Fin 1024) (k : Fin 4096) (hk : k.val = 1024 * (t.val / 50) + p.val) :
    (iblk0 V c 1 t : Vec Ideal S1024x1 .i32) (ix2 p (0 : Fin 1)) = tokA1 V c (ix2 k (0 : Fin 1)) := by
  obtain ⟨hc, h00, h01, h10, h11, h20, h21, h30, h31, h40, h41, h50, h51, h60, h61, h70, h71⟩ := idx_facts0 t
  unfold iblk0
  rw [View.read_apply]
  show V c main_v11 _ = V c main_v11 _
  congr 1
  funext a
  apply Fin.ext
  match a with
  | ⟨0, _⟩ => show win0_1.index t (0 : Fin 2) * 1024 + 1 * p.val = k.val; rw [h10, hk]; omega
  | ⟨1, _⟩ => show win0_1.index t (1 : Fin 2) * 1 + 1 * 0 = 0; rw [h11]

/-- Token column 2's block at position `t` is rows 1024 (t / 50), … of the column. -/
private theorem tok2_apply (c : Dev nD) (t : Fin cfg0.N) (p : Fin 1024) (k : Fin 4096) (hk : k.val = 1024 * (t.val / 50) + p.val) :
    (iblk0 V c 2 t : Vec Ideal S1024x1 .i32) (ix2 p (0 : Fin 1)) = tokA2 V c (ix2 k (0 : Fin 1)) := by
  obtain ⟨hc, h00, h01, h10, h11, h20, h21, h30, h31, h40, h41, h50, h51, h60, h61, h70, h71⟩ := idx_facts0 t
  unfold iblk0
  rw [View.read_apply]
  show V c main_v12 _ = V c main_v12 _
  congr 1
  funext a
  apply Fin.ext
  match a with
  | ⟨0, _⟩ => show win0_2.index t (0 : Fin 2) * 1024 + 1 * p.val = k.val; rw [h20, hk]; omega
  | ⟨1, _⟩ => show win0_2.index t (1 : Fin 2) * 1 + 1 * 0 = 0; rw [h21]

/-- What a slab contributes on vocabulary tile `v` at a token, in closed form: the slab's row at the token when the
    token lies in the tile, else nothing. -/
private def pickA (v : ℕ) (tk : BitVec 32) (S : Vec Ideal S32000x1024 .bf16) (e : Fin 1024) : EReal :=
  if 640 * v ≤ tk.toNat ∧ tk.toNat < 640 * v + 640 then (S (ix2 (slabRow tk) e) : EReal) else 0

/-- Weight slab 0's block at position `t` is rows 640 (t % 50), … of the slab. -/
private theorem slab0_apply (c : Dev nD) (t : Fin cfg0.N) (u : Fin 640) (e : Fin 1024) (k : Fin 32000) (hk : k.val = 640 * (t.val % 50) + u.val) :
    (iblk0 V c 3 t : Vec Ideal S640x1024 .bf16) (ix2 u e) = slabA0 V c (ix2 k e) := by
  obtain ⟨hc, h00, h01, h10, h11, h20, h21, h30, h31, h40, h41, h50, h51, h60, h61, h70, h71⟩ := idx_facts0 t
  unfold iblk0
  rw [View.read_apply]
  show V c main_v14 _ = V c main_v14 _
  congr 1
  funext a
  apply Fin.ext
  match a with
  | ⟨0, _⟩ => show win0_3.index t (0 : Fin 2) * 640 + 1 * u.val = k.val; rw [h30, hk]; omega
  | ⟨1, _⟩ => show win0_3.index t (1 : Fin 2) * 1024 + 1 * e.val = e.val; rw [h31]; omega

/-- So the contribution of slab 0's tile at position `t` is the slab's own row at the token, when the token lies in the tile. -/
private theorem pick_slab0 (c : Dev nD) (t : Fin cfg0.N) (tk : BitVec 32) (e : Fin 1024) :
    pick (t.val % 50) tk (iblk0 V c 3 t) e = pickA (t.val % 50) tk (slabA0 V c) e := by
  have hv : t.val % 50 < 50 := Nat.mod_lt _ (by norm_num)
  unfold pick pickA
  by_cases h : 640 * (t.val % 50) ≤ tk.toNat ∧ tk.toNat < 640 * (t.val % 50) + 640
  · rw [dif_pos h, if_pos h]
    exact slab0_apply V c t _ e (slabRow tk) (by
      show tk.toNat % 32000 = 640 * (t.val % 50) + (tk.toNat - 640 * (t.val % 50))
      rw [Nat.mod_eq_of_lt (by omega)]; omega)
  · rw [dif_neg h, if_neg h]

/-- Weight slab 1's block at position `t` is rows 640 (t % 50), … of the slab. -/
private theorem slab1_apply (c : Dev nD) (t : Fin cfg0.N) (u : Fin 640) (e : Fin 1024) (k : Fin 32000) (hk : k.val = 640 * (t.val % 50) + u.val) :
    (iblk0 V c 4 t : Vec Ideal S640x1024 .bf16) (ix2 u e) = slabA1 V c (ix2 k e) := by
  obtain ⟨hc, h00, h01, h10, h11, h20, h21, h30, h31, h40, h41, h50, h51, h60, h61, h70, h71⟩ := idx_facts0 t
  unfold iblk0
  rw [View.read_apply]
  show V c main_v16 _ = V c main_v16 _
  congr 1
  funext a
  apply Fin.ext
  match a with
  | ⟨0, _⟩ => show win0_4.index t (0 : Fin 2) * 640 + 1 * u.val = k.val; rw [h40, hk]; omega
  | ⟨1, _⟩ => show win0_4.index t (1 : Fin 2) * 1024 + 1 * e.val = e.val; rw [h41]; omega

/-- So the contribution of slab 1's tile at position `t` is the slab's own row at the token, when the token lies in the tile. -/
private theorem pick_slab1 (c : Dev nD) (t : Fin cfg0.N) (tk : BitVec 32) (e : Fin 1024) :
    pick (t.val % 50) tk (iblk0 V c 4 t) e = pickA (t.val % 50) tk (slabA1 V c) e := by
  have hv : t.val % 50 < 50 := Nat.mod_lt _ (by norm_num)
  unfold pick pickA
  by_cases h : 640 * (t.val % 50) ≤ tk.toNat ∧ tk.toNat < 640 * (t.val % 50) + 640
  · rw [dif_pos h, if_pos h]
    exact slab1_apply V c t _ e (slabRow tk) (by
      show tk.toNat % 32000 = 640 * (t.val % 50) + (tk.toNat - 640 * (t.val % 50))
      rw [Nat.mod_eq_of_lt (by omega)]; omega)
  · rw [dif_neg h, if_neg h]

/-- Weight slab 2's block at position `t` is rows 640 (t % 50), … of the slab. -/
private theorem slab2_apply (c : Dev nD) (t : Fin cfg0.N) (u : Fin 640) (e : Fin 1024) (k : Fin 32000) (hk : k.val = 640 * (t.val % 50) + u.val) :
    (iblk0 V c 5 t : Vec Ideal S640x1024 .bf16) (ix2 u e) = slabA2 V c (ix2 k e) := by
  obtain ⟨hc, h00, h01, h10, h11, h20, h21, h30, h31, h40, h41, h50, h51, h60, h61, h70, h71⟩ := idx_facts0 t
  unfold iblk0
  rw [View.read_apply]
  show V c main_v18 _ = V c main_v18 _
  congr 1
  funext a
  apply Fin.ext
  match a with
  | ⟨0, _⟩ => show win0_5.index t (0 : Fin 2) * 640 + 1 * u.val = k.val; rw [h50, hk]; omega
  | ⟨1, _⟩ => show win0_5.index t (1 : Fin 2) * 1024 + 1 * e.val = e.val; rw [h51]; omega

/-- So the contribution of slab 2's tile at position `t` is the slab's own row at the token, when the token lies in the tile. -/
private theorem pick_slab2 (c : Dev nD) (t : Fin cfg0.N) (tk : BitVec 32) (e : Fin 1024) :
    pick (t.val % 50) tk (iblk0 V c 5 t) e = pickA (t.val % 50) tk (slabA2 V c) e := by
  have hv : t.val % 50 < 50 := Nat.mod_lt _ (by norm_num)
  unfold pick pickA
  by_cases h : 640 * (t.val % 50) ≤ tk.toNat ∧ tk.toNat < 640 * (t.val % 50) + 640
  · rw [dif_pos h, if_pos h]
    exact slab2_apply V c t _ e (slabRow tk) (by
      show tk.toNat % 32000 = 640 * (t.val % 50) + (tk.toNat - 640 * (t.val % 50))
      rw [Nat.mod_eq_of_lt (by omega)]; omega)
  · rw [dif_neg h, if_neg h]

/-- The bias window's block is the bias row, at every position. -/
private theorem bias_apply (c : Dev nD) (t : Fin cfg0.N) (e : Fin 1024) :
    (iblk0 V c 6 t : Vec Ideal S1x1024 .f32) (ix2 (0 : Fin 1) e) = biasA V c (ix2 (0 : Fin 1) e) := by
  obtain ⟨hc, h00, h01, h10, h11, h20, h21, h30, h31, h40, h41, h50, h51, h60, h61, h70, h71⟩ := idx_facts0 t
  unfold iblk0
  rw [View.read_apply]
  show V c main_v19 _ = V c main_v19 _
  congr 1
  funext a
  apply Fin.ext
  match a with
  | ⟨0, _⟩ => show win0_6.index t (0 : Fin 2) * 1 + 1 * 0 = 0; rw [h60]
  | ⟨1, _⟩ => show win0_6.index t (1 : Fin 2) * 1024 + 1 * e.val = e.val; rw [h61]; omega

/-! ## The accumulation over the vocabulary tiles -/

/-- What a slab has contributed after the tiles below `n`: its row at the token if the token is below 640 n, else nothing. -/
private def cumA (n : ℕ) (tk : BitVec 32) (S : Vec Ideal S32000x1024 .bf16) (e : Fin 1024) : EReal :=
  if tk.toNat < 640 * n then (S (ix2 (slabRow tk) e) : EReal) else 0

private theorem cumA_zero (tk : BitVec 32) (S : Vec Ideal S32000x1024 .bf16) (e : Fin 1024) : cumA 0 tk S e = 0 := by
  unfold cumA; rw [if_neg (by omega)]

/-- One more tile: the token is below the tile (already counted), in it (counted now), or above it (not yet). -/
private theorem cumA_succ (n : ℕ) (tk : BitVec 32) (S : Vec Ideal S32000x1024 .bf16) (e : Fin 1024) :
    cumA n tk S e + pickA n tk S e = cumA (n + 1) tk S e := by
  unfold cumA pickA
  by_cases h1 : tk.toNat < 640 * n
  · rw [if_pos h1, if_neg (by omega), if_pos (by omega), add_zero]
  · by_cases h2 : tk.toNat < 640 * n + 640
    · rw [if_neg h1, if_pos ⟨by omega, h2⟩, if_pos (by omega), zero_add]
    · rw [if_neg h1, if_neg (by omega), if_neg (by omega), add_zero]

/-- After all 50 tiles a token below 32000 = 640 · 50 has been counted. -/
private theorem cumA_full (tk : BitVec 32) (h : tk.toNat < 32000) (S : Vec Ideal S32000x1024 .bf16) (e : Fin 1024) :
    cumA (49 + 1) tk S e = (S (ix2 (slabRow tk) e) : EReal) := by
  unfold cumA; rw [if_pos (by omega)]

/-- The three slots' contributions after the tiles below `n`, for array row `k`. -/
private def cumS (c : Dev nD) (n : ℕ) (k : Fin 4096) (e : Fin 1024) : EReal :=
  (cumA n (tokA0 V c (ix2 k (0 : Fin 1))) (slabA0 V c) e + cumA n (tokA1 V c (ix2 k (0 : Fin 1))) (slabA1 V c) e) + cumA n (tokA2 V c (ix2 k (0 : Fin 1))) (slabA2 V c) e

private theorem cumS_zero (c : Dev nD) (k : Fin 4096) (e : Fin 1024) : cumS V c 0 k e = 0 := by
  unfold cumS; rw [cumA_zero, cumA_zero, cumA_zero, add_zero, add_zero]

/-- One tile's three contributions added in turn: sums of extended reals commute and associate. -/
private theorem cumS_step (c : Dev nD) (v : ℕ) (k : Fin 4096) (e : Fin 1024) :
    ((cumS V c v k e + pickA v (tokA0 V c (ix2 k (0 : Fin 1))) (slabA0 V c) e) + pickA v (tokA1 V c (ix2 k (0 : Fin 1))) (slabA1 V c) e) + pickA v (tokA2 V c (ix2 k (0 : Fin 1))) (slabA2 V c) e
      = cumS V c (v + 1) k e := by
  unfold cumS
  rw [← cumA_succ v (tokA0 V c (ix2 k (0 : Fin 1))), ← cumA_succ v (tokA1 V c (ix2 k (0 : Fin 1))), ← cumA_succ v (tokA2 V c (ix2 k (0 : Fin 1)))]
  abel

private theorem cumS_full (c : Dev nD) (k : Fin 4096) (e : Fin 1024)
    (h0 : (tokA0 V c (ix2 k (0 : Fin 1))).toNat < 32000) (h1 : (tokA1 V c (ix2 k (0 : Fin 1))).toNat < 32000) (h2 : (tokA2 V c (ix2 k (0 : Fin 1))).toNat < 32000) :
    cumS V c (49 + 1) k e = ((slabA0 V c (ix2 (slabRow (tokA0 V c (ix2 k (0 : Fin 1)))) e) : EReal) + (slabA1 V c (ix2 (slabRow (tokA1 V c (ix2 k (0 : Fin 1)))) e) : EReal))
      + (slabA2 V c (ix2 (slabRow (tokA2 V c (ix2 k (0 : Fin 1)))) e) : EReal) := by
  unfold cumS; rw [cumA_full _ h0, cumA_full _ h1, cumA_full _ h2]

/-- One run of the body at position `t`, at row `p` of the block (row `k` of the array) and column `e`. -/
private theorem stepAt0_apply (c : Dev nD) (t : Fin cfg0.N) (s : Vec Ideal S1024x1024 .f32) (p : Fin 1024) (e : Fin 1024) (k : Fin 4096)
    (hk : k.val = 1024 * (t.val / 50) + p.val) :
    (stepAt0 V c t s (ix2 p e) : EReal)
      = (((s (ix2 p e) : EReal) + pickA (t.val % 50) (tokA0 V c (ix2 k (0 : Fin 1))) (slabA0 V c) e) + pickA (t.val % 50) (tokA1 V c (ix2 k (0 : Fin 1))) (slabA1 V c) e)
          + pickA (t.val % 50) (tokA2 V c (ix2 k (0 : Fin 1))) (slabA2 V c) e := by
  unfold stepAt0
  rw [accStep_apply, (idx_facts0 t).1, tok0_apply V c t p k hk, tok1_apply V c t p k hk, tok2_apply V c t p k hk,
    pick_slab0, pick_slab1, pick_slab2]

/-- THE INVARIANT: after position `n` (tile n % 50 of row block n / 50) the accumulator holds the three slots'
    contributions of the tiles up to that one. By induction along the row block's run of tiles. -/
private theorem scrAt0_apply (c : Dev nD) (p : Fin 1024) (e : Fin 1024) :
    ∀ (n : ℕ) (hn : n < cfg0.N) (k : Fin 4096), k.val = 1024 * (n / 50) + p.val →
      (scrAt0 V c n hn (ix2 p e) : EReal) = cumS V c (n % 50 + 1) k e := by
  intro n
  induction n using Nat.strong_induction_on with
  | _ n ih =>
    intro hn k hk
    have hstep : ∀ s : Vec Ideal S1024x1024 .f32, (stepAt0 V c ⟨n, hn⟩ s (ix2 p e) : EReal)
        = (((s (ix2 p e) : EReal) + pickA (n % 50) (tokA0 V c (ix2 k (0 : Fin 1))) (slabA0 V c) e) + pickA (n % 50) (tokA1 V c (ix2 k (0 : Fin 1))) (slabA1 V c) e)
            + pickA (n % 50) (tokA2 V c (ix2 k (0 : Fin 1))) (slabA2 V c) e := fun s => stepAt0_apply V c ⟨n, hn⟩ s p e k hk
    by_cases h0 : n % 50 = 0
    · have h1 : scrAt0 V c n hn = stepAt0 V c ⟨n, hn⟩ (k0_pay4 (F := Ideal)) := scrAt0_first V c ⟨n, hn⟩ h0
      rw [h1, hstep, zeroFill_apply, h0]
      have h := cumS_step V c 0 k e
      rw [cumS_zero] at h
      exact h
    · have h1 : scrAt0 V c n hn = stepAt0 V c ⟨n, hn⟩ (scrAt0 V c (n - 1) (Nat.lt_of_le_of_lt (Nat.sub_le _ _) hn)) :=
        scrAt0_next V c ⟨n, hn⟩ h0
      have e1 : (n - 1) % 50 + 1 = n % 50 := by omega
      have e2 : (n - 1) / 50 = n / 50 := by omega
      have ih' := ih (n - 1) (by omega) (Nat.lt_of_le_of_lt (Nat.sub_le _ _) hn) k (by rw [e2]; exact hk)
      rw [e1] at ih'
      rw [h1, hstep, ih']
      exact cumS_step V c (n % 50) k e

/-! ## From the blocks to the array -/

/-- What the output array ends holding: x · logistic x of the pre-activation, index by index. -/
private abbrev G0 (c : Dev nD) : Vec Ideal S4096x1024 .f32 :=
  fun j => (preAct V c (j 0) (j 1) * Ideal.logistic (preAct V c (j 0) (j 1)) : EReal)

/-- What a last tile writes back is its row block of `G0`. -/
private theorem flushed7_eq (c : Dev nD)
    (hr : ∀ r : Fin 4096, (tokA0 V c (ix2 r (0 : Fin 1))).toNat < 32000 ∧ (tokA1 V c (ix2 r (0 : Fin 1))).toNat < 32000
      ∧ (tokA2 V c (ix2 r (0 : Fin 1))).toNat < 32000)
    (t : Fin cfg0.N) (hf : (cfg0.win 7).flush t = true) :
    (dat0 V c).flushed 7 t = ((cfg0.win 7).blk t).view.read (Elt Ideal) (G0 V c) := by
  have h49 : t.val % 50 = 49 := (flush0_7 t).mp hf
  have hN : t.val < 200 := lt_of_lt_of_eq t.isLt (show cfg0.N = 200 from N_0)
  obtain ⟨hc, h00, h01, h10, h11, h20, h21, h30, h31, h40, h41, h50, h51, h60, h61, h70, h71⟩ := idx_facts0 t
  show (cfg0.win 7).cut (grid0.coords t) ((dat0 V c).after 7 t) = _
  rw [after0_7]
  funext j
  obtain ⟨p, e, rfl⟩ : ∃ (p : Fin 1024) (e : Fin 1024), j = ix2 p e := ⟨j 0, j 1, eq_ix2 (n0 := 1024) (n1 := 1024) j⟩
  -- row p of the block is row k = 1024 (t / 50) + p of the array
  obtain ⟨k, hk⟩ : ∃ k : Fin 4096, k.val = 1024 * (t.val / 50) + p.val := ⟨⟨1024 * (t.val / 50) + p.val, by omega⟩, rfl⟩
  have hemb : ((cfg0.win 7).blk t).view.emb (ix2 p e) = (ix2 k e : S4096x1024.Idx) := by
    funext a
    apply Fin.ext
    match a with
    | ⟨0, _⟩ => show win0_7.index t (0 : Fin 2) * 1024 + 1 * p.val = k.val; rw [h70, hk]; omega
    | ⟨1, _⟩ => show win0_7.index t (1 : Fin 2) * 1024 + 1 * e.val = e.val; rw [h71]; omega
  show (outAt0 V c t (ix2 p e) : EReal) = G0 V c (((cfg0.win 7).blk t).view.emb (ix2 p e))
  rw [hemb]
  show (outAt0 V c t (ix2 p e) : EReal) = preAct V c k e * Ideal.logistic (preAct V c k e)
  unfold outAt0
  rw [outStep_apply, bias_apply, scrAt0_apply V c p e t.val t.isLt k hk, h49,
    cumS_full V c k e (hr k).1 (hr k).2.1 (hr k).2.2]
  rfl

/-- An index of the array is in position `t`'s block iff each coordinate is in the block's range on its axis. -/
private theorem mem_blk7 (t : Fin cfg0.N) (i : S4096x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v20).slice (win0_7.rect t)).set ↔ _
  rw [View.set_slice_whole, Rect.mem_set_unit]
  exact Iff.rfl

/-- The array after the run: row r lies in the block written back after the last tile of row block r / 1024. -/
private theorem final7 (c : Dev nD)
    (hr : ∀ r : Fin 4096, (tokA0 V c (ix2 r (0 : Fin 1))).toNat < 32000 ∧ (tokA1 V c (ix2 r (0 : Fin 1))).toNat < 32000
      ∧ (tokA2 V c (ix2 r (0 : Fin 1))).toNat < 32000) :
    (dat0 V c).arrAt 7 cfg0.N = G0 V c :=
  (dat0 V c).arrAt_eq_of_cover 7 (G0 V c) (flushed7_eq V c hr) fun i => by
    have hi0 : (i 0).val < 4096 := (i 0).isLt
    have hi1 : (i 1).val < 1024 := (i 1).isLt
    have hN : cfg0.N = 200 := N_0
    have hlt : 50 * ((i 0).val / 1024) + 49 < cfg0.N := by rw [hN]; omega
    refine ⟨⟨50 * ((i 0).val / 1024) + 49, hlt⟩, (flush0_7 _).mpr (by show (50 * ((i 0).val / 1024) + 49) % 50 = 49; omega), ?_⟩
    rw [mem_blk7]
    obtain ⟨hc, h00, h01, h10, h11, h20, h21, h30, h31, h40, h41, h50, h51, h60, h61, h70, h71⟩ := idx_facts0 ⟨50 * ((i 0).val / 1024) + 49, hlt⟩
    dsimp only at h70 h71
    intro a
    match a with
    | ⟨0, _⟩ =>
      show win0_7.index ⟨50 * ((i 0).val / 1024) + 49, hlt⟩ (0 : Fin 2) * 1024 ≤ (i 0).val ∧ (i 0).val < win0_7.index ⟨50 * ((i 0).val / 1024) + 49, hlt⟩ (0 : Fin 2) * 1024 + 1024
      rw [h70]; omega
    | ⟨1, _⟩ =>
      show win0_7.index ⟨50 * ((i 0).val / 1024) + 49, hlt⟩ (1 : Fin 2) * 1024 ≤ (i 1).val ∧ (i 1).val < win0_7.index ⟨50 * ((i 0).val / 1024) + 49, hlt⟩ (1 : Fin 2) * 1024 + 1024
      rw [h71]; omega

/-- THE EMBEDDING REGION'S VALUE: for tokens below 32000 the output array at (r, e) is x · logistic x of the
    pre-activation there. -/
theorem embed_value (c : Dev nD)
    (hr : ∀ r : Fin 4096, (tokA0 V c (ix2 r (0 : Fin 1))).toNat < 32000 ∧ (tokA1 V c (ix2 r (0 : Fin 1))).toNat < 32000
      ∧ (tokA2 V c (ix2 r (0 : Fin 1))).toNat < 32000)
    (r : Fin 4096) (e : Fin 1024) :
    (actA V c (ix2 r e) : EReal) = preAct V c r e * Ideal.logistic (preAct V c r e) := by
  have h := congrFun (final7 V c hr) (ix2 r e)
  exact h

end Cert.KernelIdeal.Hand

end
-- ==== Proof.MmValue.lean ====
/-
  What the matmul region leaves in its output array, on the extended reals, at a PARAMETER `V`. Every grid point
  (i, k) writes back the block of rows 1024 i … and columns 1280 k … once; the block is the body's payload of the
  point's three input blocks, and the payload at an index is the row of activations times the column of weights
  plus the bias. The 4 x 25 blocks cover the array.
-/
import proofs.«422180_j71305047048767_1_alg».proof.Proof.MmRegion
import proofs.«422180_j71305047048767_1_alg».proof.Proof.EmbedStep
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The region's arrays as the region finds them, at their literal types. -/
abbrev actB (c : Dev nD) : Vec Ideal S4096x1024 .f32 := V c main_v20
abbrev w2B (c : Dev nD) : Vec Ideal S1024x32000 .bf16 := V c main_v21
abbrev biasB (c : Dev nD) : Vec Ideal S1x32000 .f32 := V c main_v22
/-- What the region leaves in its output array. -/
abbrev outB (c : Dev nD) : Vec Ideal S4096x32000 .f32 := (dat1 V c).arrAt 3 cfg1.N

/-! ## The printed index maps, decided over the grid -/

/-- At point `t = 25 i + k` of the 4 x 25 grid (second axis fastest) the activations' block is `(i, 0)`, the weights' and
    the bias row's `(0, k)`, the output's `(i, k)`. -/
private theorem idx_facts1 : ∀ t : Fin cfg1.N,
    win1_0.index t (0 : Fin 2) = t.val / 25 ∧ win1_0.index t (1 : Fin 2) = 0
    ∧ win1_1.index t (0 : Fin 2) = 0 ∧ win1_1.index t (1 : Fin 2) = t.val % 25
    ∧ win1_2.index t (0 : Fin 2) = 0 ∧ win1_2.index t (1 : Fin 2) = t.val % 25
    ∧ win1_3.index t (0 : Fin 2) = t.val / 25 ∧ win1_3.index t (1 : Fin 2) = t.val % 25 :=
  (by decide +kernel : ∀ t : Fin grid1.N, _)

/-! ## Each input block as a part of its array

A block's element sits in the array, on each axis, at the block index times the block's size plus its own coordinate. -/

/-- The activations' block at point `t` is rows `1024 (t / 25) …` of the activations. -/
private theorem act_blk (c : Dev nD) (t : Fin cfg1.N) (y : S1024x1024.Idx) (k : S4096x1024.Idx)
    (hk0 : (k 0).val = 1024 * (t.val / 25) + (y 0).val) (hk1 : (k 1).val = (y 1).val) :
    (iblk1 V c 0 t : Vec Ideal S1024x1024 .f32) y = actB V c k := by
  obtain ⟨e0, e1, -⟩ := idx_facts1 t
  show V c main_v20 (((cfg1.win 0).blk t).view.emb y) = V c main_v20 k
  refine congrArg (V c main_v20) ?_
  funext a
  apply Fin.ext
  match a with
  | ⟨0, _⟩ => show win1_0.index t (0 : Fin 2) * 1024 + 1 * (y 0).val = (k 0).val; rw [e0, hk0]; omega
  | ⟨1, _⟩ => show win1_0.index t (1 : Fin 2) * 1024 + 1 * (y 1).val = (k 1).val; rw [e1, hk1]; omega

/-- The weights' block at point `t` is columns `1280 (t % 25) …` of the weights. -/
private theorem w2_blk (c : Dev nD) (t : Fin cfg1.N) (y : S1024x1280.Idx) (k : S1024x32000.Idx)
    (hk0 : (k 0).val = (y 0).val) (hk1 : (k 1).val = 1280 * (t.val % 25) + (y 1).val) :
    (iblk1 V c 1 t : Vec Ideal S1024x1280 .bf16) y = w2B V c k := by
  obtain ⟨-, -, e0, e1, -⟩ := idx_facts1 t
  show V c main_v21 (((cfg1.win 1).blk t).view.emb y) = V c main_v21 k
  refine congrArg (V c main_v21) ?_
  funext a
  apply Fin.ext
  match a with
  | ⟨0, _⟩ => show win1_1.index t (0 : Fin 2) * 1024 + 1 * (y 0).val = (k 0).val; rw [e0, hk0]; omega
  | ⟨1, _⟩ => show win1_1.index t (1 : Fin 2) * 1280 + 1 * (y 1).val = (k 1).val; rw [e1, hk1]; omega

/-- The bias row's block at point `t` is columns `1280 (t % 25) …` of the bias row. -/
private theorem bias_blk (c : Dev nD) (t : Fin cfg1.N) (y : S1x1280.Idx) (k : S1x32000.Idx)
    (hk0 : (k 0).val = (y 0).val) (hk1 : (k 1).val = 1280 * (t.val % 25) + (y 1).val) :
    (iblk1 V c 2 t : Vec Ideal S1x1280 .f32) y = biasB V c k := by
  obtain ⟨-, -, -, -, e0, e1, -⟩ := idx_facts1 t
  show V c main_v22 (((cfg1.win 2).blk t).view.emb y) = V c main_v22 k
  refine congrArg (V c main_v22) ?_
  funext a
  apply Fin.ext
  match a with
  | ⟨0, _⟩ => show win1_2.index t (0 : Fin 2) * 1 + 1 * (y 0).val = (k 0).val; rw [e0, hk0]; omega
  | ⟨1, _⟩ => show win1_2.index t (1 : Fin 2) * 1280 + 1 * (y 1).val = (k 1).val; rw [e1, hk1]; omega

/-! ## The output array -/

/-- An index of the output array is in point `t`'s block iff each coordinate is in the block's range on its axis. -/
private theorem mem_blk1 (t : Fin cfg1.N) (i : S4096x32000.Idx) :
    i ∈ ((cfg1.win 3).blk t).view.set ↔ ∀ a : Fin 2, win1_3.index t a * S1024x1280.size a ≤ (i a).val ∧ (i a).val < win1_3.index t a * S1024x1280.size a + S1024x1280.size a := by
  show i ∈ ((View.whole main_v23).slice (win1_3.rect t)).set ↔ _
  rw [View.set_slice_whole, Rect.mem_set_unit]
  exact Iff.rfl

/-- What the output array ends holding: at `(r, n)`, row `r` of the activations times column `n` of the weights, plus the
    bias at `n`. -/
private abbrev G1 (c : Dev nD) : Vec Ideal S4096x32000 .f32 := fun j =>
  (∑ e : Fin 1024, (actB V c (ix2 (j 0) e) : EReal) * (w2B V c (ix2 e (j 1)) : EReal)) + (biasB V c (ix2 (0 : Fin 1) (j 1)) : EReal)

/-- The body's payload of point `t`'s three input blocks, at `(p, q)` of the block, is the closed form at the array
    index `k` the block's `(p, q)` sits at: the payload is a row of the activations' block times a column of the weights'
    block plus the bias block's entry, and each block's entry is its array's at the shifted index. -/
private theorem pay_at (c : Dev nD) (t : Fin cfg1.N) (p : Fin 1024) (q : Fin 1280) (k : S4096x32000.Idx)
    (hk0 : (k 0).val = 1024 * (t.val / 25) + p.val) (hk1 : (k 1).val = 1280 * (t.val % 25) + q.val) :
    k1_pay1 (F := Ideal) (iblk1 V c 0 t) (iblk1 V c 1 t) (iblk1 V c 2 t) (ix2 p q) = G1 V c k := by
  refine (mmPay_apply (iblk1 V c 0 t) (iblk1 V c 1 t) (iblk1 V c 2 t) p q).trans ?_
  show _ = (∑ e : Fin 1024, (actB V c (ix2 (k 0) e) : EReal) * (w2B V c (ix2 e (k 1)) : EReal)) + (biasB V c (ix2 (0 : Fin 1) (k 1)) : EReal)
  refine congrArg₂ (· + ·) (Finset.sum_congr rfl fun e _ => congrArg₂ (· * ·) ?_ ?_) ?_
  · exact act_blk V c t (ix2 p e) (ix2 (k 0) e) hk0 rfl
  · exact w2_blk V c t (ix2 e q) (ix2 e (k 1)) rfl hk1
  · exact bias_blk V c t (ix2 (0 : Fin 1) q) (ix2 (0 : Fin 1) (k 1)) rfl hk1

/-- The same at any index `j` of the block. -/
private theorem pay_at_idx (c : Dev nD) (t : Fin cfg1.N) (j : S1024x1280.Idx) (k : S4096x32000.Idx)
    (hk0 : (k 0).val = 1024 * (t.val / 25) + (j 0).val) (hk1 : (k 1).val = 1280 * (t.val % 25) + (j 1).val) :
    k1_pay1 (F := Ideal) (iblk1 V c 0 t) (iblk1 V c 1 t) (iblk1 V c 2 t) j = G1 V c k :=
  (congrArg (k1_pay1 (F := Ideal) (iblk1 V c 0 t) (iblk1 V c 1 t) (iblk1 V c 2 t)) (eq_ix2 j)).trans
    (pay_at V c t (j 0) (j 1) k hk0 hk1)

/-- WHAT POINT `t` WRITES BACK is block `t` of the closed form: the output window is uncut, what the body leaves is the
    payload of the point's input blocks, and the block's index `j` sits in the array at block index times size plus `j`. -/
private theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  obtain ⟨-, -, -, -, -, -, e0, e1⟩ := idx_facts1 t
  funext j
  show k1_pay1 (F := Ideal) (iblk1 V c 0 t) (iblk1 V c 1 t) (iblk1 V c 2 t) j = G1 V c (((cfg1.win 3).blk t).view.emb j)
  refine pay_at_idx V c t j (((cfg1.win 3).blk t).view.emb j) ?_ ?_
  · show win1_3.index t (0 : Fin 2) * 1024 + 1 * (j 0).val = 1024 * (t.val / 25) + (j 0).val
    rw [e0]; omega
  · show win1_3.index t (1 : Fin 2) * 1280 + 1 * (j 1).val = 1280 * (t.val % 25) + (j 1).val
    rw [e1]; omega

/-- THE 4 x 25 BLOCKS COVER THE ARRAY: index `(r, n)` is in the block of the point `25 (r / 1024) + n / 1280`. -/
private theorem cover1 (i : S4096x32000.Idx) :
    ∃ t : Fin cfg1.N, (cfg1.win 3).flush t = true ∧ i ∈ ((cfg1.win 3).blk t).view.set := by
  have h0 : (i 0).val < 4096 := (i 0).isLt
  have h1 : (i 1).val < 32000 := (i 1).isLt
  have hN : cfg1.N = 100 := N_1
  obtain ⟨t, ht⟩ : ∃ t : Fin cfg1.N, t.val = 25 * ((i 0).val / 1024) + (i 1).val / 1280 :=
    ⟨⟨25 * ((i 0).val / 1024) + (i 1).val / 1280, by omega⟩, rfl⟩
  obtain ⟨-, -, -, -, -, -, e0, e1⟩ := idx_facts1 t
  refine ⟨t, flush1_3 t, ?_⟩
  rw [mem_blk1]
  intro a
  match a with
  | ⟨0, _⟩ =>
    show win1_3.index t (0 : Fin 2) * 1024 ≤ (i 0).val ∧ (i 0).val < win1_3.index t (0 : Fin 2) * 1024 + 1024
    rw [e0]; omega
  | ⟨1, _⟩ =>
    show win1_3.index t (1 : Fin 2) * 1280 ≤ (i 1).val ∧ (i 1).val < win1_3.index t (1 : Fin 2) * 1280 + 1280
    rw [e1]; omega

/-- THE OUTPUT ARRAY after the region is the closed form: every point writes its block back, each block is the closed
    form's, and the blocks cover the array. -/
private theorem final1 (c : Dev nD) : (dat1 V c).arrAt 3 cfg1.N = G1 V c :=
  (dat1 V c).arrAt_eq_of_cover 3 (G1 V c) (fun t _ => flushed1_eq V c t) cover1

/-- THE MATMUL REGION'S VALUE. -/
theorem mm_value (c : Dev nD) (r : Fin 4096) (n : Fin 32000) :
    (outB V c (ix2 r n) : EReal)
      = (∑ e : Fin 1024, (actB V c (ix2 r e) : EReal) * (w2B V c (ix2 e n) : EReal)) + (biasB V c (ix2 (0 : Fin 1) n) : EReal) :=
  congrFun (final1 V c) (ix2 r n)

end Cert.KernelIdeal.Hand

end
-- ==== Proof.KernelValue.lean ====
/-
  The kernel program's result is the specification's logits, index by index, for tokens below 32000: the result is
  the matmul region's output at the flattened row; that is the row of activations the embedding region left times the
  column of the second weight matrix plus the second bias; the activation is x · logistic x of the three slab rows the
  window's tokens select plus the first bias; and slab j's row u is row 32000 j + u of the weight table.
-/
import proofs.«422180_j71305047048767_1_alg».proof.Proof.HostValue
import proofs.«422180_j71305047048767_1_alg».proof.Proof.EmbedValue
import proofs.«422180_j71305047048767_1_alg».proof.Proof.MmValue

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- A window's token is below 32000 when every token is: it is a token or the padding's zero. -/
theorem tokWin_lt (tok : Cert.Spec.S2048x2.Idx → BitVec 32) (hr : ∀ i, (tok i).toNat < 32000) (s : Fin 2048) (b : Fin 2) (j : Fin 3) :
    (Cert.Spec.tokWin tok s b j).toNat < 32000 := by
  unfold Cert.Spec.tokWin
  split
  · simp
  · exact hr _

/-- Every flattened row is the row of a position and a batch entry. -/
theorem flatRow_surj (r : Fin 4096) : ∃ (s : Fin 2048) (b : Fin 2), r = flatRow s b :=
  ⟨⟨r.val / 2, by omega⟩, ⟨r.val % 2, by omega⟩, Fin.ext (by simp only [flatRow]; omega)⟩

/-- The pre-activation the embedding region computes at the flattened row is the specification's embedding. -/
theorem preAct_eq (c : Dev nD) (s : Fin 2048) (b : Fin 2) (e : Fin 1024) :
    preAct (VE0 m) c (flatRow s b) e
      = Cert.Spec.emb (m ((c.tc : Thread nD τ).loc main_arg0)) (m ((c.tc : Thread nD τ).loc main_arg1)) (m ((c.tc : Thread nD τ).loc main_arg2)) s b e := by
  unfold preAct Cert.Spec.emb
  rw [show tokA0 (VE0 m) c (ix2 (flatRow s b) (0 : Fin 1)) = Cert.Spec.tokWin (m ((c.tc : Thread nD τ).loc main_arg0)) s b 0 from tok0_apply m c s b,
    show tokA1 (VE0 m) c (ix2 (flatRow s b) (0 : Fin 1)) = Cert.Spec.tokWin (m ((c.tc : Thread nD τ).loc main_arg0)) s b 1 from tok1_apply m c s b,
    show tokA2 (VE0 m) c (ix2 (flatRow s b) (0 : Fin 1)) = Cert.Spec.tokWin (m ((c.tc : Thread nD τ).loc main_arg0)) s b 2 from tok2_apply m c s b]
  rw [show (slabA0 (VE0 m) c (ix2 (slabRow (Cert.Spec.tokWin (m ((c.tc : Thread nD τ).loc main_arg0)) s b 0)) e) : EReal) = _ from slab0_apply m c _ e,
    show (slabA1 (VE0 m) c (ix2 (slabRow (Cert.Spec.tokWin (m ((c.tc : Thread nD τ).loc main_arg0)) s b 1)) e) : EReal) = _ from slab1_apply m c _ e,
    show (slabA2 (VE0 m) c (ix2 (slabRow (Cert.Spec.tokWin (m ((c.tc : Thread nD τ).loc main_arg0)) s b 2)) e) : EReal) = _ from slab2_apply m c _ e,
    show (biasA (VE0 m) c (ix2 (0 : Fin 1) e) : EReal) = _ from bias1_apply m c e]
  have h0 : (⟨(slabRow (Cert.Spec.tokWin (m ((c.tc : Thread nD τ).loc main_arg0)) s b 0)).val, by have := (slabRow (Cert.Spec.tokWin (m ((c.tc : Thread nD τ).loc main_arg0)) s b 0)).isLt; omega⟩ : Fin 96000)
      = Cert.Spec.row (m ((c.tc : Thread nD τ).loc main_arg0)) s b 0 := Fin.ext (by simp [slabRow, Cert.Spec.row])
  have h1 : (⟨32000 + (slabRow (Cert.Spec.tokWin (m ((c.tc : Thread nD τ).loc main_arg0)) s b 1)).val, by have := (slabRow (Cert.Spec.tokWin (m ((c.tc : Thread nD τ).loc main_arg0)) s b 1)).isLt; omega⟩ : Fin 96000)
      = Cert.Spec.row (m ((c.tc : Thread nD τ).loc main_arg0)) s b 1 := Fin.ext (by simp [slabRow, Cert.Spec.row])
  have h2 : (⟨64000 + (slabRow (Cert.Spec.tokWin (m ((c.tc : Thread nD τ).loc main_arg0)) s b 2)).val, by have := (slabRow (Cert.Spec.tokWin (m ((c.tc : Thread nD τ).loc main_arg0)) s b 2)).isLt; omega⟩ : Fin 96000)
      = Cert.Spec.row (m ((c.tc : Thread nD τ).loc main_arg0)) s b 2 := Fin.ext (by simp [slabRow, Cert.Spec.row])
  rw [h0, h1, h2]

theorem kernel_logits (c : Dev nD) (hr : ∀ i, ((m ((c.tc : Thread nD τ).loc main_arg0)) i : BitVec 32).toNat < 32000) (s : Fin 2048) (b : Fin 2) (n : Fin 32000) :
    ((Gen.V5 m (outs m) c main_v24 : Vec Ideal S2048x2x32000 .f32) (ix3 s b n) : EReal)
      = Cert.Spec.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s b n := by
  have hrows : ∀ r : Fin 4096, (tokA0 (VE0 m) c (ix2 r (0 : Fin 1))).toNat < 32000 ∧ (tokA1 (VE0 m) c (ix2 r (0 : Fin 1))).toNat < 32000
      ∧ (tokA2 (VE0 m) c (ix2 r (0 : Fin 1))).toNat < 32000 := by
    intro r
    obtain ⟨s', b', rfl⟩ := flatRow_surj r
    rw [show tokA0 (VE0 m) c (ix2 (flatRow s' b') (0 : Fin 1)) = _ from tok0_apply m c s' b',
      show tokA1 (VE0 m) c (ix2 (flatRow s' b') (0 : Fin 1)) = _ from tok1_apply m c s' b',
      show tokA2 (VE0 m) c (ix2 (flatRow s' b') (0 : Fin 1)) = _ from tok2_apply m c s' b']
    exact ⟨tokWin_lt _ hr s' b' 0, tokWin_lt _ hr s' b' 1, tokWin_lt _ hr s' b' 2⟩
  have hact : actB (VE1 m) c = actA (VE0 m) c := act_eq m c
  rw [result_apply m c s b n]
  rw [show ((o4 m c : Vec Ideal S4096x32000 .f32) (ix2 (flatRow s b) n) : EReal) = (outB (VE1 m) c (ix2 (flatRow s b) n) : EReal) from rfl]
  rw [mm_value (VE1 m) c (flatRow s b) n, hact]
  unfold Cert.Spec.logits Cert.Spec.act
  congr 1
  · refine Finset.sum_congr rfl fun e _ => ?_
    rw [embed_value (VE0 m) c hrows (flatRow s b) e, preAct_eq m c s b e,
      show (w2B (VE1 m) c (ix2 e n) : EReal) = _ from w2_apply m c e n]
  · exact bias2_apply m c n

end Cert.KernelIdeal.Hand

end
-- ==== Proof.RefValue.lean ====
/-
  The reference read at an index. Its index into the weight table for slot j of a position's window is the window's
  token plus j * 32000, as a 32-bit word; a word that reads negative would be moved up by 96000 and the gather clamps
  its row into the table. For a token below 32000 none of this happens: the word is the natural number
  j * 32000 + token, it is not negative, and it is a row of the table. So the gathered rows are the specification's,
  the three rows are summed from zero, the bias is added, x * (1 / (1 + exp (-x))) is x * logistic x, and the
  dot product with the second weight matrix plus its bias is the specification's logits.
-/
import proofs.«422180_j71305047048767_1_alg».proof.Proof.Gen.ReferenceIdeal.Run
import proofs.«422180_j71305047048767_1_alg».proof.Proof.Gen.ReferenceIdeal.Read
import proofs.«422180_j71305047048767_1_alg».proof.Proof.Spec
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-- The padded token array below the padding's end is zero. -/
theorem pad_lo (tok : (⟨S2048x2, .i32⟩ : BufTy).Contents (Elt Ideal)) (p : Fin 2050) (b : Fin 2) (hp : p.val < 2) :
    val_main_v1 (F := Ideal) tok (ix2 p b) = 0#32 := by
  unfold val_main_v1
  rw [concatenate_pair_apply_left (t := S2050x2) (s₁ := S2x2) (s₂ := S2048x2) (0 : Fin 2) _ _
    concatenates_S2x2_S2048x2_S2050x2_d0 (ix2 p b) rfl
    (ix2 (n0 := 2) (n1 := 2) (⟨p.val, hp⟩ : Fin 2) b) (fun a => by match a with | ⟨0, _⟩ => rfl | ⟨1, _⟩ => rfl)]
  rw [val_main_v0_apply, val_main_c_apply]

/-- The padded token array from the padding's end on is the token array, two positions earlier. -/
theorem pad_hi (tok : (⟨S2048x2, .i32⟩ : BufTy).Contents (Elt Ideal)) (p : Fin 2050) (b : Fin 2) (q : Fin 2048)
    (hq : q.val + 2 = p.val) :
    val_main_v1 (F := Ideal) tok (ix2 p b) = tok (ix2 q b) := by
  unfold val_main_v1
  exact concatenate_pair_apply_right (t := S2050x2) (s₁ := S2x2) (s₂ := S2048x2) (0 : Fin 2) _ _
    concatenates_S2x2_S2048x2_S2050x2_d0 (ix2 p b) rfl rfl
    (ix2 (n0 := 2048) (n1 := 2) q b) (fun a ha => by match a with | ⟨0, _⟩ => exact absurd rfl ha | ⟨1, _⟩ => rfl) hq

/-- Slot `j` of the window of position `s`, as the reference assembles it from three shifted slices, is the padded
    array at position `s + j`. -/
theorem win_pad (tok : (⟨S2048x2, .i32⟩ : BufTy).Contents (Elt Ideal)) (s : Fin 2048) (b : Fin 2) (j : Fin 3) :
    val_main_v8 (F := Ideal) tok (ix3 s b j)
      = val_main_v1 (F := Ideal) tok (ix2 (⟨s.val + j.val, by omega⟩ : Fin 2050) b) := by
  unfold val_main_v8
  match j with
  | ⟨0, _⟩ =>
    refine Eq.trans (concatenate_apply_piece (α := BitVec 32) (t := S2048x2x3) (2 : Fin 3)
      [⟨S2048x2x1, val_main_v5 (F := Ideal) tok⟩, ⟨S2048x2x1, val_main_v6 (F := Ideal) tok⟩, ⟨S2048x2x1, val_main_v7 (F := Ideal) tok⟩]
      concatenates_S2048x2x1_S2048x2x1_S2048x2x1_S2048x2x3_d2 _ 0 (by simp) S2048x2x1 (val_main_v5 (F := Ideal) tok) rfl rfl 0 rfl
      (ix3 (n0 := 2048) (n1 := 2) (n2 := 1) s b 0)
      (fun a ha => by match a with | ⟨0, _⟩ => rfl | ⟨1, _⟩ => rfl | ⟨2, _⟩ => exact absurd rfl ha) rfl) ?_
    rw [val_main_v5_apply, val_main_v2_apply]
    exact congrArg _ (funext fun a => Fin.ext (by match a with | ⟨0, _⟩ => rfl | ⟨1, _⟩ => rfl))
  | ⟨1, _⟩ =>
    refine Eq.trans (concatenate_apply_piece (α := BitVec 32) (t := S2048x2x3) (2 : Fin 3)
      [⟨S2048x2x1, val_main_v5 (F := Ideal) tok⟩, ⟨S2048x2x1, val_main_v6 (F := Ideal) tok⟩, ⟨S2048x2x1, val_main_v7 (F := Ideal) tok⟩]
      concatenates_S2048x2x1_S2048x2x1_S2048x2x1_S2048x2x3_d2 _ 1 (by simp) S2048x2x1 (val_main_v6 (F := Ideal) tok) rfl rfl 1 rfl
      (ix3 (n0 := 2048) (n1 := 2) (n2 := 1) s b 0)
      (fun a ha => by match a with | ⟨0, _⟩ => rfl | ⟨1, _⟩ => rfl | ⟨2, _⟩ => exact absurd rfl ha) rfl) ?_
    rw [val_main_v6_apply, val_main_v3_apply]
    exact congrArg _ (funext fun a => Fin.ext (by
      match a with
      | ⟨0, _⟩ => show 1 + s.val = s.val + 1; omega
      | ⟨1, _⟩ => rfl))
  | ⟨2, _⟩ =>
    refine Eq.trans (concatenate_apply_piece (α := BitVec 32) (t := S2048x2x3) (2 : Fin 3)
      [⟨S2048x2x1, val_main_v5 (F := Ideal) tok⟩, ⟨S2048x2x1, val_main_v6 (F := Ideal) tok⟩, ⟨S2048x2x1, val_main_v7 (F := Ideal) tok⟩]
      concatenates_S2048x2x1_S2048x2x1_S2048x2x1_S2048x2x3_d2 _ 2 (by simp) S2048x2x1 (val_main_v7 (F := Ideal) tok) rfl rfl 2 rfl
      (ix3 (n0 := 2048) (n1 := 2) (n2 := 1) s b 0)
      (fun a ha => by match a with | ⟨0, _⟩ => rfl | ⟨1, _⟩ => rfl | ⟨2, _⟩ => exact absurd rfl ha) rfl) ?_
    rw [val_main_v7_apply, val_main_v4_apply]
    exact congrArg _ (funext fun a => Fin.ext (by
      match a with
      | ⟨0, _⟩ => show 2 + s.val = s.val + 2; omega
      | ⟨1, _⟩ => rfl))

/-- The reference's window is the specification's. -/
theorem win_apply (tok : (⟨S2048x2, .i32⟩ : BufTy).Contents (Elt Ideal)) (s : Fin 2048) (b : Fin 2) (j : Fin 3) :
    val_main_v8 (F := Ideal) tok (ix3 s b j) = Cert.Spec.tokWin tok s b j := by
  rw [win_pad]
  unfold Cert.Spec.tokWin
  split
  · next h => exact pad_lo tok _ b h
  · next h => exact pad_hi tok _ b _ (by show s.val + j.val - 2 + 2 = s.val + j.val; omega)

/-- A window token is below 32000 when every token is: the padding is zero. -/
theorem tokWin_lt (tok : (⟨S2048x2, .i32⟩ : BufTy).Contents (Elt Ideal)) (hr : ∀ i, (tok i : BitVec 32).toNat < 32000)
    (s : Fin 2048) (b : Fin 2) (j : Fin 3) : (Cert.Spec.tokWin tok s b j).toNat < 32000 := by
  unfold Cert.Spec.tokWin
  split
  · decide
  · exact hr _

/-- The slab offset the reference adds in slot `j`: the word `j * 32000`. -/
theorem slab_apply (s : Fin 2048) (b : Fin 2) (j : Fin 3) :
    val_main_v13 (F := Ideal) (ix3 s b j) = BitVec.ofNat 32 j.val * 32000#32 := by
  rw [val_main_v13_apply, val_main_v12_apply, val_main_v11_apply, val_main_v9_apply, val_main_v10_apply,
    val_main_c_0_apply]
  rfl

/-- The reference's index word for slot `j`, before its sign test: the window token plus the slab offset. -/
theorem word_apply (tok : (⟨S2048x2, .i32⟩ : BufTy).Contents (Elt Ideal)) (s : Fin 2048) (b : Fin 2) (j : Fin 3) :
    val_main_v14 (F := Ideal) tok (ix3 s b j) = Cert.Spec.tokWin tok s b j + BitVec.ofNat 32 j.val * 32000#32 := by
  rw [val_main_v14_apply, win_apply, slab_apply]
  rfl

/-- For tokens below 32000 the word arithmetic does not wrap: the index word is the number `j * 32000 + token`. -/
theorem word_toNat (tok : (⟨S2048x2, .i32⟩ : BufTy).Contents (Elt Ideal)) (hr : ∀ i, (tok i : BitVec 32).toNat < 32000)
    (s : Fin 2048) (b : Fin 2) (j : Fin 3) :
    (val_main_v14 (F := Ideal) tok (ix3 s b j)).toNat = j.val * 32000 + (Cert.Spec.tokWin tok s b j).toNat := by
  rw [word_apply]
  have h1 := tokWin_lt tok hr s b j
  have h2 := j.isLt
  simp only [BitVec.toNat_add, BitVec.toNat_mul, BitVec.toNat_ofNat]
  omega

/-- The index word is below 96000 < 2^31, so it does not read negative and the reference's wrap-around of negative
    indices leaves it alone. -/
theorem idx_word (tok : (⟨S2048x2, .i32⟩ : BufTy).Contents (Elt Ideal)) (hr : ∀ i, (tok i : BitVec 32).toNat < 32000)
    (s : Fin 2048) (b : Fin 2) (j : Fin 3) :
    val_main_v19 (F := Ideal) tok (ix3 s b j) = val_main_v14 (F := Ideal) tok (ix3 s b j) := by
  rw [val_main_v19_apply, val_main_v16_apply, val_main_v15_apply, val_main_c_1_apply]
  have hw := word_toNat tok hr s b j
  have h1 := tokWin_lt tok hr s b j
  have h2 := j.isLt
  have hz : IntOp.cmpi .slt (val_main_v14 (F := Ideal) tok (ix3 s b j)) 0#32 = 0#1 := by
    apply eq_zero_of_ne_one
    rw [StableHlo.Predicate.slt_iff_toNat (by omega) (by decide)]
    simp
  rw [hz, select_zero]

/-- The gather of table rows read at an index: the table at the row the index word names, read signed and clamped
    into the table, and at the same column. -/
theorem gather_rows {α : Type} (x : S96000x1024.Idx → α) (idx : IVec S2048x2x3x1 32)
    (s : Fin 2048) (b : Fin 2) (j : Fin 3) (e : Fin 1024) :
    Host.gather gather_S96000x1024_S2048x2x3x1_S2048x2x3x1024_3_0_n_n_0_3_11024 x idx (ix4 s b j e)
      = x (ix2 (⟨min (idx (ix4 s b j (0 : Fin 1))).toInt.toNat (96000 - 1), by omega⟩ : Fin 96000) e) := by
  unfold Host.gather
  congr 1
  funext a
  refine Fin.ext ?_
  match a with
  | ⟨0, _⟩ =>
    -- the row axis: collapsed, named by the start index map, not a batching axis
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S96000x1024_S2048x2x3x1_S2048x2x3x1024_3_0_n_n_0_3_11024.startIndexMap
      from List.mem_singleton.mpr rfl)]
    have hsi : gather_S96000x1024_S2048x2x3x1_S2048x2x3x1024_3_0_n_n_0_3_11024.siIdx (ix4 s b j e)
        ⟨List.idxOf (0 : Fin 2) gather_S96000x1024_S2048x2x3x1_S2048x2x3x1024_3_0_n_n_0_3_11024.startIndexMap,
          List.idxOf_lt_length_iff.2 (List.mem_singleton.mpr rfl)⟩ = ix4 s b j (0 : Fin 1) := by
      funext c
      refine Fin.ext ?_
      match c with
      | ⟨0, _⟩ => rfl
      | ⟨1, _⟩ => rfl
      | ⟨2, _⟩ => rfl
      | ⟨3, _⟩ => rfl
    rw [hsi]
    rfl
  | ⟨1, _⟩ =>
    -- the column axis: kept, read at the result's offset coordinate
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ gather_S96000x1024_S2048x2x3x1_S2048x2x3x1024_3_0_n_n_0_3_11024.startIndexMap
      from by decide)]
    unfold GatherDims.offCoord
    rw [dif_pos (show (1 : Fin 2) ∈ gather_S96000x1024_S2048x2x3x1_S2048x2x3x1024_3_0_n_n_0_3_11024.sKept
      from by decide)]
    have hk : List.idxOf (1 : Fin 2) gather_S96000x1024_S2048x2x3x1_S2048x2x3x1024_3_0_n_n_0_3_11024.sKept = 0 := by decide
    simp only [hk, Nat.zero_add]
    rfl

/-- The row the reference gathers in slot `j` is the specification's: the index word is a number below 96000, so it
    reads the same signed, the clamp into the table is the identity, and the token is its own remainder modulo 32000. -/
theorem gather_apply (tok : (⟨S2048x2, .i32⟩ : BufTy).Contents (Elt Ideal)) (W1 : (⟨S96000x1024, .f32⟩ : BufTy).Contents (Elt Ideal))
    (hr : ∀ i, (tok i : BitVec 32).toNat < 32000) (s : Fin 2048) (b : Fin 2) (j : Fin 3) (e : Fin 1024) :
    val_main_v21 (F := Ideal) tok W1 (ix4 s b j e) = W1 (ix2 (Cert.Spec.row tok s b j) e) := by
  unfold val_main_v21
  rw [gather_rows]
  have hi : val_main_v20 (F := Ideal) tok (ix4 s b j (0 : Fin 1)) = val_main_v14 (F := Ideal) tok (ix3 s b j) := by
    rw [val_main_v20_apply]
    have hx : idx_main_v20 (ix4 s b j (0 : Fin 1)) = ix3 s b j :=
      funext fun a => Fin.ext (by match a with | ⟨0, _⟩ => rfl | ⟨1, _⟩ => rfl | ⟨2, _⟩ => rfl)
    rw [hx, idx_word tok hr]
  have hw := word_toNat tok hr s b j
  have h1 := tokWin_lt tok hr s b j
  have h2 := j.isLt
  refine congrArg (fun r => W1 (ix2 r e)) (Fin.ext ?_)
  show min (val_main_v20 (F := Ideal) tok (ix4 s b j (0 : Fin 1))).toInt.toNat (96000 - 1)
    = j.val * 32000 + (Cert.Spec.tokWin tok s b j).toNat % 32000
  rw [hi, StableHlo.Predicate.toInt_eq_toNat_of_lt (by omega), Int.toNat_natCast, hw, Nat.mod_eq_of_lt h1]
  omega

/-- The reference's embedding is the specification's: the three gathered rows summed from zero, plus the bias. -/
theorem emb_apply (tok : (⟨S2048x2, .i32⟩ : BufTy).Contents (Elt Ideal)) (W1 : (⟨S96000x1024, .f32⟩ : BufTy).Contents (Elt Ideal))
    (b1 : (⟨S1024, .f32⟩ : BufTy).Contents (Elt Ideal)) (hr : ∀ i, (tok i : BitVec 32).toNat < 32000)
    (s : Fin 2048) (b : Fin 2) (e : Fin 1024) :
    (val_main_v25 (F := Ideal) tok W1 b1 (ix3 s b e) : EReal) = Cert.Spec.emb tok W1 b1 s b e := by
  rw [val_main_v25_apply, val_main_v22_apply, val_main_v24_apply, val_main_v23_apply, val_main_cst_apply]
  have hx : ∀ k : Fin 3, idx_main_v22 (ix3 s b e) k = ix4 s b k e := fun k =>
    funext fun a => Fin.ext (by match a with | ⟨0, _⟩ => rfl | ⟨1, _⟩ => rfl | ⟨2, _⟩ => rfl | ⟨3, _⟩ => rfl)
  have hb : idx_main_v23 (idx_main_v24 (ix3 s b e)) = ix1 e :=
    funext fun a => Fin.ext (by match a with | ⟨0, _⟩ => rfl)
  simp only [hx, hb, gather_apply tok W1 hr, Fin.sum_univ_three, Ideal.addf_def, Ideal.ofBits_def, Ideal.ofBits_zero_f32,
    zero_add]
  rfl

/-- The bit pattern of the f32 one is the extended real 1. -/
theorem one_f32 : Ideal.ofBits .f32 0x3F800000#32 = 1 := IdealRules.sign_bit.ideal_onePat .f32

/-- The reference's activation is the specification's: x * (1 / (1 + exp (-x))) is x * logistic x by definition. -/
theorem act_apply (tok : (⟨S2048x2, .i32⟩ : BufTy).Contents (Elt Ideal)) (W1 : (⟨S96000x1024, .f32⟩ : BufTy).Contents (Elt Ideal))
    (b1 : (⟨S1024, .f32⟩ : BufTy).Contents (Elt Ideal)) (hr : ∀ i, (tok i : BitVec 32).toNat < 32000)
    (s : Fin 2048) (b : Fin 2) (e : Fin 1024) :
    (val_main_v32 (F := Ideal) tok W1 b1 (ix3 s b e) : EReal) = Cert.Spec.act tok W1 b1 s b e := by
  rw [val_main_v32_apply, val_main_v31_apply, val_main_v30_apply, val_main_v29_apply, val_main_v28_apply,
    val_main_v27_apply, val_main_v26_apply, val_main_cst_3_apply, val_main_cst_4_apply, emb_apply tok W1 b1 hr]
  simp only [Ideal.mulf_def, Ideal.hostDivf_def, Ideal.addf_def, Ideal.hostUnary_exp_def, Ideal.hostNegf_def,
    Ideal.negf_def, Ideal.ofBits_def, one_f32]
  rfl

/-- The reference's result at an index is the specification's logits there, for tokens below 32000. -/
theorem ref_logits (tok : (⟨S2048x2, .i32⟩ : BufTy).Contents (Elt Ideal)) (W1 : (⟨S96000x1024, .f32⟩ : BufTy).Contents (Elt Ideal))
    (b1 : (⟨S1024, .f32⟩ : BufTy).Contents (Elt Ideal)) (W2 : (⟨S1024x32000, .f32⟩ : BufTy).Contents (Elt Ideal))
    (b2 : (⟨S32000, .f32⟩ : BufTy).Contents (Elt Ideal))
    (hr : ∀ i, (tok i : BitVec 32).toNat < 32000) (s : Fin 2048) (b : Fin 2) (n : Fin 32000) :
    (val_main_v36 (F := Ideal) tok W1 b1 W2 b2 (ix3 s b n) : EReal) = Cert.Spec.logits tok W1 b1 W2 b2 s b n := by
  rw [val_main_v36_apply, val_main_v33_apply, val_main_v35_apply, val_main_v34_apply]
  have hl : ∀ k : Fin 1024, lidx_main_v33 (ix3 s b n) k = ix3 s b k := fun k =>
    funext fun a => Fin.ext (by match a with | ⟨0, _⟩ => rfl | ⟨1, _⟩ => rfl | ⟨2, _⟩ => rfl)
  have hrr : ∀ k : Fin 1024, ridx_main_v33 (ix3 s b n) k = ix2 k n := fun k =>
    funext fun a => Fin.ext (by match a with | ⟨0, _⟩ => rfl | ⟨1, _⟩ => rfl)
  have hb : idx_main_v34 (idx_main_v35 (ix3 s b n)) = ix1 n :=
    funext fun a => Fin.ext (by match a with | ⟨0, _⟩ => rfl)
  simp only [hl, hrr, hb, act_apply tok W1 b1 hr, Ideal.addf_def]
  rfl

end Cert.ReferenceIdeal.RefValue

end
-- ==== Proof.PreRange.lean ====
/-
  The token range out of the precondition. The precondition is a conjunction (a chain of 1-bit `and`s) whose last
  conjunct is the `and`-reduction, over every entry of the token array, of  (token ≥ 0, signed) ∧ (token < 32000,
  signed). If the whole is 1 that conjunct is 1, so every entry's two compares are 1, and a 32-bit word that is
  non-negative and below 32000 as a signed number is below 32000 as a natural number.
-/
import proofs.«422180_j71305047048767_1_alg».proof.Pre_finite_inputs
import proofs.«422180_j71305047048767_1_alg».proof.Proof.Gen.Pre_finite_inputs
import Idealize.ShloMosaic.Lib.ReduceAll
import Idealize.ShloMosaic.Lib.StableHlo.Predicate

noncomputable section

namespace Cert.PreRange

open Idealize.ShloMosaic
open Cert.Pre_finite_inputs

/-- Under the precondition every token word is below 32000 as a natural number. -/
theorem tok_lt {F : FTy → Type} [FloatOps F] (tok : IVec S2048x2 32) (W1 : FVec F S96000x1024 .f32) (b1 : FVec F S1024 .f32)
    (W2 : FVec F S1024x32000 .f32) (b2 : FVec F S32000 .f32)
    (h : Cert.Pre_finite_inputs.fn (F := F) tok W1 b1 W2 b2 = (fun _ => 1#1)) :
    ∀ i, (tok i).toNat < 32000 := by
  intro i
  -- the precondition at the scalar shape's one index
  have h0 := congrFun h (fun a => a.elim0)
  dsimp only [fn, fn_part1] at h0
  -- a 1-bit `and` is 1 iff both sides are: keep the last conjunct, the reduction over the token array
  have h24 := (IntOp.andi_eq_one.1 h0).2
  -- the reduction runs over both axes into a result of one index, so every entry of its operand is 1
  haveI : Subsingleton S_.Idx := ⟨fun a b => funext fun d => d.elim0⟩
  have hi := Host.reduce_andi_all _ _ _ _ _ h24 i
  -- that entry is the `and` of the two compares at i; the broadcast constants read 0 and 32000 there
  obtain ⟨hge, hlt⟩ := IntOp.andi_eq_one.1 hi
  have hge' : (0#32 : BitVec 32).toInt ≤ (tok i).toInt := IntOp.cmpi_sge.1 hge
  have hlt' : (tok i).toInt < (32000#32 : BitVec 32).toInt := IntOp.cmpi_slt.1 hlt
  -- signed 0 ≤ t < 32000 on a 32-bit word: the top bit is clear, so the signed and the natural reading agree
  have e0 : (0#32 : BitVec 32).toInt = 0 := by decide
  have e1 : (32000#32 : BitVec 32).toInt = 32000 := by decide
  rw [e0] at hge'
  rw [e1] at hlt'
  have ht := (tok i).isLt
  rw [BitVec.toInt_eq_toNat_cond] at hge' hlt'
  split at hge' <;> omega

end Cert.PreRange

end
-- ==== Proof.lean ====
/-
  The certificate of a two-stage language-model head. Stage one: every position of a token sequence (left-padded with
  two zeros) looks up, for each of the three tokens ending at it, one row of a weight table of three slabs (one slab of
  32000 rows per slot), sums the three rows and a bias, and applies x * logistic x. Stage two multiplies the
  activations with a second weight matrix and adds its bias. The kernel does the lookup as one-hot matrix products
  accumulated over 50 tiles of the vocabulary in a scratch buffer, and the second stage block by block; the reference
  gathers the rows and calls one matrix product.
  The two agree on the extended reals for token ids inside the vocabulary (0 <= token < 32000, the precondition's
  integer conjunct): there each one-hot row has exactly one 1, at the token's place, so its product with a slab is the
  slab's row (0 * x = 0 and 1 * x = x for every extended real, and sums of extended reals commute and associate: no
  finiteness is used), and the reference's row index is the same row (no wrap of a negative index, no clamp).
  The frames: the program's host operations and its two pipeline regions run to the end, nothing faulting, and no
  argument array is written; the reference is a host program and its frame is its run with the result dropped.
-/
import proofs.«422180_j71305047048767_1_alg».proof.Defs
import proofs.«422180_j71305047048767_1_alg».proof.Proof.Gen.Kernel
import proofs.«422180_j71305047048767_1_alg».proof.Proof.Gen.KernelIdeal
import proofs.«422180_j71305047048767_1_alg».proof.Proof.Gen.ReferenceIdeal
import proofs.«422180_j71305047048767_1_alg».proof.Proof.Gen.Pre_finite_inputs
import proofs.«422180_j71305047048767_1_alg».proof.Proof.Gen.ReferenceIdeal.Run
import proofs.«422180_j71305047048767_1_alg».proof.Proof.Gen.ReferenceIdeal.Read
import proofs.«422180_j71305047048767_1_alg».proof.Proof.Run
import proofs.«422180_j71305047048767_1_alg».proof.Proof.Bits.Run
import proofs.«422180_j71305047048767_1_alg».proof.Proof.KernelValue
import proofs.«422180_j71305047048767_1_alg».proof.Proof.RefValue
import proofs.«422180_j71305047048767_1_alg».proof.Proof.PreRange

noncomputable section

namespace Cert.Proof

open Idealize.ShloMosaic Idealize.ShloMosaic.TcCoe Idealize.ShloMosaic.ValueIdx Idealize.SL.Sem

/-- The word-level program runs and leaves its arguments as launched. -/
theorem frame_p : Cert.frame_Kernel := fun m ρ _ => Cert.Kernel.Hand.frame m ρ

/-- The idealized program runs and leaves its arguments as launched. -/
theorem frame_pi : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs run, and end with equal results: at every index (s, b, n)
    both results are the specification's logits, the tokens being below 32000 by the precondition. -/
theorem algebraic : Cert.algebraic_KernelIdeal_ReferenceIdeal := by
  intro m ρ m' ρ' hpre hagree
  refine ⟨fun c => Cert.KernelIdeal.Gen.V5 m (Cert.KernelIdeal.Hand.outs m) c Cert.KernelIdeal.main_v24,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.1, (hagree c).2.2.1, (hagree c).2.2.2.1,
    (hagree c).2.2.2.2]
  have hr := Cert.PreRange.tok_lt _ _ _ _ _ (hpre c)
  funext idx
  obtain ⟨s, b, n, rfl⟩ : ∃ (s : Fin 2048) (b : Fin 2) (n : Fin 32000), idx = ix3 s b n := ⟨idx 0, idx 1, idx 2, eq_ix3 idx⟩
  exact (Cert.ReferenceIdeal.RefValue.ref_logits _ _ _ _ _ hr s b n).trans (Cert.KernelIdeal.Hand.kernel_logits m c hr s b n).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
